-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x768 : Shape := ⟨3, ![128, 128, 768]⟩
abbrev S128x768 : Shape := ⟨2, ![128, 768]⟩
abbrev S1024x2x768 : Shape := ⟨3, ![1024, 2, 768]⟩
abbrev S1024 : Shape := ⟨1, ![1024]⟩
abbrev S1024x3x768 : Shape := ⟨3, ![1024, 3, 768]⟩
abbrev S1024x4x768 : Shape := ⟨3, ![1024, 4, 768]⟩
abbrev S1024x768 : Shape := ⟨2, ![1024, 768]⟩
abbrev S_ : Shape := ⟨0, ![]⟩

class Facts : Prop where
  bcast_S_S128x128x768 : S_.BroadcastsInDim S128x128x768 (![] : Fin 0 → Fin S128x128x768.rank)
  reducesTo_S128x128x768_S_d0_1_2 : S128x128x768.ReducesTo [0, 1, 2] S_
  h_S_ : 0 < S_.numel
  bcast_S_S128x768 : S_.BroadcastsInDim S128x768 (![] : Fin 0 → Fin S128x768.rank)
  reducesTo_S128x768_S_d0_1 : S128x768.ReducesTo [0, 1] S_
  bcast_S_S1024x2x768 : S_.BroadcastsInDim S1024x2x768 (![] : Fin 0 → Fin S1024x2x768.rank)
  reducesTo_S1024x2x768_S_d0_1_2 : S1024x2x768.ReducesTo [0, 1, 2] S_
  bcast_S_S1024 : S_.BroadcastsInDim S1024 (![] : Fin 0 → Fin S1024.rank)
  reducesTo_S1024_S_d0 : S1024.ReducesTo [0] S_
  bcast_S_S1024x3x768 : S_.BroadcastsInDim S1024x3x768 (![] : Fin 0 → Fin S1024x3x768.rank)
  reducesTo_S1024x3x768_S_d0_1_2 : S1024x3x768.ReducesTo [0, 1, 2] S_
  bcast_S_S1024x4x768 : S_.BroadcastsInDim S1024x4x768 (![] : Fin 0 → Fin S1024x4x768.rank)
  reducesTo_S1024x4x768_S_d0_1_2 : S1024x4x768.ReducesTo [0, 1, 2] S_
  bcast_S_S1024x768 : S_.BroadcastsInDim S1024x768 (![] : Fin 0 → Fin S1024x768.rank)
  reducesTo_S1024x768_S_d0_1 : S1024x768.ReducesTo [0, 1] S_

variable [Facts]

def fn_part2 {F : FTy → Type} [FloatOps F] (main_arg7 : FVec F S1024 .f32) (main_arg8 : FVec F S1024x768 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x768 .f32 := Host.absf main_arg8
  let main_cst_14 : FVec F S_ .f32 := constant S_ .f32 0x7F800000#32
  let main_v40 : FVec F S1024x768 .f32 := broadcastInDim S1024x768 ![] bcast_S_S1024x768 main_cst_14
  let main_v41 : IVec S1024x768 1 := cmpf .olt main_v39 main_v40
  let main_c_15 : IVec S_ 1 := constantI S_ 1 1#1
  let main_v42 : IVec S_ 1 := (fun x v => Host.reduce IntOp.andi x v reducesTo_S1024x768_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x3x768 .f32) (main_arg5 : FVec F S1024 .f32) (main_arg6 : FVec F S1024x4x768 .f32) (main_arg7 : FVec F S1024 .f32) (main_arg8 : FVec F S1024x768 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x3x768 .f32 := Host.absf main_arg4
  let main_cst_6 : FVec F S_ .f32 := constant S_ .f32 0x7F800000#32
  let main_v20 : FVec F S1024x3x768 .f32 := broadcastInDim S1024x3x768 ![] bcast_S_S1024x3x768 main_cst_6
  let main_v21 : IVec S1024x3x768 1 := cmpf .olt main_v19 main_v20
  let main_c_7 : IVec S_ 1 := constantI S_ 1 1#1
  let main_v22 : IVec S_ 1 := (fun x v => Host.reduce IntOp.andi x v reducesTo_S1024x3x768_S_d0_1_2 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x4x768 .f32 := Host.absf main_arg6
  let main_cst_10 : FVec F S_ .f32 := constant S_ .f32 0x7F800000#32
  let main_v30 : FVec F S1024x4x768 .f32 := broadcastInDim S1024x4x768 ![] bcast_S_S1024x4x768 main_cst_10
  let main_v31 : IVec S1024x4x768 1 := cmpf .olt main_v29 main_v30
  let main_c_11 : IVec S_ 1 := constantI S_ 1 1#1
  let main_v32 : IVec S_ 1 := (fun x v => Host.reduce IntOp.andi x v reducesTo_S1024x4x768_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S128x128x768 .f32) (main_arg1 : FVec F S128x768 .f32) (main_arg2 : FVec F S1024x2x768 .f32) (main_arg3 : FVec F S1024 .f32) (main_arg4 : FVec F S1024x3x768 .f32) (main_arg5 : FVec F S1024 .f32) (main_arg6 : FVec F S1024x4x768 .f32) (main_arg7 : FVec F S1024 .f32) (main_arg8 : FVec F S1024x768 .f32) (main_arg9 : FVec F S1024 .f32) : IVec S_ 1 :=
  let main_v0 : FVec F S128x128x768 .f32 := Host.absf main_arg0
  let main_cst : FVec F S_ .f32 := constant S_ .f32 0x7F800000#32
  let main_v1 : FVec F S128x128x768 .f32 := broadcastInDim S128x128x768 ![] bcast_S_S128x128x768 main_cst
  let main_v2 : IVec S128x128x768 1 := cmpf .olt main_v0 main_v1
  let main_c : IVec S_ 1 := constantI S_ 1 1#1
  let main_v3 : IVec S_ 1 := (fun x v => Host.reduce IntOp.andi x v reducesTo_S128x128x768_S_d0_1_2 h_S_) main_v2 main_c
  let main_v4 : FVec F S128x768 .f32 := Host.absf main_arg1
  let main_cst_0 : FVec F S_ .f32 := constant S_ .f32 0x7F800000#32
  let main_v5 : FVec F S128x768 .f32 := broadcastInDim S128x768 ![] bcast_S_S128x768 main_cst_0
  let main_v6 : IVec S128x768 1 := cmpf .olt main_v4 main_v5
  let main_c_1 : IVec S_ 1 := constantI S_ 1 1#1
  let main_v7 : IVec S_ 1 := (fun x v => Host.reduce IntOp.andi x v reducesTo_S128x768_S_d0_1 h_S_) main_v6 main_c_1
  let main_v8 : IVec S_ 1 := andi main_v3 main_v7
  let main_v9 : FVec F S1024x2x768 .f32 := Host.absf main_arg2
  let main_cst_2 : FVec F S_ .f32 := constant S_ .f32 0x7F800000#32
  let main_v10 : FVec F S1024x2x768 .f32 := broadcastInDim S1024x2x768 ![] bcast_S_S1024x2x768 main_cst_2
  let main_v11 : IVec S1024x2x768 1 := cmpf .olt main_v9 main_v10
  let main_c_3 : IVec S_ 1 := constantI S_ 1 1#1
  let main_v12 : IVec S_ 1 := (fun x v => Host.reduce IntOp.andi x v reducesTo_S1024x2x768_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S128x128x768 : Shape := ⟨3, ![128, 128, 768]⟩
abbrev S128x768 : Shape := ⟨2, ![128, 768]⟩
abbrev S1024x2x768 : Shape := ⟨3, ![1024, 2, 768]⟩
abbrev S1024 : Shape := ⟨1, ![1024]⟩
abbrev S1024x3x768 : Shape := ⟨3, ![1024, 3, 768]⟩
abbrev S1024x4x768 : Shape := ⟨3, ![1024, 4, 768]⟩
abbrev S1024x768 : Shape := ⟨2, ![1024, 768]⟩
abbrev S2x768x1024 : Shape := ⟨3, ![2, 768, 1024]⟩
abbrev S3x768x1024 : Shape := ⟨3, ![3, 768, 1024]⟩
abbrev S4x768x1024 : Shape := ⟨3, ![4, 768, 1024]⟩
abbrev S768x1024 : Shape := ⟨2, ![768, 1024]⟩
abbrev S1x1024 : Shape := ⟨2, ![1, 1024]⟩
abbrev S128x1x768 : Shape := ⟨3, ![128, 1, 768]⟩
abbrev S128x126x1024 : Shape := ⟨3, ![128, 126, 1024]⟩
abbrev S128x1x1024 : Shape := ⟨3, ![128, 1, 1024]⟩
abbrev S4x128x768 : Shape := ⟨3, ![4, 128, 768]⟩
abbrev S4x1x768 : Shape := ⟨3, ![4, 1, 768]⟩
abbrev S4x126x1024 : Shape := ⟨3, ![4, 126, 1024]⟩
abbrev S4x1x1024 : Shape := ⟨3, ![4, 1, 1024]⟩
abbrev S4x127x1024 : Shape := ⟨3, ![4, 127, 1024]⟩
abbrev S4x127x768 : Shape := ⟨3, ![4, 127, 768]⟩
abbrev S508x768 : Shape := ⟨2, ![508, 768]⟩
abbrev S1x768x1024 : Shape := ⟨3, ![1, 768, 1024]⟩
abbrev S508x1024 : Shape := ⟨2, ![508, 1024]⟩
abbrev S1x1x1024 : Shape := ⟨3, ![1, 1, 1024]⟩
abbrev S4x126x768 : Shape := ⟨3, ![4, 126, 768]⟩
abbrev S504x768 : Shape := ⟨2, ![504, 768]⟩
abbrev S504x1024 : Shape := ⟨2, ![504, 1024]⟩
abbrev S4x125x1024 : Shape := ⟨3, ![4, 125, 1024]⟩
abbrev S4x125x768 : Shape := ⟨3, ![4, 125, 768]⟩
abbrev S500x768 : Shape := ⟨2, ![500, 768]⟩
abbrev S500x1024 : Shape := ⟨2, ![500, 1024]⟩
abbrev S4x124x1024 : Shape := ⟨3, ![4, 124, 1024]⟩
abbrev S4x1024 : Shape := ⟨2, ![4, 1024]⟩
abbrev S4x124 : Shape := ⟨2, ![4, 124]⟩
abbrev S4x124x1 : Shape := ⟨3, ![4, 124, 1]⟩
abbrev S4 : Shape := ⟨1, ![4]⟩
abbrev S4x1 : Shape := ⟨2, ![4, 1]⟩
abbrev S4x768 : Shape := ⟨2, ![4, 768]⟩
abbrev S128x1024 : Shape := ⟨2, ![128, 1024]⟩
abbrev S128x1024x126 : Shape := ⟨3, ![128, 1024, 126]⟩

abbrev nBuf : Space → Nat
  | .hbm => 27
  | .vmem => 16
  | .smem => 0
  | _ => 0

abbrev bufTy : (tb : Table) → Fin (tcTables nBuf tb) → BufTy
  | .hbm, ⟨0, _⟩ => ⟨S128x128x768, .f32⟩
  | .hbm, ⟨1, _⟩ => ⟨S128x768, .f32⟩
  | .hbm, ⟨2, _⟩ => ⟨S1024x2x768, .f32⟩
  | .hbm, ⟨3, _⟩ => ⟨S1024, .f32⟩
  | .hbm, ⟨4, _⟩ => ⟨S1024x3x768, .f32⟩
  | .hbm, ⟨5, _⟩ => ⟨S1024, .f32⟩
  | .hbm, ⟨6, _⟩ => ⟨S1024x4x768, .f32⟩
  | .hbm, ⟨7, _⟩ => ⟨S1024, .f32⟩
  | .hbm, ⟨8, _⟩ => ⟨S1024x768, .f32⟩
  | .hbm, ⟨9, _⟩ => ⟨S1024, .f32⟩
  | .hbm, ⟨10, _⟩ => ⟨S2x768x1024, .f32⟩
  | .hbm, ⟨11, _⟩ => ⟨S2x768x1024, .bf16⟩
  | .hbm, ⟨12, _⟩ => ⟨S3x768x1024, .f32⟩
  | .hbm, ⟨13, _⟩ => ⟨S3x768x1024, .bf16⟩
  | .hbm, ⟨14, _⟩ => ⟨S4x768x1024, .f32⟩
  | .hbm, ⟨15, _⟩ => ⟨S4x768x1024, .bf16⟩
  | .hbm, ⟨16, _⟩ => ⟨S768x1024, .f32⟩
  | .hbm, ⟨17, _⟩ => ⟨S768x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S128x1x768, .f32⟩
  | .hbm, ⟨23, _⟩ => ⟨S128x126x1024, .f32⟩
  | .hbm, ⟨24, _⟩ => ⟨S128x1x1024, .f32⟩
  | .hbm, ⟨25, _⟩ => ⟨S128x1024, .f32⟩
  | .hbm, ⟨26, _⟩ => ⟨S128x1024x126, .f32⟩
  | .local _ .vmem, ⟨0, _⟩ => ⟨S4x128x768, .f32⟩
  | .local _ .vmem, ⟨1, _⟩ => ⟨S4x128x768, .f32⟩
  | .local _ .vmem, ⟨2, _⟩ => ⟨S4x1x768, .f32⟩
  | .local _ .vmem, ⟨3, _⟩ => ⟨S4x1x768, .f32⟩
  | .local _ .vmem, ⟨4, _⟩ => ⟨S2x768x1024, .bf16⟩
  | .local _ .vmem, ⟨5, _⟩ => ⟨S3x768x1024, .bf16⟩
  | .local _ .vmem, ⟨6, _⟩ => ⟨S4x768x1024, .bf16⟩
  | .local _ .vmem, ⟨7, _⟩ => ⟨S768x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S4x126x1024, .f32⟩
  | .local _ .vmem, ⟨13, _⟩ => ⟨S4x126x1024, .f32⟩
  | .local _ .vmem, ⟨14, _⟩ => ⟨S4x1x1024, .f32⟩
  | .local _ .vmem, ⟨15, _⟩ => ⟨S4x1x1024, .f32⟩
  | _, _ => ⟨S128x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x126x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S1024x2x768_S2x768x1024_1_2_0 : S1024x2x768.Transposes [1, 2, 0] S2x768x1024
  bitsLt_bf16_f32 : FTy.bits .bf16 < FTy.bits .f32
  transposes_S1024x3x768_S3x768x1024_1_2_0 : S1024x3x768.Transposes [1, 2, 0] S3x768x1024
  transposes_S1024x4x768_S4x768x1024_1_2_0 : S1024x4x768.Transposes [1, 2, 0] S4x768x1024
  transposes_S1024x768_S768x1024_1_0 : S1024x768.Transposes [1, 0] S768x1024
  shapeCasts_S1024_S1x1024 : S1024.ShapeCasts S1x1024
  shapeCasts_S128x768_S128x1x768 : S128x768.ShapeCasts S128x1x768
  inb_S4x128x768_S4x128x768_0_0_0 : ∀ a, (![0, 0, 0] : Fin 3 → Nat) a + S4x128x768.size a ≤ S4x128x768.size a
  h_S4x128x768 : 0 < S4x128x768.numel
  slices_S4x128x768_o0_0_0_S4x127x768 : S4x128x768.Slices ![0, 0, 0] S4x127x768
  shapeCasts_S4x127x768_S508x768 : S4x127x768.ShapeCasts S508x768
  inb_S2x768x1024_S1x768x1024_0_0_0 : ∀ a, (![0, 0, 0] : Fin 3 → Nat) a + S1x768x1024.size a ≤ S2x768x1024.size a
  h_S1x768x1024 : 0 < S1x768x1024.numel
  shapeCasts_S1x768x1024_S768x1024 : S1x768x1024.ShapeCasts S768x1024
  shapeCasts_S508x1024_S4x127x1024 : S508x1024.ShapeCasts S4x127x1024
  slices_S4x128x768_o0_1_0_S4x127x768 : S4x128x768.Slices ![0, 1, 0] S4x127x768
  inb_S2x768x1024_S1x768x1024_1_0_0 : ∀ a, (![1, 0, 0] : Fin 3 → Nat) a + S1x768x1024.size a ≤ S2x768x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S1x1x1024_S4x127x1024 : S1x1x1024.Broadcasts S4x127x1024
  slices_S4x128x768_o0_0_0_S4x126x768 : S4x128x768.Slices ![0, 0, 0] S4x126x768
  shapeCasts_S4x126x768_S504x768 : S4x126x768.ShapeCasts S504x768
  inb_S3x768x1024_S1x768x1024_0_0_0 : ∀ a, (![0, 0, 0] : Fin 3 → Nat) a + S1x768x1024.size a ≤ S3x768x1024.size a
  shapeCasts_S504x1024_S4x126x1024 : S504x1024.ShapeCasts S4x126x1024
  slices_S4x128x768_o0_1_0_S4x126x768 : S4x128x768.Slices ![0, 1, 0] S4x126x768
  inb_S3x768x1024_S1x768x1024_1_0_0 : ∀ a, (![1, 0, 0] : Fin 3 → Nat) a + S1x768x1024.size a ≤ S3x768x1024.size a
  slices_S4x128x768_o0_2_0_S4x126x768 : S4x128x768.Slices ![0, 2, 0] S4x126x768
  inb_S3x768x1024_S1x768x1024_2_0_0 : ∀ a, (![2, 0, 0] : Fin 3 → Nat) a + S1x768x1024.size a ≤ S3x768x1024.size a
  broadcasts_S1x1x1024_S4x126x1024 : S1x1x1024.Broadcasts S4x126x1024
  slices_S4x128x768_o0_0_0_S4x125x768 : S4x128x768.Slices ![0, 0, 0] S4x125x768
  shapeCasts_S4x125x768_S500x768 : S4x125x768.ShapeCasts S500x768
  inb_S4x768x1024_S1x768x1024_0_0_0 : ∀ a, (![0, 0, 0] : Fin 3 → Nat) a + S1x768x1024.size a ≤ S4x768x1024.size a
  shapeCasts_S500x1024_S4x125x1024 : S500x1024.ShapeCasts S4x125x1024
  slices_S4x128x768_o0_1_0_S4x125x768 : S4x128x768.Slices ![0, 1, 0] S4x125x768
  inb_S4x768x1024_S1x768x1024_1_0_0 : ∀ a, (![1, 0, 0] : Fin 3 → Nat) a + S1x768x1024.size a ≤ S4x768x1024.size a
  slices_S4x128x768_o0_2_0_S4x125x768 : S4x128x768.Slices ![0, 2, 0] S4x125x768
  inb_S4x768x1024_S1x768x1024_2_0_0 : ∀ a, (![2, 0, 0] : Fin 3 → Nat) a + S1x768x1024.size a ≤ S4x768x1024.size a
  slices_S4x128x768_o0_3_0_S4x125x768 : S4x128x768.Slices ![0, 3, 0] S4x125x768
  inb_S4x768x1024_S1x768x1024_3_0_0 : ∀ a, (![3, 0, 0] : Fin 3 → Nat) a + S1x768x1024.size a ≤ S4x768x1024.size a
  broadcasts_S1x1x1024_S4x125x1024 : S1x1x1024.Broadcasts S4x125x1024
  slices_S4x127x1024_o0_0_0_S4x124x1024 : S4x127x1024.Slices ![0, 0, 0] S4x124x1024
  slices_S4x126x1024_o0_0_0_S4x124x1024 : S4x126x1024.Slices ![0, 0, 0] S4x124x1024
  slices_S4x125x1024_o0_0_0_S4x124x1024 : S4x125x1024.Slices ![0, 0, 0] S4x124x1024
  slices_S4x127x1024_o0_124_0_S4x1x1024 : S4x127x1024.Slices ![0, 124, 0] S4x1x1024
  shapeCasts_S4x1x1024_S4x1024 : S4x1x1024.ShapeCasts S4x1024
  slices_S4x126x1024_o0_124_0_S4x1x1024 : S4x126x1024.Slices ![0, 124, 0] S4x1x1024
  slices_S4x127x1024_o0_125_0_S4x1x1024 : S4x127x1024.Slices ![0, 125, 0] S4x1x1024
  reduces_S4x124x1024_S4x124 : S4x124x1024.Reduces [2] S4x124
  shapeCasts_S4x124_S4x124x1 : S4x124.ShapeCasts S4x124x1
  broadcasts_S4x124x1_S4x124x1024 : S4x124x1.Broadcasts S4x124x1024
  reduces_S4x1024_S4 : S4x1024.Reduces [1] S4
  shapeCasts_S4_S4x1 : S4.ShapeCasts S4x1
  broadcasts_S4x1_S4x1024 : S4x1.Broadcasts S4x1024
  inb_S4x126x1024_S4x124x1024_0_0_0 : ∀ a, (![0, 0, 0] : Fin 3 → Nat) a + S4x124x1024.size a ≤ S4x126x1024.size a
  h_S4x124x1024 : 0 < S4x124x1024.numel
  shapeCasts_S4x1024_S4x1x1024 : S4x1024.ShapeCasts S4x1x1024
  inb_S4x126x1024_S4x1x1024_0_124_0 : ∀ a, (![0, 124, 0] : Fin 3 → Nat) a + S4x1x1024.size a ≤ S4x126x1024.size a
  h_S4x1x1024 : 0 < S4x1x1024.numel
  inb_S4x126x1024_S4x1x1024_0_125_0 : ∀ a, (![0, 125, 0] : Fin 3 → Nat) a + S4x1x1024.size a ≤ S4x126x1024.size a
  inb_S4x1x768_S4x1x768_0_0_0 : ∀ a, (![0, 0, 0] : Fin 3 → Nat) a + S4x1x768.size a ≤ S4x1x768.size a
  h_S4x1x768 : 0 < S4x1x768.numel
  shapeCasts_S4x1x768_S4x1x768 : S4x1x768.ShapeCasts S4x1x768
  shapeCasts_S4x1x768_S4x768 : S4x1x768.ShapeCasts S4x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  broadcasts_S1x1024_S4x1024 : S1x1024.Broadcasts S4x1024
  inb_S4x1x1024_S4x1x1024_0_0_0 : ∀ a, (![0, 0, 0] : Fin 3 → Nat) a + S4x1x1024.size a ≤ S4x1x1024.size a
  shapeCasts_S128x1x1024_S128x1024 : S128x1x1024.ShapeCasts S128x1024
  transposes_S128x126x1024_S128x1024x126_0_2_1 : S128x126x1024.Transposes [0, 2, 1] S128x1024x126
  dot_S508x768_S768x1024_S508x1024_1_0_0_1_n_n_wf : DotDims.WF S508x768 S768x1024 S508x1024 [1] [0] [0] [1] [] []
  dot_S504x768_S768x1024_S504x1024_1_0_0_1_n_n_wf : DotDims.WF S504x768 S768x1024 S504x1024 [1] [0] [0] [1] [] []
  dot_S500x768_S768x1024_S500x1024_1_0_0_1_n_n_wf : DotDims.WF S500x768 S768x1024 S500x1024 [1] [0] [0] [1] [] []
  dot_S4x768_S768x1024_S4x1024_1_0_0_1_n_n_wf : DotDims.WF S4x768 S768x1024 S4x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x768.size a ≤ S128x128x768.size a
  hwx0_0 : ∀ i : grid0.Coords, EltTy.bits .f32 = 32 ∨ (Rect.block (s := S128x128x768) S4x128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x768.size a ≤ S128x1x768.size a
  hwx0_1 : ∀ i : grid0.Coords, EltTy.bits .f32 = 32 ∨ (Rect.block (s := S128x1x768) S4x1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x768x1024.size a ≤ S2x768x1024.size a
  hwx0_2 : ∀ i : grid0.Coords, EltTy.bits .bf16 = 32 ∨ (Rect.block (s := S2x768x1024) S2x768x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x768x1024.size a ≤ S3x768x1024.size a
  hwx0_3 : ∀ i : grid0.Coords, EltTy.bits .bf16 = 32 ∨ (Rect.block (s := S3x768x1024) S3x768x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x768x1024.size a ≤ S4x768x1024.size a
  hwx0_4 : ∀ i : grid0.Coords, EltTy.bits .bf16 = 32 ∨ (Rect.block (s := S4x768x1024) S4x768x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x1024.size a ≤ S768x1024.size a
  hwx0_5 : ∀ i : grid0.Coords, EltTy.bits .bf16 = 32 ∨ (Rect.block (s := S768x1024) S768x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x126x1024.size a ≤ S128x126x1024.size a
  hwx0_10 : ∀ i : grid0.Coords, EltTy.bits .f32 = 32 ∨ (Rect.block (s := S128x126x1024) S4x126x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x1x1024.size a ≤ S128x1x1024.size a
  hwx0_11 : ∀ i : grid0.Coords, EltTy.bits .f32 = 32 ∨ (Rect.block (s := S128x1x1024) S4x1x1024.size (cc0_transform_11 i) (hinb0_11 i)).WholeWords (EltTy.packing .f32)

variable [Facts₀]

def dot_S508x768_S768x1024_S508x1024_1_0_0_1_n_n : DotDims S508x768 S768x1024 S508x1024 where
  lhsContracting := [1]
  rhsContracting := [0]
  lhsNonContracting := [0]
  rhsNonContracting := [1]
  lhsBatch := []
  rhsBatch := []
  wf := dot_S508x768_S768x1024_S508x1024_1_0_0_1_n_n_wf
def dot_S504x768_S768x1024_S504x1024_1_0_0_1_n_n : DotDims S504x768 S768x1024 S504x1024 where
  lhsContracting := [1]
  rhsContracting := [0]
  lhsNonContracting := [0]
  rhsNonContracting := [1]
  lhsBatch := []
  rhsBatch := []
  wf := dot_S504x768_S768x1024_S504x1024_1_0_0_1_n_n_wf
def dot_S500x768_S768x1024_S500x1024_1_0_0_1_n_n : DotDims S500x768 S768x1024 S500x1024 where
  lhsContracting := [1]
  rhsContracting := [0]
  lhsNonContracting := [0]
  rhsNonContracting := [1]
  lhsBatch := []
  rhsBatch := []
  wf := dot_S500x768_S768x1024_S500x1024_1_0_0_1_n_n_wf
def dot_S4x768_S768x1024_S4x1024_1_0_0_1_n_n : DotDims S4x768 S768x1024 S4x1024 where
  lhsContracting := [1]
  rhsContracting := [0]
  lhsNonContracting := [0]
  rhsNonContracting := [1]
  lhsBatch := []
  rhsBatch := []
  wf := dot_S4x768_S768x1024_S4x1024_1_0_0_1_n_n_wf

abbrev win0_0 : Pipeline.Window sig grid0 :=
  Pipeline.Window.ofSpec (Memref.whole main_arg0) S4x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4x1x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x768x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3x768x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x768x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S768x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13_0) S4x126x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v13_1) S4x1x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S128x128x768 : Shape := ⟨3, ![128, 128, 768]⟩
abbrev S128x768 : Shape := ⟨2, ![128, 768]⟩
abbrev S1024x2x768 : Shape := ⟨3, ![1024, 2, 768]⟩
abbrev S1024 : Shape := ⟨1, ![1024]⟩
abbrev S1024x3x768 : Shape := ⟨3, ![1024, 3, 768]⟩
abbrev S1024x4x768 : Shape := ⟨3, ![1024, 4, 768]⟩
abbrev S1024x768 : Shape := ⟨2, ![1024, 768]⟩
abbrev S768x1024 : Shape := ⟨2, ![768, 1024]⟩
abbrev S128x1024 : Shape := ⟨2, ![128, 1024]⟩
abbrev S1x1024 : Shape := ⟨2, ![1, 1024]⟩
abbrev S_ : Shape := ⟨0, ![]⟩
abbrev S128 : Shape := ⟨1, ![128]⟩
abbrev S128x1 : Shape := ⟨2, ![128, 1]⟩
abbrev S128x127x768 : Shape := ⟨3, ![128, 127, 768]⟩
abbrev S1024x1x768 : Shape := ⟨3, ![1024, 1, 768]⟩
abbrev S128x127x1024 : Shape := ⟨3, ![128, 127, 1024]⟩
abbrev S1x1x1024 : Shape := ⟨3, ![1, 1, 1024]⟩
abbrev S128x126x768 : Shape := ⟨3, ![128, 126, 768]⟩
abbrev S128x126x1024 : Shape := ⟨3, ![128, 126, 1024]⟩
abbrev S128x125x768 : Shape := ⟨3, ![128, 125, 768]⟩
abbrev S128x125x1024 : Shape := ⟨3, ![128, 125, 1024]⟩
abbrev S128x124x1024 : Shape := ⟨3, ![128, 124, 1024]⟩
abbrev S128x1x1024 : Shape := ⟨3, ![128, 1, 1024]⟩
abbrev S128x126 : Shape := ⟨2, ![128, 126]⟩
abbrev S128x126x1 : Shape := ⟨3, ![128, 126, 1]⟩
abbrev S128x1024x126 : Shape := ⟨3, ![128, 1024, 126]⟩

abbrev nBuf : Space → Nat
  | .hbm => 120
  | .vmem => 0
  | .smem => 0
  | _ => 0

abbrev bufTy : (tb : Table) → Fin (tcTables nBuf tb) → BufTy
  | .hbm, ⟨0, _⟩ => ⟨S128x128x768, .f32⟩
  | .hbm, ⟨1, _⟩ => ⟨S128x768, .f32⟩
  | .hbm, ⟨2, _⟩ => ⟨S1024x2x768, .f32⟩
  | .hbm, ⟨3, _⟩ => ⟨S1024, .f32⟩
  | .hbm, ⟨4, _⟩ => ⟨S1024x3x768, .f32⟩
  | .hbm, ⟨5, _⟩ => ⟨S1024, .f32⟩
  | .hbm, ⟨6, _⟩ => ⟨S1024x4x768, .f32⟩
  | .hbm, ⟨7, _⟩ => ⟨S1024, .f32⟩
  | .hbm, ⟨8, _⟩ => ⟨S1024x768, .f32⟩
  | .hbm, ⟨9, _⟩ => ⟨S1024, .f32⟩
  | .hbm, ⟨10, _⟩ => ⟨S768x1024, .f32⟩
  | .hbm, ⟨11, _⟩ => ⟨S128x1024, .f32⟩
  | .hbm, ⟨12, _⟩ => ⟨S1x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128, .f32⟩
  | .hbm, ⟨18, _⟩ => ⟨S128x1, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S128x1024, .f32⟩
  | .hbm, ⟨24, _⟩ => ⟨S128x1024, .f32⟩
  | .hbm, ⟨25, _⟩ => ⟨S128x127x768, .f32⟩
  | .hbm, ⟨26, _⟩ => ⟨S1024x1x768, .f32⟩
  | .hbm, ⟨27, _⟩ => ⟨S1024x768, .f32⟩
  | .hbm, ⟨28, _⟩ => ⟨S128x127x1024, .f32⟩
  | .hbm, ⟨29, _⟩ => ⟨S_, .f32⟩
  | .hbm, ⟨30, _⟩ => ⟨S128x127x1024, .f32⟩
  | .hbm, ⟨31, _⟩ => ⟨S128x127x1024, .f32⟩
  | .hbm, ⟨32, _⟩ => ⟨S128x127x768, .f32⟩
  | .hbm, ⟨33, _⟩ => ⟨S1024x1x768, .f32⟩
  | .hbm, ⟨34, _⟩ => ⟨S1024x768, .f32⟩
  | .hbm, ⟨35, _⟩ => ⟨S128x127x1024, .f32⟩
  | .hbm, ⟨36, _⟩ => ⟨S128x127x1024, .f32⟩
  | .hbm, ⟨37, _⟩ => ⟨S1x1x1024, .f32⟩
  | .hbm, ⟨38, _⟩ => ⟨S128x127x1024, .f32⟩
  | .hbm, ⟨39, _⟩ => ⟨S128x127x1024, .f32⟩
  | .hbm, ⟨40, _⟩ => ⟨S_, .f32⟩
  | .hbm, ⟨41, _⟩ => ⟨S128x127x1024, .f32⟩
  | .hbm, ⟨42, _⟩ => ⟨S128x127x1024, .f32⟩
  | .hbm, ⟨43, _⟩ => ⟨S128x126x768, .f32⟩
  | .hbm, ⟨44, _⟩ => ⟨S1024x1x768, .f32⟩
  | .hbm, ⟨45, _⟩ => ⟨S1024x768, .f32⟩
  | .hbm, ⟨46, _⟩ => ⟨S128x126x1024, .f32⟩
  | .hbm, ⟨47, _⟩ => ⟨S_, .f32⟩
  | .hbm, ⟨48, _⟩ => ⟨S128x126x1024, .f32⟩
  | .hbm, ⟨49, _⟩ => ⟨S128x126x1024, .f32⟩
  | .hbm, ⟨50, _⟩ => ⟨S128x126x768, .f32⟩
  | .hbm, ⟨51, _⟩ => ⟨S1024x1x768, .f32⟩
  | .hbm, ⟨52, _⟩ => ⟨S1024x768, .f32⟩
  | .hbm, ⟨53, _⟩ => ⟨S128x126x1024, .f32⟩
  | .hbm, ⟨54, _⟩ => ⟨S128x126x1024, .f32⟩
  | .hbm, ⟨55, _⟩ => ⟨S128x126x768, .f32⟩
  | .hbm, ⟨56, _⟩ => ⟨S1024x1x768, .f32⟩
  | .hbm, ⟨57, _⟩ => ⟨S1024x768, .f32⟩
  | .hbm, ⟨58, _⟩ => ⟨S128x126x1024, .f32⟩
  | .hbm, ⟨59, _⟩ => ⟨S128x126x1024, .f32⟩
  | .hbm, ⟨60, _⟩ => ⟨S1x1x1024, .f32⟩
  | .hbm, ⟨61, _⟩ => ⟨S128x126x1024, .f32⟩
  | .hbm, ⟨62, _⟩ => ⟨S128x126x1024, .f32⟩
  | .hbm, ⟨63, _⟩ => ⟨S_, .f32⟩
  | .hbm, ⟨64, _⟩ => ⟨S128x126x1024, .f32⟩
  | .hbm, ⟨65, _⟩ => ⟨S128x126x1024, .f32⟩
  | .hbm, ⟨66, _⟩ => ⟨S128x125x768, .f32⟩
  | .hbm, ⟨67, _⟩ => ⟨S1024x1x768, .f32⟩
  | .hbm, ⟨68, _⟩ => ⟨S1024x768, .f32⟩
  | .hbm, ⟨69, _⟩ => ⟨S128x125x1024, .f32⟩
  | .hbm, ⟨70, _⟩ => ⟨S_, .f32⟩
  | .hbm, ⟨71, _⟩ => ⟨S128x125x1024, .f32⟩
  | .hbm, ⟨72, _⟩ => ⟨S128x125x1024, .f32⟩
  | .hbm, ⟨73, _⟩ => ⟨S128x125x768, .f32⟩
  | .hbm, ⟨74, _⟩ => ⟨S1024x1x768, .f32⟩
  | .hbm, ⟨75, _⟩ => ⟨S1024x768, .f32⟩
  | .hbm, ⟨76, _⟩ => ⟨S128x125x1024, .f32⟩
  | .hbm, ⟨77, _⟩ => ⟨S128x125x1024, .f32⟩
  | .hbm, ⟨78, _⟩ => ⟨S128x125x768, .f32⟩
  | .hbm, ⟨79, _⟩ => ⟨S1024x1x768, .f32⟩
  | .hbm, ⟨80, _⟩ => ⟨S1024x768, .f32⟩
  | .hbm, ⟨81, _⟩ => ⟨S128x125x1024, .f32⟩
  | .hbm, ⟨82, _⟩ => ⟨S128x125x1024, .f32⟩
  | .hbm, ⟨83, _⟩ => ⟨S128x125x768, .f32⟩
  | .hbm, ⟨84, _⟩ => ⟨S1024x1x768, .f32⟩
  | .hbm, ⟨85, _⟩ => ⟨S1024x768, .f32⟩
  | .hbm, ⟨86, _⟩ => ⟨S128x125x1024, .f32⟩
  | .hbm, ⟨87, _⟩ => ⟨S128x125x1024, .f32⟩
  | .hbm, ⟨88, _⟩ => ⟨S1x1x1024, .f32⟩
  | .hbm, ⟨89, _⟩ => ⟨S128x125x1024, .f32⟩
  | .hbm, ⟨90, _⟩ => ⟨S128x125x1024, .f32⟩
  | .hbm, ⟨91, _⟩ => ⟨S_, .f32⟩
  | .hbm, ⟨92, _⟩ => ⟨S128x125x1024, .f32⟩
  | .hbm, ⟨93, _⟩ => ⟨S128x125x1024, .f32⟩
  | .hbm, ⟨94, _⟩ => ⟨S128x124x1024, .f32⟩
  | .hbm, ⟨95, _⟩ => ⟨S128x124x1024, .f32⟩
  | .hbm, ⟨96, _⟩ => ⟨S128x124x1024, .f32⟩
  | .hbm, ⟨97, _⟩ => ⟨S128x124x1024, .f32⟩
  | .hbm, ⟨98, _⟩ => ⟨S128x124x1024, .f32⟩
  | .hbm, ⟨99, _⟩ => ⟨S128x1x1024, .f32⟩
  | .hbm, ⟨100, _⟩ => ⟨S128x1024, .f32⟩
  | .hbm, ⟨101, _⟩ => ⟨S128x1x1024, .f32⟩
  | .hbm, ⟨102, _⟩ => ⟨S128x1024, .f32⟩
  | .hbm, ⟨103, _⟩ => ⟨S128x1024, .f32⟩
  | .hbm, ⟨104, _⟩ => ⟨S128x1x1024, .f32⟩
  | .hbm, ⟨105, _⟩ => ⟨S128x1x1024, .f32⟩
  | .hbm, ⟨106, _⟩ => ⟨S128x1024, .f32⟩
  | .hbm, ⟨107, _⟩ => ⟨S128x1x1024, .f32⟩
  | .hbm, ⟨108, _⟩ => ⟨S128x126x1024, .f32⟩
  | .hbm, ⟨109, _⟩ => ⟨S128x126x1024, .f32⟩
  | .hbm, ⟨110, _⟩ => ⟨S_, .f32⟩
  | .hbm, ⟨111, _⟩ => ⟨S128x126, .f32⟩
  | .hbm, ⟨112, _⟩ => ⟨S128x126x1, .f32⟩
  | .hbm, ⟨113, _⟩ => ⟨S128x126x1, .f32⟩
  | .hbm, ⟨114, _⟩ => ⟨S_, .f32⟩
  | .hbm, ⟨115, _⟩ => ⟨S128x126x1, .f32⟩
  | .hbm, ⟨116, _⟩ => ⟨S128x126x1, .f32⟩
  | .hbm, ⟨117, _⟩ => ⟨S128x126x1024, .f32⟩
  | .hbm, ⟨118, _⟩ => ⟨S128x126x1024, .f32⟩
  | .hbm, ⟨119, _⟩ => ⟨S128x1024x126, .f32⟩
  | _, _ => ⟨S128x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call1_cst : Ref sig .tc := ⟨.hbm, 63, rfl⟩
abbrev main_call1_v0 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_call2_cst : Ref sig .tc := ⟨.hbm, 91, rfl⟩
abbrev main_call2_v0 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_4 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_5 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩

abbrev nD : Nat := 1
abbrev τ : Topo := Topo.v7x

variable {F : FTy → Type} [FloatOps F]

class Facts₀ : Prop where
  transposes_S1024x768_S768x1024_1_0 : S1024x768.Transposes [1, 0] S768x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  reducesTo_S128x1024_S128_d1 : S128x1024.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x1024_0_1 : S128x1.BroadcastsInDim S128x1024 (![0, 1] : Fin 2 → Fin S128x1024.rank)
  slices_S128x128x768_S128x127x768_0_0_0 : S128x128x768.Slices ![0, 0, 0] S128x127x768
  slices_S1024x2x768_S1024x1x768_0_0_0 : S1024x2x768.Slices ![0, 0, 0] S1024x1x768
  shapeCasts_S1024x1x768_S1024x768 : S1024x1x768.ShapeCasts S1024x768
  bcast_S_S128x127x1024 : S_.BroadcastsInDim S128x127x1024 (![] : Fin 0 → Fin S128x127x1024.rank)
  slices_S128x128x768_S128x127x768_0_1_0 : S128x128x768.Slices ![0, 1, 0] S128x127x768
  slices_S1024x2x768_S1024x1x768_0_1_0 : S1024x2x768.Slices ![0, 1, 0] S1024x1x768
  bcast_S1024_S1x1x1024_2 : S1024.BroadcastsInDim S1x1x1024 (![2] : Fin 1 → Fin S1x1x1024.rank)
  bcast_S1x1x1024_S128x127x1024_0_1_2 : S1x1x1024.BroadcastsInDim S128x127x1024 (![0, 1, 2] : Fin 3 → Fin S128x127x1024.rank)
  slices_S128x128x768_S128x126x768_0_0_0 : S128x128x768.Slices ![0, 0, 0] S128x126x768
  slices_S1024x3x768_S1024x1x768_0_0_0 : S1024x3x768.Slices ![0, 0, 0] S1024x1x768
  bcast_S_S128x126x1024 : S_.BroadcastsInDim S128x126x1024 (![] : Fin 0 → Fin S128x126x1024.rank)
  slices_S128x128x768_S128x126x768_0_1_0 : S128x128x768.Slices ![0, 1, 0] S128x126x768
  slices_S1024x3x768_S1024x1x768_0_1_0 : S1024x3x768.Slices ![0, 1, 0] S1024x1x768
  slices_S128x128x768_S128x126x768_0_2_0 : S128x128x768.Slices ![0, 2, 0] S128x126x768
  slices_S1024x3x768_S1024x1x768_0_2_0 : S1024x3x768.Slices ![0, 2, 0] S1024x1x768
  bcast_S1x1x1024_S128x126x1024_0_1_2 : S1x1x1024.BroadcastsInDim S128x126x1024 (![0, 1, 2] : Fin 3 → Fin S128x126x1024.rank)
  slices_S128x128x768_S128x125x768_0_0_0 : S128x128x768.Slices ![0, 0, 0] S128x125x768
  slices_S1024x4x768_S1024x1x768_0_0_0 : S1024x4x768.Slices ![0, 0, 0] S1024x1x768
  bcast_S_S128x125x1024 : S_.BroadcastsInDim S128x125x1024 (![] : Fin 0 → Fin S128x125x1024.rank)
  slices_S128x128x768_S128x125x768_0_1_0 : S128x128x768.Slices ![0, 1, 0] S128x125x768
  slices_S1024x4x768_S1024x1x768_0_1_0 : S1024x4x768.Slices ![0, 1, 0] S1024x1x768
  slices_S128x128x768_S128x125x768_0_2_0 : S128x128x768.Slices ![0, 2, 0] S128x125x768
  slices_S1024x4x768_S1024x1x768_0_2_0 : S1024x4x768.Slices ![0, 2, 0] S1024x1x768
  slices_S128x128x768_S128x125x768_0_3_0 : S128x128x768.Slices ![0, 3, 0] S128x125x768
  slices_S1024x4x768_S1024x1x768_0_3_0 : S1024x4x768.Slices ![0, 3, 0] S1024x1x768
  bcast_S1x1x1024_S128x125x1024_0_1_2 : S1x1x1024.BroadcastsInDim S128x125x1024 (![0, 1, 2] : Fin 3 → Fin S128x125x1024.rank)
  slices_S128x127x1024_S128x124x1024_0_0_0 : S128x127x1024.Slices ![0, 0, 0] S128x124x1024
  slices_S128x126x1024_S128x124x1024_0_0_0 : S128x126x1024.Slices ![0, 0, 0] S128x124x1024
  slices_S128x125x1024_S128x124x1024_0_0_0 : S128x125x1024.Slices ![0, 0, 0] S128x124x1024
  slices_S128x127x1024_S128x1x1024_0_124_0 : S128x127x1024.Slices ![0, 124, 0] S128x1x1024
  shapeCasts_S128x1x1024_S128x1024 : S128x1x1024.ShapeCasts S128x1024
  slices_S128x126x1024_S128x1x1024_0_124_0 : S128x126x1024.Slices ![0, 124, 0] S128x1x1024
  bcast_S128x1024_S128x1x1024_0_2 : S128x1024.BroadcastsInDim S128x1x1024 (![0, 2] : Fin 2 → Fin S128x1x1024.rank)
  slices_S128x127x1024_S128x1x1024_0_125_0 : S128x127x1024.Slices ![0, 125, 0] S128x1x1024
  concatenates_S128x124x1024_S128x1x1024_S128x1x1024_S128x126x1024_d1 : Shape.Concatenates [S128x124x1024, S128x1x1024, S128x1x1024] S128x126x1024 1
  reducesTo_S128x126x1024_S128x126_d2 : S128x126x1024.ReducesTo [2] S128x126
  bcast_S128x126_S128x126x1_0_1 : S128x126.BroadcastsInDim S128x126x1 (![0, 1] : Fin 2 → Fin S128x126x1.rank)
  bcast_S_S128x126x1 : S_.BroadcastsInDim S128x126x1 (![] : Fin 0 → Fin S128x126x1.rank)
  bcast_S128x126x1_S128x126x1024_0_1_2 : S128x126x1.BroadcastsInDim S128x126x1024 (![0, 1, 2] : Fin 3 → Fin S128x126x1024.rank)
  transposes_S128x126x1024_S128x1024x126_0_2_1 : S128x126x1024.Transposes [0, 2, 1] S128x1024x126
  dot_S128x768_S768x1024_S128x1024_1_0_0_1_n_n_wf : DotDims.WF S128x768 S768x1024 S128x1024 [1] [0] [0] [1] [] []
  dot_S128x127x768_S1024x768_S128x127x1024_2_1_01_0_n_n_wf : DotDims.WF S128x127x768 S1024x768 S128x127x1024 [2] [1] [0, 1] [0] [] []
  dot_S128x126x768_S1024x768_S128x126x1024_2_1_01_0_n_n_wf : DotDims.WF S128x126x768 S1024x768 S128x126x1024 [2] [1] [0, 1] [0] [] []
  dot_S128x125x768_S1024x768_S128x125x1024_2_1_01_0_n_n_wf : DotDims.WF S128x125x768 S1024x768 S128x125x1024 [2] [1] [0, 1] [0] [] []

variable [Facts₀]

def dot_S128x768_S768x1024_S128x1024_1_0_0_1_n_n : DotDims S128x768 S768x1024 S128x1024 where
  lhsContracting := [1]
  rhsContracting := [0]
  lhsNonContracting := [0]
  rhsNonContracting := [1]
  lhsBatch := []
  rhsBatch := []
  wf := dot_S128x768_S768x1024_S128x1024_1_0_0_1_n_n_wf
def dot_S128x127x768_S1024x768_S128x127x1024_2_1_01_0_n_n : DotDims S128x127x768 S1024x768 S128x127x1024 where
  lhsContracting := [2]
  rhsContracting := [1]
  lhsNonContracting := [0, 1]
  rhsNonContracting := [0]
  lhsBatch := []
  rhsBatch := []
  wf := dot_S128x127x768_S1024x768_S128x127x1024_2_1_01_0_n_n_wf
def dot_S128x126x768_S1024x768_S128x126x1024_2_1_01_0_n_n : DotDims S128x126x768 S1024x768 S128x126x1024 where
  lhsContracting := [2]
  rhsContracting := [1]
  lhsNonContracting := [0, 1]
  rhsNonContracting := [0]
  lhsBatch := []
  rhsBatch := []
  wf := dot_S128x126x768_S1024x768_S128x126x1024_2_1_01_0_n_n_wf
def dot_S128x125x768_S1024x768_S128x125x1024_2_1_01_0_n_n : DotDims S128x125x768 S1024x768 S128x125x1024 where
  lhsContracting := [2]
  rhsContracting := [1]
  lhsNonContracting := [0, 1]
  rhsNonContracting := [0]
  lhsBatch := []
  rhsBatch := []
  wf := dot_S128x125x768_S1024x768_S128x125x1024_2_1_01_0_n_n_wf

class Facts : Prop extends Facts₀ where

variable [Facts]
-- ==== Proof.Spec.lean ====
/-
  The specification: what both programs compute, index by index, over the extended reals.

  words[b, l, d], sent[b, d], W_K[f, k, d], b_K[f], Wp[f, d], bp[f] are read through accessors indexed by natural
  numbers, so that a shifted row `l + k` of a convolution tap, a block's row `base + p`, and a transposed weight are
  all plain arithmetic on the indices.

  * `tap X W b l f k` = Σ_d X[b, l + k, d] · W[f, k, d]: one tap of a width-K convolution at position l.
  * `conv2/3/4` = max(((tap 0 + tap 1) + …) + bias[f], 0): the rectified branch of kernel width 2, 3, 4, the taps summed
    left to right as both programs sum them.
  * `code b l f`: rows l < 124 take the maximum of the three branches, row 124 of the two that reach it, row 125 the
    width-2 branch alone.
  * `unitRow v f` = v f / max(√(Σ_k v k²), ε): one entry of a row scaled to Euclidean length one (ε the 1e-12 word).
  * `words` = the scaled code, stored feature-major [b, f, l]; `sent` = the scaled affine image of the sentence vector.
-/
import Idealize.ShloMosaic.PureOps.Ideal
import Idealize.ShloMosaic.Lib.ValueIdx

noncomputable section

namespace Cert.Spec

open Idealize.ShloMosaic Idealize.ShloMosaic.ValueIdx

/-! ## Arrays read at natural-number coordinates -/

/-- A rank-1 array at a natural-number coordinate (zero outside the array). -/
def nat1 {n0 : Nat} (A : (⟨1, ![n0]⟩ : Shape).Idx → EReal) (a : Nat) : EReal :=
  if h : a < n0 then A (ix1 ⟨a, h⟩) else 0

/-- A rank-2 array at natural-number coordinates (zero outside the array). -/
def nat2 {n0 n1 : Nat} (A : (⟨2, ![n0, n1]⟩ : Shape).Idx → EReal) (a b : Nat) : EReal :=
  if h : a < n0 ∧ b < n1 then A (ix2 ⟨a, h.1⟩ ⟨b, h.2⟩) else 0

/-- A rank-3 array at natural-number coordinates (zero outside the array). -/
def nat3 {n0 n1 n2 : Nat} (A : (⟨3, ![n0, n1, n2]⟩ : Shape).Idx → EReal) (a b c : Nat) : EReal :=
  if h : a < n0 ∧ b < n1 ∧ c < n2 then A (ix3 ⟨a, h.1⟩ ⟨b, h.2.1⟩ ⟨c, h.2.2⟩) else 0

/-- An entry of a rank-1 array is the accessor at its coordinate. -/
theorem nat1_of {n0 : Nat} (A : (⟨1, ![n0]⟩ : Shape).Idx → EReal) (j : (⟨1, ![n0]⟩ : Shape).Idx) (a : Nat)
    (h0 : (j 0).val = a) : A j = nat1 A a := by
  subst h0
  unfold nat1
  rw [dif_pos (show (j 0).val < n0 from (j 0).isLt)]
  exact congrArg A (eq_ix1 j)

/-- An entry of a rank-2 array is the accessor at its coordinates. -/
theorem nat2_of {n0 n1 : Nat} (A : (⟨2, ![n0, n1]⟩ : Shape).Idx → EReal) (j : (⟨2, ![n0, n1]⟩ : Shape).Idx) (a b : Nat)
    (h0 : (j 0).val = a) (h1 : (j 1).val = b) : A j = nat2 A a b := by
  subst h0 h1
  unfold nat2
  rw [dif_pos (show (j 0).val < n0 ∧ (j 1).val < n1 from ⟨(j 0).isLt, (j 1).isLt⟩)]
  exact congrArg A (eq_ix2 j)

/-- An entry of a rank-3 array is the accessor at its coordinates. -/
theorem nat3_of {n0 n1 n2 : Nat} (A : (⟨3, ![n0, n1, n2]⟩ : Shape).Idx → EReal) (j : (⟨3, ![n0, n1, n2]⟩ : Shape).Idx)
    (a b c : Nat) (h0 : (j 0).val = a) (h1 : (j 1).val = b) (h2 : (j 2).val = c) : A j = nat3 A a b c := by
  subst h0 h1 h2
  unfold nat3
  rw [dif_pos (show (j 0).val < n0 ∧ (j 1).val < n1 ∧ (j 2).val < n2 from ⟨(j 0).isLt, (j 1).isLt, (j 2).isLt⟩)]
  exact congrArg A (eq_ix3 j)

/-! ## The layer -/

section Layer

variable (X : Nat → Nat → Nat → EReal) (S : Nat → Nat → EReal)
  (W2 : Nat → Nat → Nat → EReal) (B2 : Nat → EReal) (W3 : Nat → Nat → Nat → EReal) (B3 : Nat → EReal)
  (W4 : Nat → Nat → Nat → EReal) (B4 : Nat → EReal) (Wp : Nat → Nat → EReal) (Bp : Nat → EReal)

/-- Tap k of a convolution over the word axis at position l: Σ_d X[b, l + k, d] · W[f, k, d]. -/
def tap (X W : Nat → Nat → Nat → EReal) (b l f k : Nat) : EReal :=
  ∑ d : Fin 768, X b (l + k) d.val * W f k d.val

/-- The rectified width-2 branch. -/
def conv2 (X W : Nat → Nat → Nat → EReal) (B : Nat → EReal) (b l f : Nat) : EReal :=
  max ((tap X W b l f 0 + tap X W b l f 1) + B f) 0

/-- The rectified width-3 branch. -/
def conv3 (X W : Nat → Nat → Nat → EReal) (B : Nat → EReal) (b l f : Nat) : EReal :=
  max (((tap X W b l f 0 + tap X W b l f 1) + tap X W b l f 2) + B f) 0

/-- The rectified width-4 branch. -/
def conv4 (X W : Nat → Nat → Nat → EReal) (B : Nat → EReal) (b l f : Nat) : EReal :=
  max ((((tap X W b l f 0 + tap X W b l f 1) + tap X W b l f 2) + tap X W b l f 3) + B f) 0

/-- The code before scaling: all three branches where all reach (l < 124), two at l = 124, one at l = 125. -/
def code (b l f : Nat) : EReal :=
  if l < 124 then max (max (conv2 X W2 B2 b l f) (conv3 X W3 B3 b l f)) (conv4 X W4 B4 b l f)
  else if l = 124 then max (conv2 X W2 B2 b 124 f) (conv3 X W3 B3 b 124 f)
  else conv2 X W2 B2 b 125 f

/-- The 1e-12 word both programs clamp a row's length with. -/
def eps : EReal := Ideal.ofBits .f32 0x2B8CBCCC#32

/-- Entry f of the 1024-long row v scaled to Euclidean length one. -/
def unitRow (v : Nat → EReal) (f : Nat) : EReal :=
  Ideal.div (v f) (max (Ideal.sqrt (∑ k : Fin 1024, v k.val * v k.val)) eps)

/-- The word-level result [b, f, l]. -/
def words : (⟨3, ![128, 1024, 126]⟩ : Shape).Idx → EReal := fun j =>
  unitRow (fun f => code X W2 B2 W3 B3 W4 B4 (j 0).val (j 2).val f) (j 1).val

/-- The affine image of the sentence vector. -/
def lin (b f : Nat) : EReal := (∑ d : Fin 768, S b d.val * Wp f d.val) + Bp f

/-- The sentence-level result [b, f]. -/
def sent : (⟨2, ![128, 1024]⟩ : Shape).Idx → EReal := fun j =>
  unitRow (fun f => lin S Wp Bp (j 0).val f) (j 1).val

end Layer

end Cert.Spec

end
-- ==== Proof.InBlocks.lean ====
/-
  What the kernel's region reads, entry by entry, in terms of the program's arguments.

  Before the region the host transposes each convolution weight W_K[f, k, d] to [k, d, f] and the sentence weight
  Wp[f, d] to [d, f] (the narrowing to bf16 is the identity on the extended reals), and reshapes each bias to one row
  and the sentence vectors to [b, 1, d]. Grid point t takes batch rows 4t … 4t + 3 of the word and sentence arrays and
  the whole of every weight and bias. So every entry of every block is one entry of one argument, named here through the
  specification's natural-number accessors.
-/
import proofs.«158635_j84035330113648_1_alg».proof.Proof.Gen.KernelIdeal.Frame
import proofs.«158635_j84035330113648_1_alg».proof.Proof.Spec
import Idealize.ShloMosaic.Lib.Pipeline.Value
import Idealize.ShloMosaic.Lib.StableHlo.Run
import Idealize.ShloMosaic.Lib.Tactic

set_option maxRecDepth 16384

noncomputable section

namespace Cert.InBlocks

open Cert.KernelIdeal Cert.KernelIdeal.Gen Cert.Spec Idealize.ShloMosaic Idealize.ShloMosaic.TcCoe Idealize.SL.Sem
open Idealize.ShloMosaic.Pipeline (Dat)

variable (m : (ℓ : Loc nD τ sig) → Buf (Elt Ideal) ℓ)

/-! ## The arrays the region finds, read at coordinates -/

/-- The width-2 weight as the region finds it — transposed to [k, d, f] and narrowed, the narrowing the identity on
    the extended reals — read at coordinates (k, d, f) is W[f, k, d]. -/
theorem V_v1_at (c : Dev nD) (j : S2x768x1024.Idx) (a b d : Nat) (h0 : (j 0).val = a) (h1 : (j 1).val = b) (h2 : (j 2).val = d) :
    (V m c main_v1 : S2x768x1024.Idx → EReal) j = nat3 (m ((c : Thread nD τ).loc main_arg2)) d a b := by
  have e : (V m c main_v1 : S2x768x1024.Idx → EReal)
      = (truncf .bf16 (transpose S2x768x1024 [1, 2, 0] (m ((c : Thread nD τ).loc main_arg2) : S1024x2x768.Idx → EReal) transposes_S1024x2x768_S2x768x1024_1_2_0) bitsLt_bf16_f32 : FVec Ideal S2x768x1024 .bf16) := by
    show StableHlo.after hostOps0 (fun b => m (c, b)) (Proc.devRef .tc main_v1) = _
    after_results
  rw [e, ValueIdx.truncf_apply]
  refine (transpose_apply [1, 2, 0] _ transposes_S1024x2x768_S2x768x1024_1_2_0 j (ValueIdx.ix3 (j 2) (j 0) (j 1)) (fun b => match b with
    | ⟨0, _⟩ => rfl
    | ⟨1, _⟩ => rfl
    | ⟨2, _⟩ => rfl)).trans ?_
  exact nat3_of _ _ _ _ _ h2 h0 h1

/-- The width-3 weight as the region finds it — transposed to [k, d, f] and narrowed, the narrowing the identity on
    the extended reals — read at coordinates (k, d, f) is W[f, k, d]. -/
theorem V_v3_at (c : Dev nD) (j : S3x768x1024.Idx) (a b d : Nat) (h0 : (j 0).val = a) (h1 : (j 1).val = b) (h2 : (j 2).val = d) :
    (V m c main_v3 : S3x768x1024.Idx → EReal) j = nat3 (m ((c : Thread nD τ).loc main_arg4)) d a b := by
  have e : (V m c main_v3 : S3x768x1024.Idx → EReal)
      = (truncf .bf16 (transpose S3x768x1024 [1, 2, 0] (m ((c : Thread nD τ).loc main_arg4) : S1024x3x768.Idx → EReal) transposes_S1024x3x768_S3x768x1024_1_2_0) bitsLt_bf16_f32 : FVec Ideal S3x768x1024 .bf16) := by
    show StableHlo.after hostOps0 (fun b => m (c, b)) (Proc.devRef .tc main_v3) = _
    after_results
  rw [e, ValueIdx.truncf_apply]
  refine (transpose_apply [1, 2, 0] _ transposes_S1024x3x768_S3x768x1024_1_2_0 j (ValueIdx.ix3 (j 2) (j 0) (j 1)) (fun b => match b with
    | ⟨0, _⟩ => rfl
    | ⟨1, _⟩ => rfl
    | ⟨2, _⟩ => rfl)).trans ?_
  exact nat3_of _ _ _ _ _ h2 h0 h1

/-- The width-4 weight as the region finds it — transposed to [k, d, f] and narrowed, the narrowing the identity on
    the extended reals — read at coordinates (k, d, f) is W[f, k, d]. -/
theorem V_v5_at (c : Dev nD) (j : S4x768x1024.Idx) (a b d : Nat) (h0 : (j 0).val = a) (h1 : (j 1).val = b) (h2 : (j 2).val = d) :
    (V m c main_v5 : S4x768x1024.Idx → EReal) j = nat3 (m ((c : Thread nD τ).loc main_arg6)) d a b := by
  have e : (V m c main_v5 : S4x768x1024.Idx → EReal)
      = (truncf .bf16 (transpose S4x768x1024 [1, 2, 0] (m ((c : Thread nD τ).loc main_arg6) : S1024x4x768.Idx → EReal) transposes_S1024x4x768_S4x768x1024_1_2_0) bitsLt_bf16_f32 : FVec Ideal S4x768x1024 .bf16) := by
    show StableHlo.after hostOps0 (fun b => m (c, b)) (Proc.devRef .tc main_v5) = _
    after_results
  rw [e, ValueIdx.truncf_apply]
  refine (transpose_apply [1, 2, 0] _ transposes_S1024x4x768_S4x768x1024_1_2_0 j (ValueIdx.ix3 (j 2) (j 0) (j 1)) (fun b => match b with
    | ⟨0, _⟩ => rfl
    | ⟨1, _⟩ => rfl
    | ⟨2, _⟩ => rfl)).trans ?_
  exact nat3_of _ _ _ _ _ h2 h0 h1

/-- The sentence weight as the region finds it — transposed to [d, f] and narrowed — read at (d, f) is Wp[f, d]. -/
theorem V_v7_at (c : Dev nD) (j : S768x1024.Idx) (a d : Nat) (h0 : (j 0).val = a) (h1 : (j 1).val = d) :
    (V m c main_v7 : S768x1024.Idx → EReal) j = nat2 (m ((c : Thread nD τ).loc main_arg8)) d a := by
  have e : (V m c main_v7 : S768x1024.Idx → EReal)
      = (truncf .bf16 (transpose S768x1024 [1, 0] (m ((c : Thread nD τ).loc main_arg8) : S1024x768.Idx → EReal) transposes_S1024x768_S768x1024_1_0) bitsLt_bf16_f32 : FVec Ideal S768x1024 .bf16) := by
    show StableHlo.after hostOps0 (fun b => m (c, b)) (Proc.devRef .tc main_v7) = _
    after_results
  rw [e, ValueIdx.truncf_apply]
  refine (transpose_apply [1, 0] _ transposes_S1024x768_S768x1024_1_0 j (ValueIdx.ix2 (j 1) (j 0)) (fun b => match b with
    | ⟨0, _⟩ => rfl
    | ⟨1, _⟩ => rfl)).trans ?_
  exact nat2_of _ _ _ _ h1 h0

/-- A bias as the region finds it — reshaped to one row — read at (0, f) is b[f]. -/
theorem V_v8_at (c : Dev nD) (j : S1x1024.Idx) (d : Nat) (h1 : (j 1).val = d) :
    (V m c main_v8 : S1x1024.Idx → EReal) j = nat1 (m ((c : Thread nD τ).loc main_arg3)) d := by
  have e : (V m c main_v8 : S1x1024.Idx → EReal)
      = shapeCast S1x1024 (m ((c : Thread nD τ).loc main_arg3) : S1024.Idx → EReal) shapeCasts_S1024_S1x1024 := by
    show StableHlo.after hostOps0 (fun b => m (c, b)) (Proc.devRef .tc main_v8) = _
    after_results
    rfl
  rw [e]
  refine (shapeCast_apply _ shapeCasts_S1024_S1x1024 j (ValueIdx.ix1 (j 1)) (by
    rw [Shape.rowMajor_val_one, Shape.rowMajor_val_two]
    have h : (j 0).val < 1 := (j 0).isLt
    show (j 1).val = (j 0).val * 1024 + (j 1).val
    omega)).trans ?_
  exact nat1_of _ _ _ h1

/-- A bias as the region finds it — reshaped to one row — read at (0, f) is b[f]. -/
theorem V_v9_at (c : Dev nD) (j : S1x1024.Idx) (d : Nat) (h1 : (j 1).val = d) :
    (V m c main_v9 : S1x1024.Idx → EReal) j = nat1 (m ((c : Thread nD τ).loc main_arg5)) d := by
  have e : (V m c main_v9 : S1x1024.Idx → EReal)
      = shapeCast S1x1024 (m ((c : Thread nD τ).loc main_arg5) : S1024.Idx → EReal) shapeCasts_S1024_S1x1024 := by
    show StableHlo.after hostOps0 (fun b => m (c, b)) (Proc.devRef .tc main_v9) = _
    after_results
    rfl
  rw [e]
  refine (shapeCast_apply _ shapeCasts_S1024_S1x1024 j (ValueIdx.ix1 (j 1)) (by
    rw [Shape.rowMajor_val_one, Shape.rowMajor_val_two]
    have h : (j 0).val < 1 := (j 0).isLt
    show (j 1).val = (j 0).val * 1024 + (j 1).val
    omega)).trans ?_
  exact nat1_of _ _ _ h1

/-- A bias as the region finds it — reshaped to one row — read at (0, f) is b[f]. -/
theorem V_v10_at (c : Dev nD) (j : S1x1024.Idx) (d : Nat) (h1 : (j 1).val = d) :
    (V m c main_v10 : S1x1024.Idx → EReal) j = nat1 (m ((c : Thread nD τ).loc main_arg7)) d := by
  have e : (V m c main_v10 : S1x1024.Idx → EReal)
      = shapeCast S1x1024 (m ((c : Thread nD τ).loc main_arg7) : S1024.Idx → EReal) shapeCasts_S1024_S1x1024 := by
    show StableHlo.after hostOps0 (fun b => m (c, b)) (Proc.devRef .tc main_v10) = _
    after_results
    rfl
  rw [e]
  refine (shapeCast_apply _ shapeCasts_S1024_S1x1024 j (ValueIdx.ix1 (j 1)) (by
    rw [Shape.rowMajor_val_one, Shape.rowMajor_val_two]
    have h : (j 0).val < 1 := (j 0).isLt
    show (j 1).val = (j 0).val * 1024 + (j 1).val
    omega)).trans ?_
  exact nat1_of _ _ _ h1

/-- A bias as the region finds it — reshaped to one row — read at (0, f) is b[f]. -/
theorem V_v11_at (c : Dev nD) (j : S1x1024.Idx) (d : Nat) (h1 : (j 1).val = d) :
    (V m c main_v11 : S1x1024.Idx → EReal) j = nat1 (m ((c : Thread nD τ).loc main_arg9)) d := by
  have e : (V m c main_v11 : S1x1024.Idx → EReal)
      = shapeCast S1x1024 (m ((c : Thread nD τ).loc main_arg9) : S1024.Idx → EReal) shapeCasts_S1024_S1x1024 := by
    show StableHlo.after hostOps0 (fun b => m (c, b)) (Proc.devRef .tc main_v11) = _
    after_results
    rfl
  rw [e]
  refine (shapeCast_apply _ shapeCasts_S1024_S1x1024 j (ValueIdx.ix1 (j 1)) (by
    rw [Shape.rowMajor_val_one, Shape.rowMajor_val_two]
    have h : (j 0).val < 1 := (j 0).isLt
    show (j 1).val = (j 0).val * 1024 + (j 1).val
    omega)).trans ?_
  exact nat1_of _ _ _ h1

/-- The sentence vectors as the region finds them — reshaped to [b, 1, d] — read at (b, 0, d) are sent[b, d]. -/
theorem V_v12_at (c : Dev nD) (j : S128x1x768.Idx) (a d : Nat) (h0 : (j 0).val = a) (h2 : (j 2).val = d) :
    (V m c main_v12 : S128x1x768.Idx → EReal) j = nat2 (m ((c : Thread nD τ).loc main_arg1)) a d := by
  have e : (V m c main_v12 : S128x1x768.Idx → EReal)
      = shapeCast S128x1x768 (m ((c : Thread nD τ).loc main_arg1) : S128x768.Idx → EReal) shapeCasts_S128x768_S128x1x768 := by
    show StableHlo.after hostOps0 (fun b => m (c, b)) (Proc.devRef .tc main_v12) = _
    after_results
    rfl
  rw [e]
  refine (shapeCast_apply _ shapeCasts_S128x768_S128x1x768 j (ValueIdx.ix2 (j 0) (j 2)) (by
    rw [Shape.rowMajor_val_two, Shape.rowMajor_val_three]
    have h : (j 1).val < 1 := (j 1).isLt
    show (j 0).val * 768 + (j 2).val = ((j 0).val * 1 + (j 1).val) * 768 + (j 2).val
    omega)).trans ?_
  exact nat2_of _ _ _ _ h0 h2

/-! ## The windows' blocks at a grid point -/

/-- Point t of the grid takes batch rows 4t … 4t + 3 of the word array, the sentence array and both results, and the whole
    of every weight and bias. -/
theorem idx_batch : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_10.index t 0 = t.val ∧ win0_10.index t 1 = 0 ∧ win0_10.index t 2 = 0)
    ∧ (win0_11.index t 0 = t.val ∧ win0_11.index t 1 = 0 ∧ win0_11.index t 2 = 0) :=
  (by decide +kernel : ∀ t : Fin grid0.N, _)

theorem idx_whole : ∀ t : Fin cfg0.N,
    (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = 0 ∧ win0_4.index t 1 = 0 ∧ win0_4.index t 2 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0) :=
  (by decide +kernel : ∀ t : Fin grid0.N, _)

/-- The word block at point t: rows 4t + p of the word array. -/
theorem iblk0 (c : Dev nD) (t : Fin cfg0.N) (y : S4x128x768.Idx) :
    (iblk m c 0 t : Vec Ideal S4x128x768 .f32) y
      = nat3 (m ((c : Thread nD τ).loc main_arg0)) (4 * t.val + (y 0).val) (y 1).val (y 2).val := by
  unfold iblk
  rw [View.read_apply]
  show V m c main_arg0 _ = _
  rw [V_main_arg0]
  refine nat3_of _ _ _ _ _ ?_ ?_ ?_
  · show win0_0.index t 0 * 4 + 1 * (y 0).val = _
    rw [(idx_batch t).1.1]; omega
  · show win0_0.index t 1 * 128 + 1 * (y 1).val = _
    rw [(idx_batch t).1.2.1]; omega
  · show win0_0.index t 2 * 768 + 1 * (y 2).val = _
    rw [(idx_batch t).1.2.2]; omega

/-- The sentence block at point t: rows 4t + p of the sentence array. -/
theorem iblk1 (c : Dev nD) (t : Fin cfg0.N) (y : S4x1x768.Idx) :
    (iblk m c 1 t : Vec Ideal S4x1x768 .f32) y
      = nat2 (m ((c : Thread nD τ).loc main_arg1)) (4 * t.val + (y 0).val) (y 2).val := by
  unfold iblk
  rw [View.read_apply]
  show (V m c main_v12 : S128x1x768.Idx → EReal) _ = _
  refine V_v12_at m c _ _ _ ?_ ?_
  · show win0_1.index t 0 * 4 + 1 * (y 0).val = _
    rw [(idx_batch t).2.1.1]; omega
  · show win0_1.index t 2 * 768 + 1 * (y 2).val = _
    rw [(idx_batch t).2.1.2.2]; omega

/-- The width-2 weight's block is the whole transposed weight. -/
theorem iblk2 (c : Dev nD) (t : Fin cfg0.N) (y : S2x768x1024.Idx) :
    (iblk m c 2 t : Vec Ideal S2x768x1024 .bf16) y
      = nat3 (m ((c : Thread nD τ).loc main_arg2)) (y 2).val (y 0).val (y 1).val := by
  unfold iblk
  rw [View.read_apply]
  show (V m c main_v1 : S2x768x1024.Idx → EReal) _ = _
  refine V_v1_at m c _ _ _ _ ?_ ?_ ?_
  · show win0_2.index t 0 * 2 + 1 * (y 0).val = _
    rw [(idx_whole t).1.1]; omega
  · show win0_2.index t 1 * 768 + 1 * (y 1).val = _
    rw [(idx_whole t).1.2.1]; omega
  · show win0_2.index t 2 * 1024 + 1 * (y 2).val = _
    rw [(idx_whole t).1.2.2]; omega

/-- The width-3 weight's block is the whole transposed weight. -/
theorem iblk3 (c : Dev nD) (t : Fin cfg0.N) (y : S3x768x1024.Idx) :
    (iblk m c 3 t : Vec Ideal S3x768x1024 .bf16) y
      = nat3 (m ((c : Thread nD τ).loc main_arg4)) (y 2).val (y 0).val (y 1).val := by
  unfold iblk
  rw [View.read_apply]
  show (V m c main_v3 : S3x768x1024.Idx → EReal) _ = _
  refine V_v3_at m c _ _ _ _ ?_ ?_ ?_
  · show win0_3.index t 0 * 3 + 1 * (y 0).val = _
    rw [(idx_whole t).2.1.1]; omega
  · show win0_3.index t 1 * 768 + 1 * (y 1).val = _
    rw [(idx_whole t).2.1.2.1]; omega
  · show win0_3.index t 2 * 1024 + 1 * (y 2).val = _
    rw [(idx_whole t).2.1.2.2]; omega

/-- The width-4 weight's block is the whole transposed weight. -/
theorem iblk4 (c : Dev nD) (t : Fin cfg0.N) (y : S4x768x1024.Idx) :
    (iblk m c 4 t : Vec Ideal S4x768x1024 .bf16) y
      = nat3 (m ((c : Thread nD τ).loc main_arg6)) (y 2).val (y 0).val (y 1).val := by
  unfold iblk
  rw [View.read_apply]
  show (V m c main_v5 : S4x768x1024.Idx → EReal) _ = _
  refine V_v5_at m c _ _ _ _ ?_ ?_ ?_
  · show win0_4.index t 0 * 4 + 1 * (y 0).val = _
    rw [(idx_whole t).2.2.1.1]; omega
  · show win0_4.index t 1 * 768 + 1 * (y 1).val = _
    rw [(idx_whole t).2.2.1.2.1]; omega
  · show win0_4.index t 2 * 1024 + 1 * (y 2).val = _
    rw [(idx_whole t).2.2.1.2.2]; omega

/-- The sentence weight's block is the whole transposed weight. -/
theorem iblk5 (c : Dev nD) (t : Fin cfg0.N) (y : S768x1024.Idx) :
    (iblk m c 5 t : Vec Ideal S768x1024 .bf16) y = nat2 (m ((c : Thread nD τ).loc main_arg8)) (y 1).val (y 0).val := by
  unfold iblk
  rw [View.read_apply]
  show (V m c main_v7 : S768x1024.Idx → EReal) _ = _
  refine V_v7_at m c _ _ _ ?_ ?_
  · show win0_5.index t 0 * 768 + 1 * (y 0).val = _
    rw [(idx_whole t).2.2.2.1.1]; omega
  · show win0_5.index t 1 * 1024 + 1 * (y 1).val = _
    rw [(idx_whole t).2.2.2.1.2]; omega

/-- A bias's block is the whole bias row. -/
theorem iblk6 (c : Dev nD) (t : Fin cfg0.N) (y : S1x1024.Idx) :
    (iblk m c 6 t : Vec Ideal S1x1024 .f32) y = nat1 (m ((c : Thread nD τ).loc main_arg3)) (y 1).val := by
  unfold iblk
  rw [View.read_apply]
  show (V m c main_v8 : S1x1024.Idx → EReal) _ = _
  refine V_v8_at m c _ _ ?_
  show win0_6.index t 1 * 1024 + 1 * (y 1).val = _
  rw [(idx_whole t).2.2.2.2.1.2]; omega

/-- A bias's block is the whole bias row. -/
theorem iblk7 (c : Dev nD) (t : Fin cfg0.N) (y : S1x1024.Idx) :
    (iblk m c 7 t : Vec Ideal S1x1024 .f32) y = nat1 (m ((c : Thread nD τ).loc main_arg5)) (y 1).val := by
  unfold iblk
  rw [View.read_apply]
  show (V m c main_v9 : S1x1024.Idx → EReal) _ = _
  refine V_v9_at m c _ _ ?_
  show win0_7.index t 1 * 1024 + 1 * (y 1).val = _
  rw [(idx_whole t).2.2.2.2.2.1.2]; omega

/-- A bias's block is the whole bias row. -/
theorem iblk8 (c : Dev nD) (t : Fin cfg0.N) (y : S1x1024.Idx) :
    (iblk m c 8 t : Vec Ideal S1x1024 .f32) y = nat1 (m ((c : Thread nD τ).loc main_arg7)) (y 1).val := by
  unfold iblk
  rw [View.read_apply]
  show (V m c main_v10 : S1x1024.Idx → EReal) _ = _
  refine V_v10_at m c _ _ ?_
  show win0_8.index t 1 * 1024 + 1 * (y 1).val = _
  rw [(idx_whole t).2.2.2.2.2.2.1.2]; omega

/-- A bias's block is the whole bias row. -/
theorem iblk9 (c : Dev nD) (t : Fin cfg0.N) (y : S1x1024.Idx) :
    (iblk m c 9 t : Vec Ideal S1x1024 .f32) y = nat1 (m ((c : Thread nD τ).loc main_arg9)) (y 1).val := by
  unfold iblk
  rw [View.read_apply]
  show (V m c main_v11 : S1x1024.Idx → EReal) _ = _
  refine V_v11_at m c _ _ ?_
  show win0_9.index t 1 * 1024 + 1 * (y 1).val = _
  rw [(idx_whole t).2.2.2.2.2.2.2.2]; omega

end Cert.InBlocks

end
-- ==== Proof.ConvBlocks.lean ====
/-
  The kernel's three convolution branches on one block of four batch rows, read at an index.

  A tap of a width-K branch is computed by the kernel as a matrix product: rows l + k of the block (a slice at row
  offset k), flattened to a [4·L, 768] matrix (row p·L + l), times the [768, 1024] weight slab of tap k, into a zero
  accumulator, then unflattened to [4, L, 1024]. Read at (p, l, f) this is Σ_d X[base + p, l + k, d] · W[f, k, d], the
  specification's tap. A branch sums its taps left to right from a zero, adds the bias row and takes the maximum
  with zero: the specification's rectified branch.
-/
import proofs.«158635_j84035330113648_1_alg».proof.Proof.Gen.KernelIdeal.Skeleton
import proofs.«158635_j84035330113648_1_alg».proof.Proof.Spec
import Idealize.ShloMosaic.Lib.ValueIdx
import Idealize.ShloMosaic.Lib.Pipeline.Value
import Idealize.ShloMosaic.PureOps.Ideal.Laws

noncomputable section

namespace Cert.ConvBlocks

open Cert.KernelIdeal Cert.KernelIdeal.Gen Cert.Spec Idealize.ShloMosaic Idealize.ShloMosaic.TcCoe Idealize.SL.Sem
open Idealize.ShloMosaic.ValueIdx

variable (X W : Nat → Nat → Nat → EReal) (B : Nat → EReal) (base : Nat)

/-! ## Indices built from natural-number coordinates -/

/-- The block's entry (p, r, d). -/
abbrev xIdx (p r d : Nat) (hp : p < 4) (hr : r < 128) (hd : d < 768) : S4x128x768.Idx := fun a => match a with
  | ⟨0, _⟩ => ⟨p, hp⟩
  | ⟨1, _⟩ => ⟨r, hr⟩
  | ⟨2, _⟩ => ⟨d, hd⟩

/-- A weight slab's entry (0, d, f). -/
abbrev wIdx (d f : Nat) (hd : d < 768) (hf : f < 1024) : S1x768x1024.Idx := fun a => match a with
  | ⟨0, _⟩ => ⟨0, Nat.zero_lt_one⟩
  | ⟨1, _⟩ => ⟨d, hd⟩
  | ⟨2, _⟩ => ⟨f, hf⟩

/-- The flattened weight slab's entry (d, f). -/
abbrev w2Idx (d f : Nat) (hd : d < 768) (hf : f < 1024) : S768x1024.Idx := fun a => match a with
  | ⟨0, _⟩ => ⟨d, hd⟩
  | ⟨1, _⟩ => ⟨f, hf⟩

/-- The bias row's entry (0, f). -/
abbrev bIdx (f : Nat) (hf : f < 1024) : S1x1024.Idx := fun a => match a with
  | ⟨0, _⟩ => ⟨0, Nat.zero_lt_one⟩
  | ⟨1, _⟩ => ⟨f, hf⟩

/-- The bias row with a unit axis in front, entry (0, 0, f). -/
abbrev b3Idx (f : Nat) (hf : f < 1024) : S1x1x1024.Idx := fun a => match a with
  | ⟨0, _⟩ => ⟨0, Nat.zero_lt_one⟩
  | ⟨1, _⟩ => ⟨0, Nat.zero_lt_one⟩
  | ⟨2, _⟩ => ⟨f, hf⟩

/-! ## The block narrowed to bf16 is the block -/

theorem xbf_block (x0 : Vec Ideal S4x128x768 .f32) (hx : ∀ y : S4x128x768.Idx, x0 y = X (base + (y 0).val) (y 1).val (y 2).val) (y : S4x128x768.Idx) :
    k0_pay4 x0 y = X (base + (y 0).val) (y 1).val (y 2).val := by
  unfold k0_pay4
  exact (truncf_apply x0 bitsLt_bf16_f32 y).trans (hx y)

/-- A weight slab flattened to a matrix, read at (d, f). -/
theorem slab_apply (w : Vec Ideal S1x768x1024 .bf16) (k : Nat)
    (hw : ∀ y : S1x768x1024.Idx, w y = W (y 2).val k (y 1).val) (d f : Nat) (hd : d < 768) (hf : f < 1024) :
    (shapeCast S768x1024 w shapeCasts_S1x768x1024_S768x1024 : FVec Ideal S768x1024 .bf16) (w2Idx d f hd hf) = W f k d := by
  refine (shapeCast_apply w shapeCasts_S1x768x1024_S768x1024 (w2Idx d f hd hf) (wIdx d f hd hf) ?_).trans (hw _)
  rw [Shape.rowMajor_val_two, Shape.rowMajor_val_three]
  show (0 * 768 + d) * 1024 + f = d * 1024 + f
  omega

/-- The bias row broadcast over a block, read at an index of any [4, L, 1024] block. -/
theorem bias_apply {L : Nat} (v : Vec Ideal S1x1024 .f32) (hv : ∀ y : S1x1024.Idx, v y = B (y 1).val)
    (hb : S1x1x1024.Broadcasts (⟨3, ![4, L, 1024]⟩ : Shape)) (i : (⟨3, ![4, L, 1024]⟩ : Shape).Idx) :
    (broadcastTo (⟨3, ![4, L, 1024]⟩ : Shape) (shapeCast S1x1x1024 (shapeCast S1x1024 v shapeCasts_S1x1024_S1x1024 : FVec Ideal S1x1024 .f32) shapeCasts_S1x1024_S1x1x1024 : FVec Ideal S1x1x1024 .f32) hb : FVec Ideal (⟨3, ![4, L, 1024]⟩ : Shape) .f32) i = B (i 2).val := by
  have hf : (i 2).val < 1024 := (i 2).isLt
  refine (broadcastTo_apply _ hb i (b3Idx (i 2).val hf) (fun a => ?_)).trans ?_
  · match a with
    | ⟨0, _⟩ => rfl
    | ⟨1, _⟩ => rfl
    | ⟨2, _⟩ => rfl
  refine (shapeCast_apply _ shapeCasts_S1x1024_S1x1x1024 (b3Idx (i 2).val hf) (bIdx (i 2).val hf) ?_).trans ?_
  · rw [Shape.rowMajor_val_two, Shape.rowMajor_val_three]
    show 0 * 1024 + (i 2).val = (0 * 1 + 0) * 1024 + (i 2).val
    omega
  refine (shapeCast_apply v shapeCasts_S1x1024_S1x1024 (bIdx (i 2).val hf) (bIdx (i 2).val hf) rfl).trans ?_
  exact hv _

/-! ## Row count 127: a tap read at an index -/

theorem lhs127_0 (i : S508x1024.Idx) (q : dot_S508x768_S768x1024_S508x1024_1_0_0_1_n_n.contr.Idx) :
    (dot_S508x768_S768x1024_S508x1024_1_0_0_1_n_n.lhsIdx i q 0).val = (i 0).val := by
  unfold DotDims.lhsIdx
  rw [dif_neg (show ¬(0 : Fin S508x768.rank) ∈ dot_S508x768_S768x1024_S508x1024_1_0_0_1_n_n.lhsBatch by decide), dif_pos (show (0 : Fin S508x768.rank) ∈ dot_S508x768_S768x1024_S508x1024_1_0_0_1_n_n.lhsNonContracting by decide)]
  rfl
theorem lhs127_1 (i : S508x1024.Idx) (q : dot_S508x768_S768x1024_S508x1024_1_0_0_1_n_n.contr.Idx) :
    (dot_S508x768_S768x1024_S508x1024_1_0_0_1_n_n.lhsIdx i q 1).val = (q ⟨0, by decide⟩).val :=
  dot_S508x768_S768x1024_S508x1024_1_0_0_1_n_n.lhsIdx_val_of_single rfl i q
theorem rhs127_0 (i : S508x1024.Idx) (q : dot_S508x768_S768x1024_S508x1024_1_0_0_1_n_n.contr.Idx) :
    (dot_S508x768_S768x1024_S508x1024_1_0_0_1_n_n.rhsIdx i q 0).val = (q ⟨0, by decide⟩).val :=
  dot_S508x768_S768x1024_S508x1024_1_0_0_1_n_n.rhsIdx_val_of_single rfl i q
theorem rhs127_1 (i : S508x1024.Idx) (q : dot_S508x768_S768x1024_S508x1024_1_0_0_1_n_n.contr.Idx) :
    (dot_S508x768_S768x1024_S508x1024_1_0_0_1_n_n.rhsIdx i q 1).val = (i 1).val := by
  unfold DotDims.rhsIdx
  rw [dif_neg (show ¬(1 : Fin S768x1024.rank) ∈ dot_S508x768_S768x1024_S508x1024_1_0_0_1_n_n.rhsBatch by decide), dif_pos (show (1 : Fin S768x1024.rank) ∈ dot_S508x768_S768x1024_S508x1024_1_0_0_1_n_n.rhsNonContracting by decide)]
  rfl

/-- The flattened block's entry (r, d). -/
abbrev aIdx127 (r d : Nat) (hr : r < 508) (hd : d < 768) : S508x768.Idx := fun a => match a with
  | ⟨0, _⟩ => ⟨r, hr⟩
  | ⟨1, _⟩ => ⟨d, hd⟩

/-- The flattened product's entry (r, f). -/
abbrev oIdx127 (r f : Nat) (hr : r < 508) (hf : f < 1024) : S508x1024.Idx := fun a => match a with
  | ⟨0, _⟩ => ⟨r, hr⟩
  | ⟨1, _⟩ => ⟨f, hf⟩

/-- The [508, 768] × [768, 1024] product into a zero accumulator, read at (r, f): the sum over the contracted axis. -/
theorem mm127_apply (a : FVec Ideal S508x768 .bf16) (b : FVec Ideal S768x1024 .bf16) (r f : Nat) (hr : r < 508) (hf : f < 1024) :
    (matmul dot_S508x768_S768x1024_S508x1024_1_0_0_1_n_n none a b (constant S508x1024 .f32 0x00000000#32) : FVec Ideal S508x1024 .f32) (oIdx127 r f hr hf)
      = ∑ d : Fin 768, a (aIdx127 r d.val hr d.isLt) * b (w2Idx d.val f d.isLt hf) := by
  simp only [matmul]
  rw [Ideal.matmul_constant_zero_apply, ← Equiv.sum_comp (ValueIdx.contrEquiv1 dot_S508x768_S768x1024_S508x1024_1_0_0_1_n_n 768 rfl rfl).symm]
  refine Finset.sum_congr rfl fun k _ => ?_
  have hk := ValueIdx.contrEquiv1_symm_val dot_S508x768_S768x1024_S508x1024_1_0_0_1_n_n 768 rfl rfl k
  have el : dot_S508x768_S768x1024_S508x1024_1_0_0_1_n_n.lhsIdx (oIdx127 r f hr hf) ((ValueIdx.contrEquiv1 dot_S508x768_S768x1024_S508x1024_1_0_0_1_n_n 768 rfl rfl).symm k) = aIdx127 r k.val hr k.isLt := funext fun a => Fin.ext (by
    match a with
    | ⟨0, _⟩ => exact lhs127_0 _ _
    | ⟨1, _⟩ => exact (lhs127_1 _ _).trans hk)
  have er : dot_S508x768_S768x1024_S508x1024_1_0_0_1_n_n.rhsIdx (oIdx127 r f hr hf) ((ValueIdx.contrEquiv1 dot_S508x768_S768x1024_S508x1024_1_0_0_1_n_n 768 rfl rfl).symm k) = w2Idx k.val f k.isLt hf := funext fun a => Fin.ext (by
    match a with
    | ⟨0, _⟩ => exact (rhs127_0 _ _).trans hk
    | ⟨1, _⟩ => exact rhs127_1 _ _)
  rw [el, er]

/-- The block's rows l + k, flattened, read at (p·127 + l, d). -/
theorem rows127_apply (v1 : FVec Ideal S4x128x768 .bf16) (k : Nat) (hk : k + 127 ≤ 128) (off : Fin 3 → Nat)
    (h0 : off 0 = 0) (h1 : off 1 = k) (h2 : off 2 = 0) (hs : S4x128x768.Slices off S4x127x768)
    (hv1 : ∀ y : S4x128x768.Idx, v1 y = X (base + (y 0).val) (y 1).val (y 2).val)
    (p l d : Nat) (hp : p < 4) (hl : l < 127) (hd : d < 768) :
    (shapeCast S508x768 (extractStridedSlice S4x127x768 off v1 hs) shapeCasts_S4x127x768_S508x768 : FVec Ideal S508x768 .bf16)
        (aIdx127 (p * 127 + l) d (by omega) hd) = X (base + p) (l + k) d := by
  have hlk : l + k < 128 := by omega
  let j : S4x127x768.Idx := fun a => match a with
    | ⟨0, _⟩ => ⟨p, hp⟩
    | ⟨1, _⟩ => ⟨l, hl⟩
    | ⟨2, _⟩ => ⟨d, hd⟩
  refine (shapeCast_apply _ shapeCasts_S4x127x768_S508x768 (aIdx127 (p * 127 + l) d (by omega) hd) j ?_).trans ?_
  · rw [Shape.rowMajor_val_two, Shape.rowMajor_val_three]
    rfl
  refine (extractStridedSlice_apply off v1 hs j (xIdx p (l + k) d hp hlk hd) (fun a => ?_)).trans (hv1 _)
  match a with
  | ⟨0, _⟩ => show p = off 0 + p; rw [h0]; omega
  | ⟨1, _⟩ => show l + k = off 1 + l; rw [h1]; omega
  | ⟨2, _⟩ => show d = off 2 + d; rw [h2]; omega

/-- One tap of a branch with 127 rows, read at (p, l, f), is the specification's tap k at batch row base + p. -/
theorem tap127_apply (v1 : FVec Ideal S4x128x768 .bf16) (w : Vec Ideal S1x768x1024 .bf16) (k : Nat) (hk : k + 127 ≤ 128)
    (off : Fin 3 → Nat) (h0 : off 0 = 0) (h1 : off 1 = k) (h2 : off 2 = 0) (hs : S4x128x768.Slices off S4x127x768)
    (hv1 : ∀ y : S4x128x768.Idx, v1 y = X (base + (y 0).val) (y 1).val (y 2).val)
    (hw : ∀ y : S1x768x1024.Idx, w y = W (y 2).val k (y 1).val) (i : S4x127x1024.Idx) :
    (shapeCast S4x127x1024 (matmul dot_S508x768_S768x1024_S508x1024_1_0_0_1_n_n none (shapeCast S508x768 (extractStridedSlice S4x127x768 off v1 hs) shapeCasts_S4x127x768_S508x768) (shapeCast S768x1024 w shapeCasts_S1x768x1024_S768x1024 : FVec Ideal S768x1024 .bf16) (constant S508x1024 .f32 0x00000000#32)) shapeCasts_S508x1024_S4x127x1024 : FVec Ideal S4x127x1024 .f32) i
      = tap X W (base + (i 0).val) (i 1).val (i 2).val k := by
  have hp : (i 0).val < 4 := (i 0).isLt
  have hl : (i 1).val < 127 := (i 1).isLt
  have hf : (i 2).val < 1024 := (i 2).isLt
  refine (shapeCast_apply _ shapeCasts_S508x1024_S4x127x1024 i (oIdx127 ((i 0).val * 127 + (i 1).val) (i 2).val (by omega) hf) ?_).trans ?_
  · rw [Shape.rowMajor_val_two, Shape.rowMajor_val_three]
    rfl
  rw [mm127_apply]
  unfold tap
  refine Finset.sum_congr rfl fun d _ => ?_
  rw [rows127_apply X base v1 k hk off h0 h1 h2 hs hv1 (i 0).val (i 1).val d.val hp hl d.isLt, slab_apply W w k hw d.val (i 2).val d.isLt hf]

/-! ## Row count 126: a tap read at an index -/

theorem lhs126_0 (i : S504x1024.Idx) (q : dot_S504x768_S768x1024_S504x1024_1_0_0_1_n_n.contr.Idx) :
    (dot_S504x768_S768x1024_S504x1024_1_0_0_1_n_n.lhsIdx i q 0).val = (i 0).val := by
  unfold DotDims.lhsIdx
  rw [dif_neg (show ¬(0 : Fin S504x768.rank) ∈ dot_S504x768_S768x1024_S504x1024_1_0_0_1_n_n.lhsBatch by decide), dif_pos (show (0 : Fin S504x768.rank) ∈ dot_S504x768_S768x1024_S504x1024_1_0_0_1_n_n.lhsNonContracting by decide)]
  rfl
theorem lhs126_1 (i : S504x1024.Idx) (q : dot_S504x768_S768x1024_S504x1024_1_0_0_1_n_n.contr.Idx) :
    (dot_S504x768_S768x1024_S504x1024_1_0_0_1_n_n.lhsIdx i q 1).val = (q ⟨0, by decide⟩).val :=
  dot_S504x768_S768x1024_S504x1024_1_0_0_1_n_n.lhsIdx_val_of_single rfl i q
theorem rhs126_0 (i : S504x1024.Idx) (q : dot_S504x768_S768x1024_S504x1024_1_0_0_1_n_n.contr.Idx) :
    (dot_S504x768_S768x1024_S504x1024_1_0_0_1_n_n.rhsIdx i q 0).val = (q ⟨0, by decide⟩).val :=
  dot_S504x768_S768x1024_S504x1024_1_0_0_1_n_n.rhsIdx_val_of_single rfl i q
theorem rhs126_1 (i : S504x1024.Idx) (q : dot_S504x768_S768x1024_S504x1024_1_0_0_1_n_n.contr.Idx) :
    (dot_S504x768_S768x1024_S504x1024_1_0_0_1_n_n.rhsIdx i q 1).val = (i 1).val := by
  unfold DotDims.rhsIdx
  rw [dif_neg (show ¬(1 : Fin S768x1024.rank) ∈ dot_S504x768_S768x1024_S504x1024_1_0_0_1_n_n.rhsBatch by decide), dif_pos (show (1 : Fin S768x1024.rank) ∈ dot_S504x768_S768x1024_S504x1024_1_0_0_1_n_n.rhsNonContracting by decide)]
  rfl

/-- The flattened block's entry (r, d). -/
abbrev aIdx126 (r d : Nat) (hr : r < 504) (hd : d < 768) : S504x768.Idx := fun a => match a with
  | ⟨0, _⟩ => ⟨r, hr⟩
  | ⟨1, _⟩ => ⟨d, hd⟩

/-- The flattened product's entry (r, f). -/
abbrev oIdx126 (r f : Nat) (hr : r < 504) (hf : f < 1024) : S504x1024.Idx := fun a => match a with
  | ⟨0, _⟩ => ⟨r, hr⟩
  | ⟨1, _⟩ => ⟨f, hf⟩

/-- The [504, 768] × [768, 1024] product into a zero accumulator, read at (r, f): the sum over the contracted axis. -/
theorem mm126_apply (a : FVec Ideal S504x768 .bf16) (b : FVec Ideal S768x1024 .bf16) (r f : Nat) (hr : r < 504) (hf : f < 1024) :
    (matmul dot_S504x768_S768x1024_S504x1024_1_0_0_1_n_n none a b (constant S504x1024 .f32 0x00000000#32) : FVec Ideal S504x1024 .f32) (oIdx126 r f hr hf)
      = ∑ d : Fin 768, a (aIdx126 r d.val hr d.isLt) * b (w2Idx d.val f d.isLt hf) := by
  simp only [matmul]
  rw [Ideal.matmul_constant_zero_apply, ← Equiv.sum_comp (ValueIdx.contrEquiv1 dot_S504x768_S768x1024_S504x1024_1_0_0_1_n_n 768 rfl rfl).symm]
  refine Finset.sum_congr rfl fun k _ => ?_
  have hk := ValueIdx.contrEquiv1_symm_val dot_S504x768_S768x1024_S504x1024_1_0_0_1_n_n 768 rfl rfl k
  have el : dot_S504x768_S768x1024_S504x1024_1_0_0_1_n_n.lhsIdx (oIdx126 r f hr hf) ((ValueIdx.contrEquiv1 dot_S504x768_S768x1024_S504x1024_1_0_0_1_n_n 768 rfl rfl).symm k) = aIdx126 r k.val hr k.isLt := funext fun a => Fin.ext (by
    match a with
    | ⟨0, _⟩ => exact lhs126_0 _ _
    | ⟨1, _⟩ => exact (lhs126_1 _ _).trans hk)
  have er : dot_S504x768_S768x1024_S504x1024_1_0_0_1_n_n.rhsIdx (oIdx126 r f hr hf) ((ValueIdx.contrEquiv1 dot_S504x768_S768x1024_S504x1024_1_0_0_1_n_n 768 rfl rfl).symm k) = w2Idx k.val f k.isLt hf := funext fun a => Fin.ext (by
    match a with
    | ⟨0, _⟩ => exact (rhs126_0 _ _).trans hk
    | ⟨1, _⟩ => exact rhs126_1 _ _)
  rw [el, er]

/-- The block's rows l + k, flattened, read at (p·126 + l, d). -/
theorem rows126_apply (v1 : FVec Ideal S4x128x768 .bf16) (k : Nat) (hk : k + 126 ≤ 128) (off : Fin 3 → Nat)
    (h0 : off 0 = 0) (h1 : off 1 = k) (h2 : off 2 = 0) (hs : S4x128x768.Slices off S4x126x768)
    (hv1 : ∀ y : S4x128x768.Idx, v1 y = X (base + (y 0).val) (y 1).val (y 2).val)
    (p l d : Nat) (hp : p < 4) (hl : l < 126) (hd : d < 768) :
    (shapeCast S504x768 (extractStridedSlice S4x126x768 off v1 hs) shapeCasts_S4x126x768_S504x768 : FVec Ideal S504x768 .bf16)
        (aIdx126 (p * 126 + l) d (by omega) hd) = X (base + p) (l + k) d := by
  have hlk : l + k < 128 := by omega
  let j : S4x126x768.Idx := fun a => match a with
    | ⟨0, _⟩ => ⟨p, hp⟩
    | ⟨1, _⟩ => ⟨l, hl⟩
    | ⟨2, _⟩ => ⟨d, hd⟩
  refine (shapeCast_apply _ shapeCasts_S4x126x768_S504x768 (aIdx126 (p * 126 + l) d (by omega) hd) j ?_).trans ?_
  · rw [Shape.rowMajor_val_two, Shape.rowMajor_val_three]
    rfl
  refine (extractStridedSlice_apply off v1 hs j (xIdx p (l + k) d hp hlk hd) (fun a => ?_)).trans (hv1 _)
  match a with
  | ⟨0, _⟩ => show p = off 0 + p; rw [h0]; omega
  | ⟨1, _⟩ => show l + k = off 1 + l; rw [h1]; omega
  | ⟨2, _⟩ => show d = off 2 + d; rw [h2]; omega

/-- One tap of a branch with 126 rows, read at (p, l, f), is the specification's tap k at batch row base + p. -/
theorem tap126_apply (v1 : FVec Ideal S4x128x768 .bf16) (w : Vec Ideal S1x768x1024 .bf16) (k : Nat) (hk : k + 126 ≤ 128)
    (off : Fin 3 → Nat) (h0 : off 0 = 0) (h1 : off 1 = k) (h2 : off 2 = 0) (hs : S4x128x768.Slices off S4x126x768)
    (hv1 : ∀ y : S4x128x768.Idx, v1 y = X (base + (y 0).val) (y 1).val (y 2).val)
    (hw : ∀ y : S1x768x1024.Idx, w y = W (y 2).val k (y 1).val) (i : S4x126x1024.Idx) :
    (shapeCast S4x126x1024 (matmul dot_S504x768_S768x1024_S504x1024_1_0_0_1_n_n none (shapeCast S504x768 (extractStridedSlice S4x126x768 off v1 hs) shapeCasts_S4x126x768_S504x768) (shapeCast S768x1024 w shapeCasts_S1x768x1024_S768x1024 : FVec Ideal S768x1024 .bf16) (constant S504x1024 .f32 0x00000000#32)) shapeCasts_S504x1024_S4x126x1024 : FVec Ideal S4x126x1024 .f32) i
      = tap X W (base + (i 0).val) (i 1).val (i 2).val k := by
  have hp : (i 0).val < 4 := (i 0).isLt
  have hl : (i 1).val < 126 := (i 1).isLt
  have hf : (i 2).val < 1024 := (i 2).isLt
  refine (shapeCast_apply _ shapeCasts_S504x1024_S4x126x1024 i (oIdx126 ((i 0).val * 126 + (i 1).val) (i 2).val (by omega) hf) ?_).trans ?_
  · rw [Shape.rowMajor_val_two, Shape.rowMajor_val_three]
    rfl
  rw [mm126_apply]
  unfold tap
  refine Finset.sum_congr rfl fun d _ => ?_
  rw [rows126_apply X base v1 k hk off h0 h1 h2 hs hv1 (i 0).val (i 1).val d.val hp hl d.isLt, slab_apply W w k hw d.val (i 2).val d.isLt hf]

/-! ## Row count 125: a tap read at an index -/

theorem lhs125_0 (i : S500x1024.Idx) (q : dot_S500x768_S768x1024_S500x1024_1_0_0_1_n_n.contr.Idx) :
    (dot_S500x768_S768x1024_S500x1024_1_0_0_1_n_n.lhsIdx i q 0).val = (i 0).val := by
  unfold DotDims.lhsIdx
  rw [dif_neg (show ¬(0 : Fin S500x768.rank) ∈ dot_S500x768_S768x1024_S500x1024_1_0_0_1_n_n.lhsBatch by decide), dif_pos (show (0 : Fin S500x768.rank) ∈ dot_S500x768_S768x1024_S500x1024_1_0_0_1_n_n.lhsNonContracting by decide)]
  rfl
theorem lhs125_1 (i : S500x1024.Idx) (q : dot_S500x768_S768x1024_S500x1024_1_0_0_1_n_n.contr.Idx) :
    (dot_S500x768_S768x1024_S500x1024_1_0_0_1_n_n.lhsIdx i q 1).val = (q ⟨0, by decide⟩).val :=
  dot_S500x768_S768x1024_S500x1024_1_0_0_1_n_n.lhsIdx_val_of_single rfl i q
theorem rhs125_0 (i : S500x1024.Idx) (q : dot_S500x768_S768x1024_S500x1024_1_0_0_1_n_n.contr.Idx) :
    (dot_S500x768_S768x1024_S500x1024_1_0_0_1_n_n.rhsIdx i q 0).val = (q ⟨0, by decide⟩).val :=
  dot_S500x768_S768x1024_S500x1024_1_0_0_1_n_n.rhsIdx_val_of_single rfl i q
theorem rhs125_1 (i : S500x1024.Idx) (q : dot_S500x768_S768x1024_S500x1024_1_0_0_1_n_n.contr.Idx) :
    (dot_S500x768_S768x1024_S500x1024_1_0_0_1_n_n.rhsIdx i q 1).val = (i 1).val := by
  unfold DotDims.rhsIdx
  rw [dif_neg (show ¬(1 : Fin S768x1024.rank) ∈ dot_S500x768_S768x1024_S500x1024_1_0_0_1_n_n.rhsBatch by decide), dif_pos (show (1 : Fin S768x1024.rank) ∈ dot_S500x768_S768x1024_S500x1024_1_0_0_1_n_n.rhsNonContracting by decide)]
  rfl

/-- The flattened block's entry (r, d). -/
abbrev aIdx125 (r d : Nat) (hr : r < 500) (hd : d < 768) : S500x768.Idx := fun a => match a with
  | ⟨0, _⟩ => ⟨r, hr⟩
  | ⟨1, _⟩ => ⟨d, hd⟩

/-- The flattened product's entry (r, f). -/
abbrev oIdx125 (r f : Nat) (hr : r < 500) (hf : f < 1024) : S500x1024.Idx := fun a => match a with
  | ⟨0, _⟩ => ⟨r, hr⟩
  | ⟨1, _⟩ => ⟨f, hf⟩

/-- The [500, 768] × [768, 1024] product into a zero accumulator, read at (r, f): the sum over the contracted axis. -/
theorem mm125_apply (a : FVec Ideal S500x768 .bf16) (b : FVec Ideal S768x1024 .bf16) (r f : Nat) (hr : r < 500) (hf : f < 1024) :
    (matmul dot_S500x768_S768x1024_S500x1024_1_0_0_1_n_n none a b (constant S500x1024 .f32 0x00000000#32) : FVec Ideal S500x1024 .f32) (oIdx125 r f hr hf)
      = ∑ d : Fin 768, a (aIdx125 r d.val hr d.isLt) * b (w2Idx d.val f d.isLt hf) := by
  simp only [matmul]
  rw [Ideal.matmul_constant_zero_apply, ← Equiv.sum_comp (ValueIdx.contrEquiv1 dot_S500x768_S768x1024_S500x1024_1_0_0_1_n_n 768 rfl rfl).symm]
  refine Finset.sum_congr rfl fun k _ => ?_
  have hk := ValueIdx.contrEquiv1_symm_val dot_S500x768_S768x1024_S500x1024_1_0_0_1_n_n 768 rfl rfl k
  have el : dot_S500x768_S768x1024_S500x1024_1_0_0_1_n_n.lhsIdx (oIdx125 r f hr hf) ((ValueIdx.contrEquiv1 dot_S500x768_S768x1024_S500x1024_1_0_0_1_n_n 768 rfl rfl).symm k) = aIdx125 r k.val hr k.isLt := funext fun a => Fin.ext (by
    match a with
    | ⟨0, _⟩ => exact lhs125_0 _ _
    | ⟨1, _⟩ => exact (lhs125_1 _ _).trans hk)
  have er : dot_S500x768_S768x1024_S500x1024_1_0_0_1_n_n.rhsIdx (oIdx125 r f hr hf) ((ValueIdx.contrEquiv1 dot_S500x768_S768x1024_S500x1024_1_0_0_1_n_n 768 rfl rfl).symm k) = w2Idx k.val f k.isLt hf := funext fun a => Fin.ext (by
    match a with
    | ⟨0, _⟩ => exact (rhs125_0 _ _).trans hk
    | ⟨1, _⟩ => exact rhs125_1 _ _)
  rw [el, er]

/-- The block's rows l + k, flattened, read at (p·125 + l, d). -/
theorem rows125_apply (v1 : FVec Ideal S4x128x768 .bf16) (k : Nat) (hk : k + 125 ≤ 128) (off : Fin 3 → Nat)
    (h0 : off 0 = 0) (h1 : off 1 = k) (h2 : off 2 = 0) (hs : S4x128x768.Slices off S4x125x768)
    (hv1 : ∀ y : S4x128x768.Idx, v1 y = X (base + (y 0).val) (y 1).val (y 2).val)
    (p l d : Nat) (hp : p < 4) (hl : l < 125) (hd : d < 768) :
    (shapeCast S500x768 (extractStridedSlice S4x125x768 off v1 hs) shapeCasts_S4x125x768_S500x768 : FVec Ideal S500x768 .bf16)
        (aIdx125 (p * 125 + l) d (by omega) hd) = X (base + p) (l + k) d := by
  have hlk : l + k < 128 := by omega
  let j : S4x125x768.Idx := fun a => match a with
    | ⟨0, _⟩ => ⟨p, hp⟩
    | ⟨1, _⟩ => ⟨l, hl⟩
    | ⟨2, _⟩ => ⟨d, hd⟩
  refine (shapeCast_apply _ shapeCasts_S4x125x768_S500x768 (aIdx125 (p * 125 + l) d (by omega) hd) j ?_).trans ?_
  · rw [Shape.rowMajor_val_two, Shape.rowMajor_val_three]
    rfl
  refine (extractStridedSlice_apply off v1 hs j (xIdx p (l + k) d hp hlk hd) (fun a => ?_)).trans (hv1 _)
  match a with
  | ⟨0, _⟩ => show p = off 0 + p; rw [h0]; omega
  | ⟨1, _⟩ => show l + k = off 1 + l; rw [h1]; omega
  | ⟨2, _⟩ => show d = off 2 + d; rw [h2]; omega

/-- One tap of a branch with 125 rows, read at (p, l, f), is the specification's tap k at batch row base + p. -/
theorem tap125_apply (v1 : FVec Ideal S4x128x768 .bf16) (w : Vec Ideal S1x768x1024 .bf16) (k : Nat) (hk : k + 125 ≤ 128)
    (off : Fin 3 → Nat) (h0 : off 0 = 0) (h1 : off 1 = k) (h2 : off 2 = 0) (hs : S4x128x768.Slices off S4x125x768)
    (hv1 : ∀ y : S4x128x768.Idx, v1 y = X (base + (y 0).val) (y 1).val (y 2).val)
    (hw : ∀ y : S1x768x1024.Idx, w y = W (y 2).val k (y 1).val) (i : S4x125x1024.Idx) :
    (shapeCast S4x125x1024 (matmul dot_S500x768_S768x1024_S500x1024_1_0_0_1_n_n none (shapeCast S500x768 (extractStridedSlice S4x125x768 off v1 hs) shapeCasts_S4x125x768_S500x768) (shapeCast S768x1024 w shapeCasts_S1x768x1024_S768x1024 : FVec Ideal S768x1024 .bf16) (constant S500x1024 .f32 0x00000000#32)) shapeCasts_S500x1024_S4x125x1024 : FVec Ideal S4x125x1024 .f32) i
      = tap X W (base + (i 0).val) (i 1).val (i 2).val k := by
  have hp : (i 0).val < 4 := (i 0).isLt
  have hl : (i 1).val < 125 := (i 1).isLt
  have hf : (i 2).val < 1024 := (i 2).isLt
  refine (shapeCast_apply _ shapeCasts_S500x1024_S4x125x1024 i (oIdx125 ((i 0).val * 125 + (i 1).val) (i 2).val (by omega) hf) ?_).trans ?_
  · rw [Shape.rowMajor_val_two, Shape.rowMajor_val_three]
    rfl
  rw [mm125_apply]
  unfold tap
  refine Finset.sum_congr rfl fun d _ => ?_
  rw [rows125_apply X base v1 k hk off h0 h1 h2 hs hv1 (i 0).val (i 1).val d.val hp hl d.isLt, slab_apply W w k hw d.val (i 2).val d.isLt hf]

/-! ## The width-2 branch -/

theorem conv2_block (x0 : Vec Ideal S4x128x768 .f32) (v5 v12 : Vec Ideal S1x768x1024 .bf16) (v17 : Vec Ideal S1x1024 .f32)
    (hx : ∀ y : S4x128x768.Idx, x0 y = X (base + (y 0).val) (y 1).val (y 2).val)
    (h5 : ∀ y : S1x768x1024.Idx, v5 y = W (y 2).val 0 (y 1).val) (h12 : ∀ y : S1x768x1024.Idx, v12 y = W (y 2).val 1 (y 1).val)
    (h17 : ∀ y : S1x1024.Idx, v17 y = B (y 1).val) (i : S4x127x1024.Idx) :
    k0_pay5 x0 v5 v12 v17 i = conv2 X W B (base + (i 0).val) (i 1).val (i 2).val := by
  have hv1 := xbf_block X base x0 hx
  have e0 := tap127_apply X W base (k0_pay4 x0) v5 0 (by omega) ![0, 0, 0] rfl rfl rfl slices_S4x128x768_o0_0_0_S4x127x768 hv1 h5 i
  have e1 := tap127_apply X W base (k0_pay4 x0) v12 1 (by omega) ![0, 1, 0] rfl rfl rfl slices_S4x128x768_o0_1_0_S4x127x768 hv1 h12 i
  have eb := bias_apply B v17 h17 broadcasts_S1x1x1024_S4x127x1024 i
  unfold k0_pay5 conv2
  simp only [maximumf_apply, addf_apply, broadcast_apply]
  rw [e0, e1, eb]
  show max (((Ideal.ofBits .f32 0x00000000#32 + _) + _) + _) (Ideal.ofBits .f32 0x00000000#32) = _
  rw [Ideal.ofBits_zero_f32, zero_add]

/-! ## The width-3 branch -/

theorem conv3_block (x0 : Vec Ideal S4x128x768 .f32) (v27 v34 v41 : Vec Ideal S1x768x1024 .bf16) (v46 : Vec Ideal S1x1024 .f32)
    (hx : ∀ y : S4x128x768.Idx, x0 y = X (base + (y 0).val) (y 1).val (y 2).val)
    (h27 : ∀ y : S1x768x1024.Idx, v27 y = W (y 2).val 0 (y 1).val) (h34 : ∀ y : S1x768x1024.Idx, v34 y = W (y 2).val 1 (y 1).val) (h41 : ∀ y : S1x768x1024.Idx, v41 y = W (y 2).val 2 (y 1).val)
    (h46 : ∀ y : S1x1024.Idx, v46 y = B (y 1).val) (i : S4x126x1024.Idx) :
    k0_pay9 (k0_pay4 x0) (k0_pay6 x0 v27) (k0_pay7 x0) (k0_pay8 v34) v41 v46 i = conv3 X W B (base + (i 0).val) (i 1).val (i 2).val := by
  have hv1 := xbf_block X base x0 hx
  have e0 := tap126_apply X W base (k0_pay4 x0) v27 0 (by omega) ![0, 0, 0] rfl rfl rfl slices_S4x128x768_o0_0_0_S4x126x768 hv1 h27 i
  have e1 := tap126_apply X W base (k0_pay4 x0) v34 1 (by omega) ![0, 1, 0] rfl rfl rfl slices_S4x128x768_o0_1_0_S4x126x768 hv1 h34 i
  have e2 := tap126_apply X W base (k0_pay4 x0) v41 2 (by omega) ![0, 2, 0] rfl rfl rfl slices_S4x128x768_o0_2_0_S4x126x768 hv1 h41 i
  have eb := bias_apply B v46 h46 broadcasts_S1x1x1024_S4x126x1024 i
  unfold k0_pay9 k0_pay6 k0_pay7 k0_pay8 conv3
  simp only [maximumf_apply, addf_apply, broadcast_apply]
  rw [e0, e1, e2, eb]
  show max ((((Ideal.ofBits .f32 0x00000000#32 + _) + _) + _) + _) (Ideal.ofBits .f32 0x00000000#32) = _
  rw [Ideal.ofBits_zero_f32, zero_add]

/-! ## The width-4 branch: its first three taps, and the fourth -/

theorem conv4_part_block (v1 : FVec Ideal S4x128x768 .bf16) (v56 v63 v70 : Vec Ideal S1x768x1024 .bf16)
    (hv1 : ∀ y : S4x128x768.Idx, v1 y = X (base + (y 0).val) (y 1).val (y 2).val)
    (h56 : ∀ y : S1x768x1024.Idx, v56 y = W (y 2).val 0 (y 1).val) (h63 : ∀ y : S1x768x1024.Idx, v63 y = W (y 2).val 1 (y 1).val) (h70 : ∀ y : S1x768x1024.Idx, v70 y = W (y 2).val 2 (y 1).val)
    (i : S4x125x1024.Idx) :
    k0_pay10 v1 v56 v63 v70 i = (tap X W (base + (i 0).val) (i 1).val (i 2).val 0 + tap X W (base + (i 0).val) (i 1).val (i 2).val 1) + tap X W (base + (i 0).val) (i 1).val (i 2).val 2 := by
  have e0 := tap125_apply X W base v1 v56 0 (by omega) ![0, 0, 0] rfl rfl rfl slices_S4x128x768_o0_0_0_S4x125x768 hv1 h56 i
  have e1 := tap125_apply X W base v1 v63 1 (by omega) ![0, 1, 0] rfl rfl rfl slices_S4x128x768_o0_1_0_S4x125x768 hv1 h63 i
  have e2 := tap125_apply X W base v1 v70 2 (by omega) ![0, 2, 0] rfl rfl rfl slices_S4x128x768_o0_2_0_S4x125x768 hv1 h70 i
  unfold k0_pay10
  simp only [addf_apply, broadcast_apply]
  rw [e0, e1, e2]
  show ((Ideal.ofBits .f32 0x00000000#32 + _) + _) + _ = _
  rw [Ideal.ofBits_zero_f32, zero_add]

theorem tap3_block (v1 : FVec Ideal S4x128x768 .bf16) (v77 : Vec Ideal S1x768x1024 .bf16)
    (hv1 : ∀ y : S4x128x768.Idx, v1 y = X (base + (y 0).val) (y 1).val (y 2).val)
    (h77 : ∀ y : S1x768x1024.Idx, v77 y = W (y 2).val 3 (y 1).val) (i : S4x125x1024.Idx) :
    (shapeCast S4x125x1024 (matmul dot_S500x768_S768x1024_S500x1024_1_0_0_1_n_n none (shapeCast S500x768 (extractStridedSlice S4x125x768 ![0, 3, 0] v1 slices_S4x128x768_o0_3_0_S4x125x768) shapeCasts_S4x125x768_S500x768) (shapeCast S768x1024 v77 shapeCasts_S1x768x1024_S768x1024 : FVec Ideal S768x1024 .bf16) (constant S500x1024 .f32 0x00000000#32)) shapeCasts_S500x1024_S4x125x1024 : FVec Ideal S4x125x1024 .f32) i = tap X W (base + (i 0).val) (i 1).val (i 2).val 3 :=
  tap125_apply X W base v1 v77 3 (by omega) ![0, 3, 0] rfl rfl rfl slices_S4x128x768_o0_3_0_S4x125x768 hv1 h77 i

end Cert.ConvBlocks

end
-- ==== Proof.NormPieces.lean ====
/-
  The kernel's four stored pieces, read at an index, are the specification's rows scaled to Euclidean length one.

  Each piece ends in the same scaling: the entries' squares summed along the lane axis, the square root, the clamp
  from below by the 1e-12 word, and the division of every entry by that clamped length. What differs is the row that
  is scaled: rows 0..123 take the maximum of the three rectified convolution branches, row 124 of the two branches that
  reach it, row 125 the width-2 branch alone, and the sentence row the affine image of the sentence vector. The
  branches themselves are hypotheses here: each is assumed to be the specification's branch at every index.
-/
import proofs.«158635_j84035330113648_1_alg».proof.Proof.Gen.KernelIdeal.Skeleton
import proofs.«158635_j84035330113648_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.NormPieces

open Cert.KernelIdeal Cert.KernelIdeal.Gen Cert.Spec Idealize.ShloMosaic Idealize.ShloMosaic.TcCoe Idealize.SL.Sem
open Idealize.ShloMosaic.ValueIdx

/-! ## Layout operations of the scaling, read at an index -/

/-- A length-4 vector viewed as a [4,1] column reads its row. -/
theorem col_of_vec (w : FVec Ideal S4 .f32) (j : S4x1.Idx) :
    shapeCast S4x1 w shapeCasts_S4_S4x1 j = w (ix1 (j 0)) := by
  refine shapeCast_apply w _ j (ix1 (j 0)) ?_
  rw [Shape.rowMajor_val_one, Shape.rowMajor_val_two]
  have h1 : (j 1).val < 1 := (j 1).isLt
  show (j 0).val = (j 0).val * 1 + (j 1).val
  omega

/-- A [4,1] column broadcast along the lanes reads its row. -/
theorem lanes_of_col (w : FVec Ideal S4x1 .f32) (j : S4x1024.Idx) :
    broadcastTo S4x1024 w broadcasts_S4x1_S4x1024 j = w (ix2 (j 0) 0) := by
  refine broadcastTo_apply w _ j (ix2 (j 0) 0) fun a => ?_
  match a with
  | ⟨0, _⟩ => rfl
  | ⟨1, _⟩ => rfl

/-- The sum of a [4,1024] block along its lanes, at row r, is the sum over the lane coordinate. -/
theorem laneSum2 (v : FVec Ideal S4x1024 .f32) (hφ : FKind.Formats .f32)
    (hacc : (0x00000000#32 : BitVec 32) = 0x00000000#32) (r : Fin 4) :
    multiReduction .add [1] S4 v 0x00000000#32 reduces_S4x1024_S4 hφ hacc (ix1 r) = ∑ k : Fin 1024, v (ix2 r k) := by
  refine (Ideal.multiReduction_add_single v 0x00000000#32 reduces_S4x1024_S4 hφ hacc (ix1 r)).trans ?_
  refine Finset.sum_congr rfl fun k _ => congrArg v ?_
  funext a
  match a with
  | ⟨0, _⟩ => rfl
  | ⟨1, _⟩ => rfl

/-! ## The scaling of a [4,1024] block, row by row -/

/-- A [4,1024] block divided by its rows' clamped Euclidean lengths, read at an index: the entry over the larger of
    the square root of its row's sum of squares and the 1e-12 word. -/
theorem scaled2 (v : FVec Ideal S4x1024 .f32) (hφ : FKind.Formats .f32)
    (hacc : (0x00000000#32 : BitVec 32) = 0x00000000#32) (j : S4x1024.Idx) :
    divf v (broadcastTo S4x1024 (maximumf (sqrt (shapeCast S4x1
        (multiReduction .add [1] S4 (mulf v v) 0x00000000#32 reduces_S4x1024_S4 hφ hacc) shapeCasts_S4_S4x1))
        (broadcast S4x1 (Scalar.ofBits .f32 0x2B8CBCCC#32))) broadcasts_S4x1_S4x1024) j
      = Ideal.div (v j) (max (Ideal.sqrt (∑ k : Fin 1024, v (ix2 (j 0) k) * v (ix2 (j 0) k))) eps) := by
  rw [divf_apply, lanes_of_col, maximumf_apply, broadcast_apply]
  show Ideal.div (v j) (max (Ideal.sqrt (shapeCast S4x1 _ shapeCasts_S4_S4x1 (ix2 (j 0) 0))) eps) = _
  rw [col_of_vec]
  exact congrArg (fun t => Ideal.div (v j) (max (Ideal.sqrt t) eps)) (laneSum2 (mulf v v) hφ hacc (j 0))

/-- The same block stored as [4,1,1024] reads the [4,1024] block at its outer coordinates. -/
theorem row_of_block (w : FVec Ideal S4x1024 .f32) (i : S4x1x1024.Idx) :
    shapeCast S4x1x1024 w shapeCasts_S4x1024_S4x1x1024 i = w (ix2 (i 0) (i 2)) := by
  refine shapeCast_apply w _ i (ix2 (i 0) (i 2)) ?_
  rw [Shape.rowMajor_val_two, Shape.rowMajor_val_three]
  have h1 : (i 1).val < 1 := (i 1).isLt
  show (i 0).val * 1024 + (i 2).val = ((i 0).val * 1 + (i 1).val) * 1024 + (i 2).val
  omega

/-- A [4,1,1024] block viewed as [4,1024] reads the block at the unit row. -/
theorem block_of_row (w : FVec Ideal S4x1x1024 .f32) (j : S4x1024.Idx) :
    shapeCast S4x1024 w shapeCasts_S4x1x1024_S4x1024 j = w (ix3 (j 0) 0 (j 1)) := by
  refine shapeCast_apply w _ j (ix3 (j 0) 0 (j 1)) ?_
  rw [Shape.rowMajor_val_two, Shape.rowMajor_val_three]
  show ((j 0).val * 1 + 0) * 1024 + (j 1).val = (j 0).val * 1024 + (j 1).val
  omega

variable (X W2 W3 W4 : Nat → Nat → Nat → EReal) (B2 B3 B4 : Nat → EReal) (S Wp : Nat → Nat → EReal) (Bp : Nat → EReal)
  (base : Nat)

/-! ## Row 125: the width-2 branch alone -/

/-- Row 125 of the width-2 branch, as the [4,1024] block the kernel cuts out, is the code's row 125. -/
theorem row125 (v23 : FVec Ideal S4x127x1024 .f32)
    (h23 : ∀ y : S4x127x1024.Idx, v23 y = conv2 X W2 B2 (base + (y 0).val) (y 1).val (y 2).val) (j : S4x1024.Idx) :
    k0_pay11 v23 j = code X W2 B2 W3 B3 W4 B4 (base + (j 0).val) 125 (j 1).val := by
  unfold k0_pay11
  rw [block_of_row]
  refine (extractStridedSlice_apply ![0, 125, 0] v23 _ _ (ix3 (j 0) ⟨125, by decide⟩ (j 1)) fun a => ?_).trans ?_
  · match a with
    | ⟨0, _⟩ => exact (Nat.zero_add _).symm
    | ⟨1, _⟩ => rfl
    | ⟨2, _⟩ => exact (Nat.zero_add _).symm
  · rw [h23]
    unfold code
    rw [if_neg (by decide), if_neg (by decide)]

/-- The stored row 125, read at an index, is the code's row 125 scaled to length one. -/
theorem piece_last (v23 : FVec Ideal S4x127x1024 .f32)
    (h23 : ∀ y : S4x127x1024.Idx, v23 y = conv2 X W2 B2 (base + (y 0).val) (y 1).val (y 2).val) (i : S4x1x1024.Idx) :
    k0_pay2 (k0_pay11 v23) (k0_pay14 v23) (k0_pay15 (F := Ideal)) i
      = unitRow (fun f => code X W2 B2 W3 B3 W4 B4 (base + (i 0).val) 125 f) (i 2).val := by
  unfold k0_pay2 k0_pay14 k0_pay15
  rw [row_of_block]
  refine (scaled2 (k0_pay11 v23) _ _ (ix2 (i 0) (i 2))).trans ?_
  unfold unitRow
  rw [row125 X W2 W3 W4 B2 B3 B4 base v23 h23]
  refine congrArg (fun t => Ideal.div _ (max (Ideal.sqrt t) eps)) (Finset.sum_congr rfl fun k _ => ?_)
  rw [row125 X W2 W3 W4 B2 B3 B4 base v23 h23]

/-! ## Row 124: the two branches that reach it -/

/-- Row 124 of the width-2 and width-3 branches, cut out as [4,1024] blocks and maximised, is the code's row 124. -/
theorem row124 (v23 : FVec Ideal S4x127x1024 .f32) (v52 : FVec Ideal S4x126x1024 .f32)
    (h23 : ∀ y : S4x127x1024.Idx, v23 y = conv2 X W2 B2 (base + (y 0).val) (y 1).val (y 2).val)
    (h52 : ∀ y : S4x126x1024.Idx, v52 y = conv3 X W3 B3 (base + (y 0).val) (y 1).val (y 2).val) (j : S4x1024.Idx) :
    maximumf
        (shapeCast S4x1024 (extractStridedSlice S4x1x1024 ![0, 124, 0] v23 slices_S4x127x1024_o0_124_0_S4x1x1024)
          shapeCasts_S4x1x1024_S4x1024)
        (shapeCast S4x1024 (extractStridedSlice S4x1x1024 ![0, 124, 0] v52 slices_S4x126x1024_o0_124_0_S4x1x1024)
          shapeCasts_S4x1x1024_S4x1024) j
      = code X W2 B2 W3 B3 W4 B4 (base + (j 0).val) 124 (j 1).val := by
  rw [maximumf_apply, block_of_row, block_of_row]
  have e23 := extractStridedSlice_apply (s := S4x127x1024) (t := S4x1x1024) ![0, 124, 0] v23
    slices_S4x127x1024_o0_124_0_S4x1x1024 (ix3 (j 0 : Fin 4) (0 : Fin 1) (j 1 : Fin 1024))
    (ix3 (j 0 : Fin 4) (⟨124, by decide⟩ : Fin 127) (j 1 : Fin 1024)) fun a => by
      match a with
      | ⟨0, _⟩ => exact (Nat.zero_add _).symm
      | ⟨1, _⟩ => rfl
      | ⟨2, _⟩ => exact (Nat.zero_add _).symm
  have e52 := extractStridedSlice_apply (s := S4x126x1024) (t := S4x1x1024) ![0, 124, 0] v52
    slices_S4x126x1024_o0_124_0_S4x1x1024 (ix3 (j 0 : Fin 4) (0 : Fin 1) (j 1 : Fin 1024))
    (ix3 (j 0 : Fin 4) (⟨124, by decide⟩ : Fin 126) (j 1 : Fin 1024)) fun a => by
      match a with
      | ⟨0, _⟩ => exact (Nat.zero_add _).symm
      | ⟨1, _⟩ => rfl
      | ⟨2, _⟩ => exact (Nat.zero_add _).symm
  rw [e23, e52, h23, h52]
  unfold code
  rw [if_neg (by decide), if_pos rfl]

/-- The stored row 124, read at an index, is the code's row 124 scaled to length one. -/
theorem piece_pen (v23 : FVec Ideal S4x127x1024 .f32) (v52 : FVec Ideal S4x126x1024 .f32)
    (h23 : ∀ y : S4x127x1024.Idx, v23 y = conv2 X W2 B2 (base + (y 0).val) (y 1).val (y 2).val)
    (h52 : ∀ y : S4x126x1024.Idx, v52 y = conv3 X W3 B3 (base + (y 0).val) (y 1).val (y 2).val) (i : S4x1x1024.Idx) :
    k0_pay1 (k0_pay13 v23 v52) i = unitRow (fun f => code X W2 B2 W3 B3 W4 B4 (base + (i 0).val) 124 f) (i 2).val := by
  unfold k0_pay1 k0_pay13
  rw [row_of_block]
  refine (scaled2 _ _ _ (ix2 (i 0) (i 2))).trans ?_
  unfold unitRow
  rw [row124 X W2 W3 W4 B2 B3 B4 base v23 v52 h23 h52]
  refine congrArg (fun t => Ideal.div _ (max (Ideal.sqrt t) eps)) (Finset.sum_congr rfl fun k _ => ?_)
  rw [row124 X W2 W3 W4 B2 B3 B4 base v23 v52 h23 h52]

/-! ## The sentence row: a [4,768] by [768,1024] product into a zero accumulator, plus the bias -/

/-- The product's left operand index keeps the output's row. -/
theorem sentLhs0 (i : S4x1024.Idx) (q : dot_S4x768_S768x1024_S4x1024_1_0_0_1_n_n.contr.Idx) :
    (dot_S4x768_S768x1024_S4x1024_1_0_0_1_n_n.lhsIdx i q 0).val = (i 0).val := by
  unfold DotDims.lhsIdx
  rw [dif_neg (show ¬(0 : Fin S4x768.rank) ∈ dot_S4x768_S768x1024_S4x1024_1_0_0_1_n_n.lhsBatch by decide), dif_pos (show (0 : Fin S4x768.rank) ∈ dot_S4x768_S768x1024_S4x1024_1_0_0_1_n_n.lhsNonContracting by decide)]
  rfl
/-- The product's left operand index takes the contraction coordinate as its column. -/
theorem sentLhs1 (i : S4x1024.Idx) (q : dot_S4x768_S768x1024_S4x1024_1_0_0_1_n_n.contr.Idx) :
    (dot_S4x768_S768x1024_S4x1024_1_0_0_1_n_n.lhsIdx i q 1).val = (q ⟨0, by decide⟩).val :=
  dot_S4x768_S768x1024_S4x1024_1_0_0_1_n_n.lhsIdx_val_of_single rfl i q
/-- The product's right operand index takes the contraction coordinate as its row. -/
theorem sentRhs0 (i : S4x1024.Idx) (q : dot_S4x768_S768x1024_S4x1024_1_0_0_1_n_n.contr.Idx) :
    (dot_S4x768_S768x1024_S4x1024_1_0_0_1_n_n.rhsIdx i q 0).val = (q ⟨0, by decide⟩).val :=
  dot_S4x768_S768x1024_S4x1024_1_0_0_1_n_n.rhsIdx_val_of_single rfl i q
/-- The product's right operand index keeps the output's column. -/
theorem sentRhs1 (i : S4x1024.Idx) (q : dot_S4x768_S768x1024_S4x1024_1_0_0_1_n_n.contr.Idx) :
    (dot_S4x768_S768x1024_S4x1024_1_0_0_1_n_n.rhsIdx i q 1).val = (i 1).val := by
  unfold DotDims.rhsIdx
  rw [dif_neg (show ¬(1 : Fin S768x1024.rank) ∈ dot_S4x768_S768x1024_S4x1024_1_0_0_1_n_n.rhsBatch by decide), dif_pos (show (1 : Fin S768x1024.rank) ∈ dot_S4x768_S768x1024_S4x1024_1_0_0_1_n_n.rhsNonContracting by decide)]
  rfl

/-- The [4,768] by [768,1024] product into the zero accumulator, read at (r, c): Σ_k l[r, k] · w[k, c]. -/
theorem sentDot (l : FVec Ideal S4x768 .bf16) (w : FVec Ideal S768x1024 .bf16) (j : S4x1024.Idx) :
    matmul dot_S4x768_S768x1024_S4x1024_1_0_0_1_n_n none l w (constant (F := Ideal) S4x1024 .f32 0x00000000#32) j
      = ∑ k : Fin 768, l (ix2 (j 0) k) * w (ix2 k (j 1)) := by
  simp only [matmul]
  rw [Ideal.matmul_constant_zero_apply, ← Equiv.sum_comp (contrEquiv1 dot_S4x768_S768x1024_S4x1024_1_0_0_1_n_n 768 rfl rfl).symm]
  refine Finset.sum_congr rfl fun k _ => ?_
  have hk := contrEquiv1_symm_val dot_S4x768_S768x1024_S4x1024_1_0_0_1_n_n 768 rfl rfl k
  have el : dot_S4x768_S768x1024_S4x1024_1_0_0_1_n_n.lhsIdx j ((contrEquiv1 dot_S4x768_S768x1024_S4x1024_1_0_0_1_n_n 768 rfl rfl).symm k) = ix2 (j 0) k := funext fun a => Fin.ext (by
    match a with
    | ⟨0, _⟩ => exact sentLhs0 _ _
    | ⟨1, _⟩ => exact (sentLhs1 _ _).trans hk)
  have er : dot_S4x768_S768x1024_S4x1024_1_0_0_1_n_n.rhsIdx j ((contrEquiv1 dot_S4x768_S768x1024_S4x1024_1_0_0_1_n_n 768 rfl rfl).symm k) = ix2 k (j 1) := funext fun a => Fin.ext (by
    match a with
    | ⟨0, _⟩ => exact (sentRhs0 _ _).trans hk
    | ⟨1, _⟩ => exact sentRhs1 _ _)
  rw [el, er]
  rfl

/-- The sentence block [4,1,768] viewed as [4,768] reads the block at the unit row. -/
theorem sent_of_block (w : FVec Ideal S4x1x768 .f32) (j : S4x768.Idx) :
    shapeCast S4x768 w shapeCasts_S4x1x768_S4x768 j = w (ix3 (j 0) 0 (j 1)) := by
  refine shapeCast_apply w _ j (ix3 (j 0) 0 (j 1)) ?_
  rw [Shape.rowMajor_val_two, Shape.rowMajor_val_three]
  show ((j 0).val * 1 + 0) * 768 + (j 1).val = (j 0).val * 768 + (j 1).val
  omega

/-- The bias row [1,1024] broadcast over the four rows reads the bias at the lane. -/
theorem bias_rows (w : FVec Ideal S1x1024 .f32) (j : S4x1024.Idx) :
    broadcastTo S4x1024 w broadcasts_S1x1024_S4x1024 j = w (ix2 0 (j 1)) := by
  refine broadcastTo_apply w _ j (ix2 0 (j 1)) fun a => ?_
  match a with
  | ⟨0, _⟩ => rfl
  | ⟨1, _⟩ => rfl

/-- The sentence head before scaling, read at (r, c), is the affine image of sentence vector base + r at feature c. -/
theorem affineRow (v130 : Vec Ideal S4x1x768 .f32) (v134 : Vec Ideal S768x1024 .bf16) (v137 : Vec Ideal S1x1024 .f32)
    (h130 : ∀ y : S4x1x768.Idx, v130 y = S (base + (y 0).val) (y 2).val)
    (h134 : ∀ y : S768x1024.Idx, v134 y = Wp (y 1).val (y 0).val)
    (h137 : ∀ y : S1x1024.Idx, v137 y = Bp (y 1).val) (j : S4x1024.Idx) :
    addf
        (matmul dot_S4x768_S768x1024_S4x1024_1_0_0_1_n_n none
          (truncf .bf16 (shapeCast S4x768 (shapeCast S4x1x768 v130 shapeCasts_S4x1x768_S4x1x768 : FVec Ideal S4x1x768 .f32)
            shapeCasts_S4x1x768_S4x768) bitsLt_bf16_f32 : FVec Ideal S4x768 .bf16)
          (shapeCast S768x1024 v134 shapeCasts_S768x1024_S768x1024 : FVec Ideal S768x1024 .bf16)
          (constant (F := Ideal) S4x1024 .f32 0x00000000#32))
        (broadcastTo S4x1024 (shapeCast S1x1024 v137 shapeCasts_S1x1024_S1x1024 : FVec Ideal S1x1024 .f32)
          broadcasts_S1x1024_S4x1024) j
      = lin S Wp Bp (base + (j 0).val) (j 1).val := by
  rw [addf_apply, sentDot, bias_rows, shapeCast_self, shapeCast_self, shapeCast_self, h137]
  unfold lin
  refine congrArg (· + Bp (j 1).val) (Finset.sum_congr rfl fun k _ => ?_)
  rw [truncf_apply, sent_of_block, h130, h134]

/-- The stored sentence row, read at an index, is the affine image of the sentence vector scaled to length one. -/
theorem piece_sent (v130 : Vec Ideal S4x1x768 .f32) (v134 : Vec Ideal S768x1024 .bf16) (v137 : Vec Ideal S1x1024 .f32)
    (h130 : ∀ y : S4x1x768.Idx, v130 y = S (base + (y 0).val) (y 2).val)
    (h134 : ∀ y : S768x1024.Idx, v134 y = Wp (y 1).val (y 0).val)
    (h137 : ∀ y : S1x1024.Idx, v137 y = Bp (y 1).val) (i : S4x1x1024.Idx) :
    k0_pay3 v130 v134 v137 i = unitRow (fun f => lin S Wp Bp (base + (i 0).val) f) (i 2).val := by
  unfold k0_pay3
  rw [row_of_block]
  refine (scaled2 _ _ _ (ix2 (i 0) (i 2))).trans ?_
  unfold unitRow
  rw [affineRow S Wp Bp base v130 v134 v137 h130 h134 h137]
  refine congrArg (fun t => Ideal.div _ (max (Ideal.sqrt t) eps)) (Finset.sum_congr rfl fun k _ => ?_)
  rw [affineRow S Wp Bp base v130 v134 v137 h130 h134 h137]

/-! ## Rows 0..123: the three branches, and the scaling of a [4,124,1024] block -/

/-- A [4,124] array viewed as [4,124,1] reads its (row, position). -/
theorem col3_of_mat (w : FVec Ideal S4x124 .f32) (j : S4x124x1.Idx) :
    shapeCast S4x124x1 w shapeCasts_S4x124_S4x124x1 j = w (ix2 (j 0) (j 1)) := by
  refine shapeCast_apply w _ j (ix2 (j 0) (j 1)) ?_
  rw [Shape.rowMajor_val_two, Shape.rowMajor_val_three]
  have h2 : (j 2).val < 1 := (j 2).isLt
  show (j 0).val * 124 + (j 1).val = ((j 0).val * 124 + (j 1).val) * 1 + (j 2).val
  omega

/-- A [4,124,1] column block broadcast along the lanes reads its (row, position). -/
theorem lanes3_of_col (w : FVec Ideal S4x124x1 .f32) (j : S4x124x1024.Idx) :
    broadcastTo S4x124x1024 w broadcasts_S4x124x1_S4x124x1024 j = w (ix3 (j 0) (j 1) 0) := by
  refine broadcastTo_apply w _ j (ix3 (j 0) (j 1) 0) fun a => ?_
  match a with
  | ⟨0, _⟩ => rfl
  | ⟨1, _⟩ => rfl
  | ⟨2, _⟩ => rfl

/-- The sum of a [4,124,1024] block along its lanes, at (r, p), is the sum over the lane coordinate. -/
theorem laneSum3 (v : FVec Ideal S4x124x1024 .f32) (hφ : FKind.Formats .f32)
    (hacc : (0x00000000#32 : BitVec 32) = 0x00000000#32) (r : Fin 4) (p : Fin 124) :
    multiReduction .add [2] S4x124 v 0x00000000#32 reduces_S4x124x1024_S4x124 hφ hacc (ix2 r p)
      = ∑ k : Fin 1024, v (ix3 r p k) := by
  refine (Ideal.multiReduction_add_single v 0x00000000#32 reduces_S4x124x1024_S4x124 hφ hacc (ix2 r p)).trans ?_
  refine Finset.sum_congr rfl fun k _ => congrArg v ?_
  funext a
  match a with
  | ⟨0, _⟩ => rfl
  | ⟨1, _⟩ => rfl
  | ⟨2, _⟩ => rfl

/-- A [4,124,1024] block divided by its rows' clamped Euclidean lengths, read at an index. -/
theorem scaled3 (v : FVec Ideal S4x124x1024 .f32) (hφ : FKind.Formats .f32)
    (hacc : (0x00000000#32 : BitVec 32) = 0x00000000#32) (j : S4x124x1024.Idx) :
    divf v (broadcastTo S4x124x1024 (maximumf (sqrt (shapeCast S4x124x1
        (multiReduction .add [2] S4x124 (mulf v v) 0x00000000#32 reduces_S4x124x1024_S4x124 hφ hacc)
        shapeCasts_S4x124_S4x124x1))
        (broadcast S4x124x1 (Scalar.ofBits .f32 0x2B8CBCCC#32))) broadcasts_S4x124x1_S4x124x1024) j
      = Ideal.div (v j)
          (max (Ideal.sqrt (∑ k : Fin 1024, v (ix3 (j 0) (j 1) k) * v (ix3 (j 0) (j 1) k))) eps) := by
  rw [divf_apply, lanes3_of_col, maximumf_apply, broadcast_apply]
  show Ideal.div (v j) (max (Ideal.sqrt (shapeCast S4x124x1 _ shapeCasts_S4x124_S4x124x1 (ix3 (j 0) (j 1) 0))) eps) = _
  rw [col3_of_mat]
  exact congrArg (fun t => Ideal.div (v j) (max (Ideal.sqrt t) eps)) (laneSum3 (mulf v v) hφ hacc (j 0) (j 1))

/-- The bias row [1,1024], viewed [1,1,1024] and broadcast over rows and positions, reads the bias at the lane. -/
theorem bias_block (w : FVec Ideal S1x1024 .f32) (y : S4x125x1024.Idx) :
    broadcastTo S4x125x1024 (shapeCast S1x1x1024 w shapeCasts_S1x1024_S1x1x1024) broadcasts_S1x1x1024_S4x125x1024 y
      = w (ix2 0 (y 2)) := by
  refine (broadcastTo_apply (s := S1x1x1024) (t := S4x125x1024) _ broadcasts_S1x1x1024_S4x125x1024 y
    (ix3 (0 : Fin 1) (0 : Fin 1) (y 2 : Fin 1024)) fun a => ?_).trans ?_
  · match a with
    | ⟨0, _⟩ => rfl
    | ⟨1, _⟩ => rfl
    | ⟨2, _⟩ => rfl
  · refine shapeCast_apply (s := S1x1024) (t := S1x1x1024) w _ _ (ix2 (0 : Fin 1) (y 2 : Fin 1024)) ?_
    rw [Shape.rowMajor_val_two, Shape.rowMajor_val_three]
    show 0 * 1024 + (y 2).val = ((0 * 1 + 0) * 1024) + (y 2).val
    omega

/-- The width-4 branch: three taps already summed, the fourth tap added, the bias added, the maximum with zero. -/
theorem branch4 (v74 T : FVec Ideal S4x125x1024 .f32) (v82 : Vec Ideal S1x1024 .f32)
    (h74 : ∀ y : S4x125x1024.Idx, v74 y = (tap X W4 (base + (y 0).val) (y 1).val (y 2).val 0
      + tap X W4 (base + (y 0).val) (y 1).val (y 2).val 1) + tap X W4 (base + (y 0).val) (y 1).val (y 2).val 2)
    (hT : ∀ y : S4x125x1024.Idx, T y = tap X W4 (base + (y 0).val) (y 1).val (y 2).val 3)
    (h82 : ∀ y : S1x1024.Idx, v82 y = B4 (y 1).val) (y : S4x125x1024.Idx) :
    maximumf
        (addf (addf v74 T)
          (broadcastTo S4x125x1024
            (shapeCast S1x1x1024 (shapeCast S1x1024 v82 shapeCasts_S1x1024_S1x1024 : FVec Ideal S1x1024 .f32)
              shapeCasts_S1x1024_S1x1x1024) broadcasts_S1x1x1024_S4x125x1024))
        (broadcast S4x125x1024 (Scalar.ofBits (F := Ideal) .f32 0x00000000#32)) y
      = conv4 X W4 B4 (base + (y 0).val) (y 1).val (y 2).val := by
  rw [maximumf_apply, addf_apply, addf_apply, broadcast_apply, bias_block, shapeCast_self, h74, hT, h82]
  show max _ (Ideal.ofBits .f32 0x00000000#32) = _
  rw [Ideal.ofBits_zero_f32]
  rfl

/-- Rows 0..123 of the three branches, maximised, are the code's rows below 124. -/
theorem rowMain (v23 : FVec Ideal S4x127x1024 .f32) (v52 : FVec Ideal S4x126x1024 .f32)
    (v88 : FVec Ideal S4x125x1024 .f32)
    (h23 : ∀ y : S4x127x1024.Idx, v23 y = conv2 X W2 B2 (base + (y 0).val) (y 1).val (y 2).val)
    (h52 : ∀ y : S4x126x1024.Idx, v52 y = conv3 X W3 B3 (base + (y 0).val) (y 1).val (y 2).val)
    (h88 : ∀ y : S4x125x1024.Idx, v88 y = conv4 X W4 B4 (base + (y 0).val) (y 1).val (y 2).val)
    (i : S4x124x1024.Idx) :
    maximumf
        (maximumf (extractStridedSlice S4x124x1024 ![0, 0, 0] v23 slices_S4x127x1024_o0_0_0_S4x124x1024)
          (extractStridedSlice S4x124x1024 ![0, 0, 0] v52 slices_S4x126x1024_o0_0_0_S4x124x1024))
        (extractStridedSlice S4x124x1024 ![0, 0, 0] v88 slices_S4x125x1024_o0_0_0_S4x124x1024) i
      = code X W2 B2 W3 B3 W4 B4 (base + (i 0).val) (i 1).val (i 2).val := by
  have hlt : (i 1).val < 124 := (i 1).isLt
  have e23 := extractStridedSlice_apply (s := S4x127x1024) (t := S4x124x1024) ![0, 0, 0] v23
    slices_S4x127x1024_o0_0_0_S4x124x1024 i
    (ix3 (i 0 : Fin 4) (⟨(i 1).val, by omega⟩ : Fin 127) (i 2 : Fin 1024)) fun a => by
      match a with
      | ⟨0, _⟩ => exact (Nat.zero_add _).symm
      | ⟨1, _⟩ => exact (Nat.zero_add _).symm
      | ⟨2, _⟩ => exact (Nat.zero_add _).symm
  have e52 := extractStridedSlice_apply (s := S4x126x1024) (t := S4x124x1024) ![0, 0, 0] v52
    slices_S4x126x1024_o0_0_0_S4x124x1024 i
    (ix3 (i 0 : Fin 4) (⟨(i 1).val, by omega⟩ : Fin 126) (i 2 : Fin 1024)) fun a => by
      match a with
      | ⟨0, _⟩ => exact (Nat.zero_add _).symm
      | ⟨1, _⟩ => exact (Nat.zero_add _).symm
      | ⟨2, _⟩ => exact (Nat.zero_add _).symm
  have e88 := extractStridedSlice_apply (s := S4x125x1024) (t := S4x124x1024) ![0, 0, 0] v88
    slices_S4x125x1024_o0_0_0_S4x124x1024 i
    (ix3 (i 0 : Fin 4) (⟨(i 1).val, by omega⟩ : Fin 125) (i 2 : Fin 1024)) fun a => by
      match a with
      | ⟨0, _⟩ => exact (Nat.zero_add _).symm
      | ⟨1, _⟩ => exact (Nat.zero_add _).symm
      | ⟨2, _⟩ => exact (Nat.zero_add _).symm
  rw [maximumf_apply, maximumf_apply, e23, e52, e88, h23, h52, h88]
  unfold code
  rw [if_pos hlt]

/-- The stored rows 0..123, read at an index, are the code's rows scaled to length one, given the three summed taps,
    the fourth tap, and the bias of the width-4 branch. -/
theorem piece_main (v1 : FVec Ideal S4x128x768 .bf16) (v23 : FVec Ideal S4x127x1024 .f32)
    (v52 : FVec Ideal S4x126x1024 .f32) (v74 : FVec Ideal S4x125x1024 .f32) (v77 : Vec Ideal S1x768x1024 .bf16)
    (v82 : Vec Ideal S1x1024 .f32)
    (h23 : ∀ y : S4x127x1024.Idx, v23 y = conv2 X W2 B2 (base + (y 0).val) (y 1).val (y 2).val)
    (h52 : ∀ y : S4x126x1024.Idx, v52 y = conv3 X W3 B3 (base + (y 0).val) (y 1).val (y 2).val)
    (h74 : ∀ y : S4x125x1024.Idx, v74 y = (tap X W4 (base + (y 0).val) (y 1).val (y 2).val 0
      + tap X W4 (base + (y 0).val) (y 1).val (y 2).val 1) + tap X W4 (base + (y 0).val) (y 1).val (y 2).val 2)
    (htap3 : ∀ y : S4x125x1024.Idx,
      (shapeCast S4x125x1024
        (matmul dot_S500x768_S768x1024_S500x1024_1_0_0_1_n_n none
          (shapeCast S500x768 (extractStridedSlice S4x125x768 ![0, 3, 0] v1 slices_S4x128x768_o0_3_0_S4x125x768)
            shapeCasts_S4x125x768_S500x768)
          (shapeCast S768x1024 v77 shapeCasts_S1x768x1024_S768x1024 : FVec Ideal S768x1024 .bf16)
          (constant S500x1024 .f32 0x00000000#32))
        shapeCasts_S500x1024_S4x125x1024 : FVec Ideal S4x125x1024 .f32) y
        = tap X W4 (base + (y 0).val) (y 1).val (y 2).val 3)
    (h82 : ∀ y : S1x1024.Idx, v82 y = B4 (y 1).val) (i : S4x124x1024.Idx) :
    k0_pay12 v1 v23 v52 v74 v77 v82 i
      = unitRow (fun f => code X W2 B2 W3 B3 W4 B4 (base + (i 0).val) (i 1).val f) (i 2).val := by
  have h88 := branch4 X W4 B4 base v74 _ v82 h74 htap3 h82
  have hrow := rowMain X W2 W3 W4 B2 B3 B4 base v23 v52 _ h23 h52 h88
  unfold k0_pay12
  refine (scaled3 _ _ _ i).trans ?_
  unfold unitRow
  rw [hrow]
  refine congrArg (fun t => Ideal.div _ (max (Ideal.sqrt t) eps)) (Finset.sum_congr rfl fun k _ => ?_)
  rw [hrow]

end Cert.NormPieces

end
-- ==== Proof.OutBlock.lean ====
/-
  What one grid point leaves in its two output blocks, entry by entry.

  Point t works on batch rows 4t … 4t + 3. Its code block [4, 126, 1024] is stored as three pieces — positions 0 … 123
  (the maximum of the three rectified branches), position 124 (of two) and position 125 (one) — each row divided by its
  Euclidean length clamped below by ε; its sentence block [4, 1, 1024] as one piece. Every piece's entry is the
  specification's scaled row at the batch row 4t + p, so the block is one function of the block index: the pieces'
  rectangles only shift the position coordinate by 124 or 125.
-/
import proofs.«158635_j84035330113648_1_alg».proof.Proof.Gen.KernelIdeal.Frame
import proofs.«158635_j84035330113648_1_alg».proof.Proof.Spec
import proofs.«158635_j84035330113648_1_alg».proof.Proof.InBlocks
import proofs.«158635_j84035330113648_1_alg».proof.Proof.ConvBlocks
import proofs.«158635_j84035330113648_1_alg».proof.Proof.NormPieces
import Idealize.ShloMosaic.Lib.Pipeline.Value
import Idealize.ShloMosaic.Lib.StableHlo.Run
import Idealize.ShloMosaic.Lib.Tactic

set_option maxRecDepth 16384

noncomputable section

namespace Cert.OutBlock

open Cert.KernelIdeal Cert.KernelIdeal.Gen Cert.Spec Idealize.ShloMosaic Idealize.ShloMosaic.TcCoe Idealize.SL.Sem
open Idealize.ShloMosaic.Pipeline (Dat)

variable (m : (ℓ : Loc nD τ sig) → Buf (Elt Ideal) ℓ)

open Cert.InBlocks

theorem hz3 : (![0, 0, 0] : Fin 3 → Nat) = fun _ => 0 := funext fun a => by fin_cases a <;> rfl
theorem hz2 : (![0, 0] : Fin 2 → Nat) = fun _ => 0 := funext fun a => by fin_cases a <;> rfl

/-- Slab k of a transposed width-2 weight [k, d, f], read at (0, d, f), is W[f, k, d]. -/
theorem slab2 (x : Vec Ideal S2x768x1024 .bf16) (A : Nat → Nat → Nat → EReal)
    (hx : ∀ y : S2x768x1024.Idx, x y = A (y 2).val (y 0).val (y 1).val) (k : Nat)
    (inb : ∀ a, (![k, 0, 0] : Fin 3 → Nat) a + (![1, 768, 1024] : Fin 3 → Nat) a ≤ S2x768x1024.size a) (y : S1x768x1024.Idx) :
    View.ld x (Rect.unit (s := S2x768x1024) ![k, 0, 0] ![1, 768, 1024] inb) y = A (y 2).val k (y 1).val := by
  refine (hx _).trans ?_
  have h0 : (y 0).val = 0 := by have : (y 0).val < 1 := (y 0).isLt; omega
  show A (0 + 1 * (y 2).val) (k + 1 * (y 0).val) (0 + 1 * (y 1).val) = _
  simp only [h0, Nat.zero_add, Nat.one_mul, Nat.mul_zero, Nat.add_zero]

/-- Slab k of a transposed width-3 weight [k, d, f], read at (0, d, f), is W[f, k, d]. -/
theorem slab3 (x : Vec Ideal S3x768x1024 .bf16) (A : Nat → Nat → Nat → EReal)
    (hx : ∀ y : S3x768x1024.Idx, x y = A (y 2).val (y 0).val (y 1).val) (k : Nat)
    (inb : ∀ a, (![k, 0, 0] : Fin 3 → Nat) a + (![1, 768, 1024] : Fin 3 → Nat) a ≤ S3x768x1024.size a) (y : S1x768x1024.Idx) :
    View.ld x (Rect.unit (s := S3x768x1024) ![k, 0, 0] ![1, 768, 1024] inb) y = A (y 2).val k (y 1).val := by
  refine (hx _).trans ?_
  have h0 : (y 0).val = 0 := by have : (y 0).val < 1 := (y 0).isLt; omega
  show A (0 + 1 * (y 2).val) (k + 1 * (y 0).val) (0 + 1 * (y 1).val) = _
  simp only [h0, Nat.zero_add, Nat.one_mul, Nat.mul_zero, Nat.add_zero]

/-- Slab k of a transposed width-4 weight [k, d, f], read at (0, d, f), is W[f, k, d]. -/
theorem slab4 (x : Vec Ideal S4x768x1024 .bf16) (A : Nat → Nat → Nat → EReal)
    (hx : ∀ y : S4x768x1024.Idx, x y = A (y 2).val (y 0).val (y 1).val) (k : Nat)
    (inb : ∀ a, (![k, 0, 0] : Fin 3 → Nat) a + (![1, 768, 1024] : Fin 3 → Nat) a ≤ S4x768x1024.size a) (y : S1x768x1024.Idx) :
    View.ld x (Rect.unit (s := S4x768x1024) ![k, 0, 0] ![1, 768, 1024] inb) y = A (y 2).val k (y 1).val := by
  refine (hx _).trans ?_
  have h0 : (y 0).val = 0 := by have : (y 0).val < 1 := (y 0).isLt; omega
  show A (0 + 1 * (y 2).val) (k + 1 * (y 0).val) (0 + 1 * (y 1).val) = _
  simp only [h0, Nat.zero_add, Nat.one_mul, Nat.mul_zero, Nat.add_zero]

/-- The narrowed word block, the three branches and the partial width-4 sum on the block of point t, entry by entry. -/
theorem hv1 (c : Dev nD) (t : Fin cfg0.N) (y : S4x128x768.Idx) :
    k0_pay4 (iblk m c 0 t) y = (nat3 (m ((c : Thread nD τ).loc main_arg0))) (4 * t.val + (y 0).val) (y 1).val (y 2).val :=
  Cert.ConvBlocks.xbf_block (nat3 (m ((c : Thread nD τ).loc main_arg0))) (4 * t.val) (iblk m c 0 t) (iblk0 m c t) y

theorem hv23 (c : Dev nD) (t : Fin cfg0.N) (y : S4x127x1024.Idx) :
    (k0_pay5 (iblk m c 0 t) (View.ld (iblk m c 2 t) (Rect.unit ![0, 0, 0] ![1, 768, 1024] inb_S2x768x1024_S1x768x1024_0_0_0)) (View.ld (iblk m c 2 t) (Rect.unit ![1, 0, 0] ![1, 768, 1024] inb_S2x768x1024_S1x768x1024_1_0_0)) (iblk m c 6 t)) y = conv2 (nat3 (m ((c : Thread nD τ).loc main_arg0))) (nat3 (m ((c : Thread nD τ).loc main_arg2))) (nat1 (m ((c : Thread nD τ).loc main_arg3))) (4 * t.val + (y 0).val) (y 1).val (y 2).val :=
  Cert.ConvBlocks.conv2_block (nat3 (m ((c : Thread nD τ).loc main_arg0))) (nat3 (m ((c : Thread nD τ).loc main_arg2))) (nat1 (m ((c : Thread nD τ).loc main_arg3))) (4 * t.val) (iblk m c 0 t) _ _ (iblk m c 6 t) (iblk0 m c t)
    (slab2 (iblk m c 2 t) _ (iblk2 m c t) 0 _) (slab2 (iblk m c 2 t) _ (iblk2 m c t) 1 _) (iblk6 m c t) y

theorem hv52 (c : Dev nD) (t : Fin cfg0.N) (y : S4x126x1024.Idx) :
    (k0_pay9 (k0_pay4 (iblk m c 0 t)) (k0_pay6 (iblk m c 0 t) (View.ld (iblk m c 3 t) (Rect.unit ![0, 0, 0] ![1, 768, 1024] inb_S3x768x1024_S1x768x1024_0_0_0))) (k0_pay7 (iblk m c 0 t)) (k0_pay8 (View.ld (iblk m c 3 t) (Rect.unit ![1, 0, 0] ![1, 768, 1024] inb_S3x768x1024_S1x768x1024_1_0_0))) (View.ld (iblk m c 3 t) (Rect.unit ![2, 0, 0] ![1, 768, 1024] inb_S3x768x1024_S1x768x1024_2_0_0)) (iblk m c 7 t)) y = conv3 (nat3 (m ((c : Thread nD τ).loc main_arg0))) (nat3 (m ((c : Thread nD τ).loc main_arg4))) (nat1 (m ((c : Thread nD τ).loc main_arg5))) (4 * t.val + (y 0).val) (y 1).val (y 2).val :=
  Cert.ConvBlocks.conv3_block (nat3 (m ((c : Thread nD τ).loc main_arg0))) (nat3 (m ((c : Thread nD τ).loc main_arg4))) (nat1 (m ((c : Thread nD τ).loc main_arg5))) (4 * t.val) (iblk m c 0 t) _ _ _ (iblk m c 7 t) (iblk0 m c t)
    (slab3 (iblk m c 3 t) _ (iblk3 m c t) 0 _) (slab3 (iblk m c 3 t) _ (iblk3 m c t) 1 _) (slab3 (iblk m c 3 t) _ (iblk3 m c t) 2 _) (iblk7 m c t) y

theorem hv74 (c : Dev nD) (t : Fin cfg0.N) (y : S4x125x1024.Idx) :
    (k0_pay10 (k0_pay4 (iblk m c 0 t)) (View.ld (iblk m c 4 t) (Rect.unit ![0, 0, 0] ![1, 768, 1024] inb_S4x768x1024_S1x768x1024_0_0_0)) (View.ld (iblk m c 4 t) (Rect.unit ![1, 0, 0] ![1, 768, 1024] inb_S4x768x1024_S1x768x1024_1_0_0)) (View.ld (iblk m c 4 t) (Rect.unit ![2, 0, 0] ![1, 768, 1024] inb_S4x768x1024_S1x768x1024_2_0_0))) y = (tap (nat3 (m ((c : Thread nD τ).loc main_arg0))) (nat3 (m ((c : Thread nD τ).loc main_arg6))) (4 * t.val + (y 0).val) (y 1).val (y 2).val 0 + tap (nat3 (m ((c : Thread nD τ).loc main_arg0))) (nat3 (m ((c : Thread nD τ).loc main_arg6))) (4 * t.val + (y 0).val) (y 1).val (y 2).val 1) + tap (nat3 (m ((c : Thread nD τ).loc main_arg0))) (nat3 (m ((c : Thread nD τ).loc main_arg6))) (4 * t.val + (y 0).val) (y 1).val (y 2).val 2 :=
  Cert.ConvBlocks.conv4_part_block (nat3 (m ((c : Thread nD τ).loc main_arg0))) (nat3 (m ((c : Thread nD τ).loc main_arg6))) (4 * t.val) (k0_pay4 (iblk m c 0 t)) _ _ _ (hv1 m c t)
    (slab4 (iblk m c 4 t) _ (iblk4 m c t) 0 _) (slab4 (iblk m c 4 t) _ (iblk4 m c t) 1 _) (slab4 (iblk m c 4 t) _ (iblk4 m c t) 2 _) y

/-- The code block point t leaves: entry (p, l, f) is the scaled code of batch row 4t + p at position l, feature f —
    rows 0 … 123, row 124 and row 125 are stored as three pieces, each the specification's row. -/
theorem out10 (c : Dev nD) (t : Fin cfg0.N) (y : S4x126x1024.Idx) :
    (outsAt0 m c t).1 y = unitRow (fun f => code (nat3 (m ((c : Thread nD τ).loc main_arg0))) (nat3 (m ((c : Thread nD τ).loc main_arg2))) (nat1 (m ((c : Thread nD τ).loc main_arg3))) (nat3 (m ((c : Thread nD τ).loc main_arg4))) (nat1 (m ((c : Thread nD τ).loc main_arg5))) (nat3 (m ((c : Thread nD τ).loc main_arg6))) (nat1 (m ((c : Thread nD τ).loc main_arg7))) (4 * t.val + (y 0).val) (y 1).val f) (y 2).val := by
  unfold outsAt0
  dsimp only
  unfold out0_A_10
  rw [View.read_writes_eq_canon _ _ _ (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t))]
  refine (View.canon_apply_of_pieces (fun y : S4x126x1024.Idx => unitRow (fun f => code (nat3 (m ((c : Thread nD τ).loc main_arg0))) (nat3 (m ((c : Thread nD τ).loc main_arg2))) (nat1 (m ((c : Thread nD τ).loc main_arg3))) (nat3 (m ((c : Thread nD τ).loc main_arg4))) (nat1 (m ((c : Thread nD τ).loc main_arg5))) (nat3 (m ((c : Thread nD τ).loc main_arg6))) (nat1 (m ((c : Thread nD τ).loc main_arg7))) (4 * t.val + (y 0).val) (y 1).val f) (y 2).val) _ ?_ y (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) y))
  unfold kernelRun0_A
  dsimp only
  sl_unfold_words
  simp only [View.readAt_eq_ld, (hs0_0 t).read_unread, (hs0_2 t).read_unread, (hs0_3 t).read_unread, (hs0_4 t).read_unread,
    (hs0_6 t).read_unread, (hs0_7 t).read_unread, (hs0_8 t).read_unread,
    View.ld_unit_zero (S := S4x128x768) hz3, View.ld_unit_zero (S := S1x1024) hz2]
  intro p hp
  simp only [List.mem_cons, List.mem_nil_iff, or_false] at hp
  rcases hp with rfl | rfl | rfl
  · intro x
    dsimp only
    refine (Cert.NormPieces.piece_last (nat3 (m ((c : Thread nD τ).loc main_arg0))) (nat3 (m ((c : Thread nD τ).loc main_arg2))) (nat3 (m ((c : Thread nD τ).loc main_arg4))) (nat3 (m ((c : Thread nD τ).loc main_arg6))) (nat1 (m ((c : Thread nD τ).loc main_arg3))) (nat1 (m ((c : Thread nD τ).loc main_arg5))) (nat1 (m ((c : Thread nD τ).loc main_arg7))) (4 * t.val) (k0_pay5 (iblk m c 0 t) (View.ld (iblk m c 2 t) (Rect.unit ![0, 0, 0] ![1, 768, 1024] inb_S2x768x1024_S1x768x1024_0_0_0)) (View.ld (iblk m c 2 t) (Rect.unit ![1, 0, 0] ![1, 768, 1024] inb_S2x768x1024_S1x768x1024_1_0_0)) (iblk m c 6 t)) (hv23 m c t) x).trans ?_
    have h1 : (x 1).val = 0 := by have : (x 1).val < 1 := (x 1).isLt; omega
    show _ = unitRow (fun f => code (nat3 (m ((c : Thread nD τ).loc main_arg0))) (nat3 (m ((c : Thread nD τ).loc main_arg2))) (nat1 (m ((c : Thread nD τ).loc main_arg3))) (nat3 (m ((c : Thread nD τ).loc main_arg4))) (nat1 (m ((c : Thread nD τ).loc main_arg5))) (nat3 (m ((c : Thread nD τ).loc main_arg6))) (nat1 (m ((c : Thread nD τ).loc main_arg7))) (4 * t.val + (0 + 1 * (x 0).val)) (125 + 1 * (x 1).val) f) (0 + 1 * (x 2).val)
    simp only [h1, Nat.zero_add, Nat.one_mul, Nat.mul_zero, Nat.add_zero]
  · intro x
    dsimp only
    refine (Cert.NormPieces.piece_pen (nat3 (m ((c : Thread nD τ).loc main_arg0))) (nat3 (m ((c : Thread nD τ).loc main_arg2))) (nat3 (m ((c : Thread nD τ).loc main_arg4))) (nat3 (m ((c : Thread nD τ).loc main_arg6))) (nat1 (m ((c : Thread nD τ).loc main_arg3))) (nat1 (m ((c : Thread nD τ).loc main_arg5))) (nat1 (m ((c : Thread nD τ).loc main_arg7))) (4 * t.val) (k0_pay5 (iblk m c 0 t) (View.ld (iblk m c 2 t) (Rect.unit ![0, 0, 0] ![1, 768, 1024] inb_S2x768x1024_S1x768x1024_0_0_0)) (View.ld (iblk m c 2 t) (Rect.unit ![1, 0, 0] ![1, 768, 1024] inb_S2x768x1024_S1x768x1024_1_0_0)) (iblk m c 6 t)) (k0_pay9 (k0_pay4 (iblk m c 0 t)) (k0_pay6 (iblk m c 0 t) (View.ld (iblk m c 3 t) (Rect.unit ![0, 0, 0] ![1, 768, 1024] inb_S3x768x1024_S1x768x1024_0_0_0))) (k0_pay7 (iblk m c 0 t)) (k0_pay8 (View.ld (iblk m c 3 t) (Rect.unit ![1, 0, 0] ![1, 768, 1024] inb_S3x768x1024_S1x768x1024_1_0_0))) (View.ld (iblk m c 3 t) (Rect.unit ![2, 0, 0] ![1, 768, 1024] inb_S3x768x1024_S1x768x1024_2_0_0)) (iblk m c 7 t)) (hv23 m c t) (hv52 m c t) x).trans ?_
    have h1 : (x 1).val = 0 := by have : (x 1).val < 1 := (x 1).isLt; omega
    show _ = unitRow (fun f => code (nat3 (m ((c : Thread nD τ).loc main_arg0))) (nat3 (m ((c : Thread nD τ).loc main_arg2))) (nat1 (m ((c : Thread nD τ).loc main_arg3))) (nat3 (m ((c : Thread nD τ).loc main_arg4))) (nat1 (m ((c : Thread nD τ).loc main_arg5))) (nat3 (m ((c : Thread nD τ).loc main_arg6))) (nat1 (m ((c : Thread nD τ).loc main_arg7))) (4 * t.val + (0 + 1 * (x 0).val)) (124 + 1 * (x 1).val) f) (0 + 1 * (x 2).val)
    simp only [h1, Nat.zero_add, Nat.one_mul, Nat.mul_zero, Nat.add_zero]
  · intro x
    dsimp only
    refine (Cert.NormPieces.piece_main (nat3 (m ((c : Thread nD τ).loc main_arg0))) (nat3 (m ((c : Thread nD τ).loc main_arg2))) (nat3 (m ((c : Thread nD τ).loc main_arg4))) (nat3 (m ((c : Thread nD τ).loc main_arg6))) (nat1 (m ((c : Thread nD τ).loc main_arg3))) (nat1 (m ((c : Thread nD τ).loc main_arg5))) (nat1 (m ((c : Thread nD τ).loc main_arg7))) (4 * t.val) (k0_pay4 (iblk m c 0 t)) (k0_pay5 (iblk m c 0 t) (View.ld (iblk m c 2 t) (Rect.unit ![0, 0, 0] ![1, 768, 1024] inb_S2x768x1024_S1x768x1024_0_0_0)) (View.ld (iblk m c 2 t) (Rect.unit ![1, 0, 0] ![1, 768, 1024] inb_S2x768x1024_S1x768x1024_1_0_0)) (iblk m c 6 t)) (k0_pay9 (k0_pay4 (iblk m c 0 t)) (k0_pay6 (iblk m c 0 t) (View.ld (iblk m c 3 t) (Rect.unit ![0, 0, 0] ![1, 768, 1024] inb_S3x768x1024_S1x768x1024_0_0_0))) (k0_pay7 (iblk m c 0 t)) (k0_pay8 (View.ld (iblk m c 3 t) (Rect.unit ![1, 0, 0] ![1, 768, 1024] inb_S3x768x1024_S1x768x1024_1_0_0))) (View.ld (iblk m c 3 t) (Rect.unit ![2, 0, 0] ![1, 768, 1024] inb_S3x768x1024_S1x768x1024_2_0_0)) (iblk m c 7 t)) (k0_pay10 (k0_pay4 (iblk m c 0 t)) (View.ld (iblk m c 4 t) (Rect.unit ![0, 0, 0] ![1, 768, 1024] inb_S4x768x1024_S1x768x1024_0_0_0)) (View.ld (iblk m c 4 t) (Rect.unit ![1, 0, 0] ![1, 768, 1024] inb_S4x768x1024_S1x768x1024_1_0_0)) (View.ld (iblk m c 4 t) (Rect.unit ![2, 0, 0] ![1, 768, 1024] inb_S4x768x1024_S1x768x1024_2_0_0))) (View.ld (iblk m c 4 t) (Rect.unit ![3, 0, 0] ![1, 768, 1024] inb_S4x768x1024_S1x768x1024_3_0_0)) (iblk m c 8 t)
      (hv23 m c t) (hv52 m c t) (hv74 m c t)
      (Cert.ConvBlocks.tap3_block (nat3 (m ((c : Thread nD τ).loc main_arg0))) (nat3 (m ((c : Thread nD τ).loc main_arg6))) (4 * t.val) (k0_pay4 (iblk m c 0 t)) _ (hv1 m c t) (slab4 (iblk m c 4 t) _ (iblk4 m c t) 3 _))
      (iblk8 m c t) x).trans ?_
    show _ = unitRow (fun f => code (nat3 (m ((c : Thread nD τ).loc main_arg0))) (nat3 (m ((c : Thread nD τ).loc main_arg2))) (nat1 (m ((c : Thread nD τ).loc main_arg3))) (nat3 (m ((c : Thread nD τ).loc main_arg4))) (nat1 (m ((c : Thread nD τ).loc main_arg5))) (nat3 (m ((c : Thread nD τ).loc main_arg6))) (nat1 (m ((c : Thread nD τ).loc main_arg7))) (4 * t.val + (0 + 1 * (x 0).val)) (0 + 1 * (x 1).val) f) (0 + 1 * (x 2).val)
    simp only [Nat.zero_add, Nat.one_mul]

/-- The sentence block point t leaves: entry (p, 0, f) is the scaled affine image of sentence 4t + p, feature f. -/
theorem out11 (c : Dev nD) (t : Fin cfg0.N) (y : S4x1x1024.Idx) :
    (outsAt0 m c t).2 y = unitRow (fun f => lin (nat2 (m ((c : Thread nD τ).loc main_arg1))) (nat2 (m ((c : Thread nD τ).loc main_arg8))) (nat1 (m ((c : Thread nD τ).loc main_arg9))) (4 * t.val + (y 0).val) f) (y 2).val := by
  unfold outsAt0
  dsimp only
  unfold out0_A_11
  rw [View.read_writes_eq_canon _ _ _ (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t))]
  refine (View.canon_apply_of_pieces (fun y : S4x1x1024.Idx => unitRow (fun f => lin (nat2 (m ((c : Thread nD τ).loc main_arg1))) (nat2 (m ((c : Thread nD τ).loc main_arg8))) (nat1 (m ((c : Thread nD τ).loc main_arg9))) (4 * t.val + (y 0).val) f) (y 2).val) _ ?_ y (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) y))
  unfold kernelRun0_A
  dsimp only
  sl_unfold_words
  simp only [View.readAt_eq_ld, (hs0_1 t).read_unread, (hs0_5 t).read_unread, (hs0_9 t).read_unread,
    View.ld_unit_zero (S := S4x1x768) hz3, View.ld_unit_zero (S := S768x1024) hz2, View.ld_unit_zero (S := S1x1024) hz2]
  intro p hp
  obtain rfl := List.mem_singleton.mp hp
  intro x
  dsimp only
  refine (Cert.NormPieces.piece_sent (nat2 (m ((c : Thread nD τ).loc main_arg1))) (nat2 (m ((c : Thread nD τ).loc main_arg8))) (nat1 (m ((c : Thread nD τ).loc main_arg9))) (4 * t.val)
    (iblk m c 1 t) (iblk m c 5 t) (iblk m c 9 t) (iblk1 m c t) (iblk5 m c t) (iblk9 m c t) x).trans ?_
  show _ = unitRow (fun f => lin (nat2 (m ((c : Thread nD τ).loc main_arg1))) (nat2 (m ((c : Thread nD τ).loc main_arg8))) (nat1 (m ((c : Thread nD τ).loc main_arg9))) (4 * t.val + (0 + 1 * (x 0).val)) f) (0 + 1 * (x 2).val)
  simp only [Nat.zero_add, Nat.one_mul]

end Cert.OutBlock

end
-- ==== Proof.Arrays.lean ====
/-
  From blocks to arrays. Point t writes batch rows 4t … 4t + 3 of both results, and every block it writes is the
  restriction of ONE function of the array index (the scaled code, the scaled sentence image); batch row b lies in the
  block of point b / 4, so the 32 blocks cover each array, which therefore ends holding that function.
-/
import proofs.«158635_j84035330113648_1_alg».proof.Proof.Gen.KernelIdeal.Frame
import proofs.«158635_j84035330113648_1_alg».proof.Proof.Spec
import proofs.«158635_j84035330113648_1_alg».proof.Proof.OutBlock
import Idealize.ShloMosaic.Lib.Pipeline.Value
import Idealize.ShloMosaic.Lib.StableHlo.Run
import Idealize.ShloMosaic.Lib.Tactic

set_option maxRecDepth 16384

noncomputable section

namespace Cert.Arrays

open Cert.KernelIdeal Cert.KernelIdeal.Gen Cert.Spec Idealize.ShloMosaic Idealize.ShloMosaic.TcCoe Idealize.SL.Sem
open Idealize.ShloMosaic.Pipeline (Dat)

variable (m : (ℓ : Loc nD τ sig) → Buf (Elt Ideal) ℓ)

open Cert.InBlocks Cert.OutBlock

/-- The scaled code as the kernel's region leaves it, position-major [b, l, f]. -/
def codeArr (c : Dev nD) : S128x126x1024.Idx → EReal := fun j =>
  unitRow (fun f => code (nat3 (m ((c : Thread nD τ).loc main_arg0))) (nat3 (m ((c : Thread nD τ).loc main_arg2))) (nat1 (m ((c : Thread nD τ).loc main_arg3))) (nat3 (m ((c : Thread nD τ).loc main_arg4))) (nat1 (m ((c : Thread nD τ).loc main_arg5))) (nat3 (m ((c : Thread nD τ).loc main_arg6))) (nat1 (m ((c : Thread nD τ).loc main_arg7))) (j 0).val (j 1).val f) (j 2).val

/-- The scaled sentence image as the region leaves it, [b, 1, f]. -/
def sentArr (c : Dev nD) : S128x1x1024.Idx → EReal := fun j =>
  unitRow (fun f => lin (nat2 (m ((c : Thread nD τ).loc main_arg1))) (nat2 (m ((c : Thread nD τ).loc main_arg8))) (nat1 (m ((c : Thread nD τ).loc main_arg9))) (j 0).val f) (j 2).val

/-- What point t writes back to the code array is block t of `codeArr`: batch rows 4t … 4t + 3. -/
theorem flushed10 (c : Dev nD) (t : Fin cfg0.N) :
    (dats m 0 c).flushed 10 t = ((cfg0.win 10).blk t).view.read (Elt Ideal) (codeArr m c) := by
  show (cfg0.win 10).cut (grid0.coords t) ((dats m 0 c).after 10 t) = _
  rw [after0_10]
  funext y
  show (outsAt0 m c t).1 y = codeArr m c (((cfg0.win 10).blk t).view.emb y)
  have e0 : (((cfg0.win 10).blk t).view.emb y 0).val = 4 * t.val + (y 0).val := by
    show win0_10.index t 0 * 4 + 1 * (y 0).val = _
    rw [(idx_batch t).2.2.1.1]; omega
  have e1 : (((cfg0.win 10).blk t).view.emb y 1).val = (y 1).val := by
    show win0_10.index t 1 * 126 + 1 * (y 1).val = _
    rw [(idx_batch t).2.2.1.2.1]; omega
  have e2 : (((cfg0.win 10).blk t).view.emb y 2).val = (y 2).val := by
    show win0_10.index t 2 * 1024 + 1 * (y 2).val = _
    rw [(idx_batch t).2.2.1.2.2]; omega
  refine (out10 m c t y).trans ?_
  unfold codeArr
  simp only [e0, e1, e2]

/-- What point t writes back to the sentence array is block t of `sentArr`. -/
theorem flushed11 (c : Dev nD) (t : Fin cfg0.N) :
    (dats m 0 c).flushed 11 t = ((cfg0.win 11).blk t).view.read (Elt Ideal) (sentArr m c) := by
  show (cfg0.win 11).cut (grid0.coords t) ((dats m 0 c).after 11 t) = _
  rw [after0_11]
  funext y
  show (outsAt0 m c t).2 y = sentArr m c (((cfg0.win 11).blk t).view.emb y)
  have e0 : (((cfg0.win 11).blk t).view.emb y 0).val = 4 * t.val + (y 0).val := by
    show win0_11.index t 0 * 4 + 1 * (y 0).val = _
    rw [(idx_batch t).2.2.2.1]; omega
  have e2 : (((cfg0.win 11).blk t).view.emb y 2).val = (y 2).val := by
    show win0_11.index t 2 * 1024 + 1 * (y 2).val = _
    rw [(idx_batch t).2.2.2.2.2]; omega
  refine (out11 m c t y).trans ?_
  unfold sentArr
  simp only [e0, e2]

/-- An index of the code array is in point t's block iff each coordinate is in the block's range. -/
theorem mem_blk10 (t : Fin cfg0.N) (i : S128x126x1024.Idx) :
    i ∈ ((cfg0.win 10).blk t).view.set ↔ ∀ a : Fin 3, win0_10.index t a * S4x126x1024.size a ≤ (i a).val ∧ (i a).val < win0_10.index t a * S4x126x1024.size a + S4x126x1024.size a := by
  show i ∈ ((View.whole main_v13_0).slice (win0_10.rect t)).set ↔ _
  rw [View.set_slice_whole, Rect.mem_set_unit]
  exact Iff.rfl

theorem mem_blk11 (t : Fin cfg0.N) (i : S128x1x1024.Idx) :
    i ∈ ((cfg0.win 11).blk t).view.set ↔ ∀ a : Fin 3, win0_11.index t a * S4x1x1024.size a ≤ (i a).val ∧ (i a).val < win0_11.index t a * S4x1x1024.size a + S4x1x1024.size a := by
  show i ∈ ((View.whole main_v13_1).slice (win0_11.rect t)).set ↔ _
  rw [View.set_slice_whole, Rect.mem_set_unit]
  exact Iff.rfl

/-- Batch row b lies in the block of point b / 4, so the 32 blocks cover the code array: it ends at `codeArr`. -/
theorem final10 (c : Dev nD) : (dats m 0 c).arrAt 10 cfg0.N = codeArr m c :=
  (dats m 0 c).arrAt_eq_of_cover 10 (codeArr m c) (fun t _ => flushed10 m c t) fun i => by
    have h0 : (i 0).val < 128 := (i 0).isLt
    have h1 : (i 1).val < 126 := (i 1).isLt
    have h2 : (i 2).val < 1024 := (i 2).isLt
    refine ⟨⟨(i 0).val / 4, by show (i 0).val / 4 < grid0.N; rw [N_0]; omega⟩, flush0_10 _, ?_⟩
    rw [mem_blk10]
    intro a
    match a with
    | ⟨0, _⟩ =>
      show win0_10.index _ 0 * 4 ≤ (i 0).val ∧ (i 0).val < win0_10.index _ 0 * 4 + 4
      rw [(idx_batch _).2.2.1.1]; show (i 0).val / 4 * 4 ≤ (i 0).val ∧ (i 0).val < (i 0).val / 4 * 4 + 4; omega
    | ⟨1, _⟩ =>
      show win0_10.index _ 1 * 126 ≤ (i 1).val ∧ (i 1).val < win0_10.index _ 1 * 126 + 126
      rw [(idx_batch _).2.2.1.2.1]; omega
    | ⟨2, _⟩ =>
      show win0_10.index _ 2 * 1024 ≤ (i 2).val ∧ (i 2).val < win0_10.index _ 2 * 1024 + 1024
      rw [(idx_batch _).2.2.1.2.2]; omega

/-- Likewise the sentence array ends at `sentArr`. -/
theorem final11 (c : Dev nD) : (dats m 0 c).arrAt 11 cfg0.N = sentArr m c :=
  (dats m 0 c).arrAt_eq_of_cover 11 (sentArr m c) (fun t _ => flushed11 m c t) fun i => by
    have h0 : (i 0).val < 128 := (i 0).isLt
    have h1 : (i 1).val < 1 := (i 1).isLt
    have h2 : (i 2).val < 1024 := (i 2).isLt
    refine ⟨⟨(i 0).val / 4, by show (i 0).val / 4 < grid0.N; rw [N_0]; omega⟩, flush0_11 _, ?_⟩
    rw [mem_blk11]
    intro a
    match a with
    | ⟨0, _⟩ =>
      show win0_11.index _ 0 * 4 ≤ (i 0).val ∧ (i 0).val < win0_11.index _ 0 * 4 + 4
      rw [(idx_batch _).2.2.2.1]; show (i 0).val / 4 * 4 ≤ (i 0).val ∧ (i 0).val < (i 0).val / 4 * 4 + 4; omega
    | ⟨1, _⟩ =>
      show win0_11.index _ 1 * 1 ≤ (i 1).val ∧ (i 1).val < win0_11.index _ 1 * 1 + 1
      rw [(idx_batch _).2.2.2.2.1]; omega
    | ⟨2, _⟩ =>
      show win0_11.index _ 2 * 1024 ≤ (i 2).val ∧ (i 2).val < win0_11.index _ 2 * 1024 + 1024
      rw [(idx_batch _).2.2.2.2.2]; omega

end Cert.Arrays

end
-- ==== Proof.KernelRun.lean ====
/-
  The idealized kernel's results. After the region the host transposes the code array [b, l, f] to [b, f, l] and drops the
  sentence array's unit axis; read through those two layout operations the arrays the region leaves are the
  specification's `words` and `sent` of the program's arguments.
-/
import proofs.«158635_j84035330113648_1_alg».proof.Proof.Gen.KernelIdeal.Frame
import proofs.«158635_j84035330113648_1_alg».proof.Proof.Spec
import proofs.«158635_j84035330113648_1_alg».proof.Proof.Arrays
import Idealize.ShloMosaic.Lib.Pipeline.Value
import Idealize.ShloMosaic.Lib.StableHlo.Run
import Idealize.ShloMosaic.Lib.Tactic

set_option maxRecDepth 16384

noncomputable section

namespace Cert.KernelRun

open Cert.KernelIdeal Cert.KernelIdeal.Gen Cert.Spec Idealize.ShloMosaic Idealize.ShloMosaic.TcCoe Idealize.SL.Sem
open Idealize.ShloMosaic.Pipeline (Dat)

variable (m : (ℓ : Loc nD τ sig) → Buf (Elt Ideal) ℓ)

open Cert.InBlocks Cert.OutBlock Cert.Arrays

/-- After the region the host transposes the code array to feature-major [b, f, l]: the word-level result. -/
theorem tail15 (c : Dev nD) : Pipeline.afterTail₀ cfgs (dats m) 0 (V0 m) [hostOps1] c main_v15 = Spec.words (nat3 (m ((c : Thread nD τ).loc main_arg0))) (nat3 (m ((c : Thread nD τ).loc main_arg2))) (nat1 (m ((c : Thread nD τ).loc main_arg3))) (nat3 (m ((c : Thread nD τ).loc main_arg4))) (nat1 (m ((c : Thread nD τ).loc main_arg5))) (nat3 (m ((c : Thread nD τ).loc main_arg6))) (nat1 (m ((c : Thread nD τ).loc main_arg7))) := by
  unfold Pipeline.afterTail₀
  show StableHlo.after hostOps1 _ (Proc.devRef .tc main_v15) = _
  after_results
  have hA : Pipeline.withArrays (cfgs 0).spec c (V0 m c) (fun w => (dats m 0 c).arrAt w (cfgs 0).N) (Proc.devRef .tc main_v13_0) = codeArr m c :=
    (Pipeline.withArrays_arr spec0 launch0.win.arr_inj c _ _ 10).trans (final10 m c)
  rw [hA]
  funext j
  refine (transpose_apply [0, 2, 1] _ transposes_S128x126x1024_S128x1024x126_0_2_1 j (ValueIdx.ix3 (j 0) (j 2) (j 1)) (fun b => match b with
    | ⟨0, _⟩ => rfl
    | ⟨1, _⟩ => rfl
    | ⟨2, _⟩ => rfl)).trans ?_
  rfl

/-- and drops the sentence array's unit axis: the sentence-level result. -/
theorem tail14 (c : Dev nD) : Pipeline.afterTail₀ cfgs (dats m) 0 (V0 m) [hostOps1] c main_v14 = Spec.sent (nat2 (m ((c : Thread nD τ).loc main_arg1))) (nat2 (m ((c : Thread nD τ).loc main_arg8))) (nat1 (m ((c : Thread nD τ).loc main_arg9))) := by
  unfold Pipeline.afterTail₀
  show StableHlo.after hostOps1 _ (Proc.devRef .tc main_v14) = _
  after_results
  have hA : Pipeline.withArrays (cfgs 0).spec c (V0 m c) (fun w => (dats m 0 c).arrAt w (cfgs 0).N) (Proc.devRef .tc main_v13_1) = sentArr m c :=
    (Pipeline.withArrays_arr spec0 launch0.win.arr_inj c _ _ 11).trans (final11 m c)
  show shapeCast S128x1024 (Pipeline.withArrays (cfgs 0).spec c (V0 m c) (fun w => (dats m 0 c).arrAt w (cfgs 0).N) (Proc.devRef .tc main_v13_1)) shapeCasts_S128x1x1024_S128x1024 = _
  rw [hA]
  funext j
  refine (shapeCast_apply _ shapeCasts_S128x1x1024_S128x1024 j (ValueIdx.ix3 (j 0) ⟨0, Nat.one_pos⟩ (j 1)) (by
    rw [Shape.rowMajor_val_three, Shape.rowMajor_val_two]
    show ((j 0).val * 1 + 0) * 1024 + (j 1).val = (j 0).val * 1024 + (j 1).val
    omega)).trans ?_
  rfl

/-- The idealized kernel's run: every weakly fair execution ends with the two results at the specification's functions of
    the arguments, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v15) = Spec.words (nat3 (m ((c : Thread nD τ).loc main_arg0))) (nat3 (m ((c : Thread nD τ).loc main_arg2))) (nat1 (m ((c : Thread nD τ).loc main_arg3))) (nat3 (m ((c : Thread nD τ).loc main_arg4))) (nat1 (m ((c : Thread nD τ).loc main_arg5))) (nat3 (m ((c : Thread nD τ).loc main_arg6))) (nat1 (m ((c : Thread nD τ).loc main_arg7)))
      ∧ r.2.mem ((c.tc : Thread nD τ).loc main_v14) = Spec.sent (nat2 (m ((c : Thread nD τ).loc main_arg1))) (nat2 (m ((c : Thread nD τ).loc main_arg8))) (nat1 (m ((c : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v15 (Pipeline.mem_restRefs_of main_v15 (by decide) (by decide))).trans (tail15 m c),
      ((h c).2 main_v14 (Pipeline.mem_restRefs_of main_v14 (by decide) (by decide))).trans (tail14 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelRun

end
-- ==== Proof.RefConv.lean ====
/-
  The reference's three convolution branches and its sentence head, read at an index, are the specification's.

  Each tap of a branch is a contraction over the 768 features of a window of the word array (rows shifted by the
  tap's number) with one row-slab of the weights; read at an index it is the specification's `tap`. A branch adds
  its taps left to right onto a zero word, adds the bias and takes the maximum with a zero word.
-/
import proofs.«158635_j84035330113648_1_alg».proof.Proof.Gen.ReferenceIdeal.Read
import proofs.«158635_j84035330113648_1_alg».proof.Proof.Spec
import Idealize.ShloMosaic.Lib.ValueIdx
import Idealize.ShloMosaic.PureOps.Ideal.Laws

noncomputable section

namespace Cert.RefConv

open Cert.ReferenceIdeal Cert.ReferenceIdeal.Read Cert.Spec Idealize.ShloMosaic Idealize.ShloMosaic.TcCoe Idealize.SL.Sem

/-! ## The taps

  The left operand of a tap is the window of the word array whose rows start at the tap's number; the right operand
  is the tap's slab of the weights with its unit axis dropped, so that its flat position `f * 768 + d` splits back
  into the filter `f` and the feature `d`. -/

/-- Tap 0 of the width-2 branch. -/
theorem tap2_0 (x0 : (⟨S128x128x768, .f32⟩ : BufTy).Contents (Elt Ideal)) (x2 : (⟨S1024x2x768, .f32⟩ : BufTy).Contents (Elt Ideal)) (i : S128x127x1024.Idx) :
    val_main_v16 (F := Ideal) x0 x2 i = tap (nat3 x0) (nat3 x2) (i 0).val (i 1).val (i 2).val 0 := by
  rw [val_main_v16_apply]
  unfold tap
  refine Finset.sum_congr rfl fun k _ => ?_
  rw [val_main_v13_apply, val_main_v15_apply, val_main_v14_apply]
  have h2 : (i 2).val < 1024 := (i 2).isLt
  have hk : k.val < 768 := k.isLt
  refine congrArg₂ (· * ·) (nat3_of x0 _ _ _ _ rfl rfl rfl) (nat3_of x2 _ _ _ _ ?_ rfl ?_)
  · show ((i 2).val * 768 + k.val) / 768 = (i 2).val
    omega
  · show ((i 2).val * 768 + k.val) % 768 = k.val
    omega

/-- Tap 1 of the width-2 branch. -/
theorem tap2_1 (x0 : (⟨S128x128x768, .f32⟩ : BufTy).Contents (Elt Ideal)) (x2 : (⟨S1024x2x768, .f32⟩ : BufTy).Contents (Elt Ideal)) (i : S128x127x1024.Idx) :
    val_main_v22 (F := Ideal) x0 x2 i = tap (nat3 x0) (nat3 x2) (i 0).val (i 1).val (i 2).val 1 := by
  rw [val_main_v22_apply]
  unfold tap
  refine Finset.sum_congr rfl fun k _ => ?_
  rw [val_main_v19_apply, val_main_v21_apply, val_main_v20_apply]
  have h2 : (i 2).val < 1024 := (i 2).isLt
  have hk : k.val < 768 := k.isLt
  refine congrArg₂ (· * ·) (nat3_of x0 _ _ _ _ rfl (Nat.add_comm 1 (i 1).val) rfl) (nat3_of x2 _ _ _ _ ?_ rfl ?_)
  · show ((i 2).val * 768 + k.val) / 768 = (i 2).val
    omega
  · show ((i 2).val * 768 + k.val) % 768 = k.val
    omega

/-- Tap 0 of the width-3 branch. -/
theorem tap3_0 (x0 : (⟨S128x128x768, .f32⟩ : BufTy).Contents (Elt Ideal)) (x4 : (⟨S1024x3x768, .f32⟩ : BufTy).Contents (Elt Ideal)) (i : S128x126x1024.Idx) :
    val_main_v31 (F := Ideal) x0 x4 i = tap (nat3 x0) (nat3 x4) (i 0).val (i 1).val (i 2).val 0 := by
  rw [val_main_v31_apply]
  unfold tap
  refine Finset.sum_congr rfl fun k _ => ?_
  rw [val_main_v28_apply, val_main_v30_apply, val_main_v29_apply]
  have h2 : (i 2).val < 1024 := (i 2).isLt
  have hk : k.val < 768 := k.isLt
  refine congrArg₂ (· * ·) (nat3_of x0 _ _ _ _ rfl rfl rfl) (nat3_of x4 _ _ _ _ ?_ rfl ?_)
  · show ((i 2).val * 768 + k.val) / 768 = (i 2).val
    omega
  · show ((i 2).val * 768 + k.val) % 768 = k.val
    omega

/-- Tap 1 of the width-3 branch. -/
theorem tap3_1 (x0 : (⟨S128x128x768, .f32⟩ : BufTy).Contents (Elt Ideal)) (x4 : (⟨S1024x3x768, .f32⟩ : BufTy).Contents (Elt Ideal)) (i : S128x126x1024.Idx) :
    val_main_v37 (F := Ideal) x0 x4 i = tap (nat3 x0) (nat3 x4) (i 0).val (i 1).val (i 2).val 1 := by
  rw [val_main_v37_apply]
  unfold tap
  refine Finset.sum_congr rfl fun k _ => ?_
  rw [val_main_v34_apply, val_main_v36_apply, val_main_v35_apply]
  have h2 : (i 2).val < 1024 := (i 2).isLt
  have hk : k.val < 768 := k.isLt
  refine congrArg₂ (· * ·) (nat3_of x0 _ _ _ _ rfl (Nat.add_comm 1 (i 1).val) rfl) (nat3_of x4 _ _ _ _ ?_ rfl ?_)
  · show ((i 2).val * 768 + k.val) / 768 = (i 2).val
    omega
  · show ((i 2).val * 768 + k.val) % 768 = k.val
    omega

/-- Tap 2 of the width-3 branch. -/
theorem tap3_2 (x0 : (⟨S128x128x768, .f32⟩ : BufTy).Contents (Elt Ideal)) (x4 : (⟨S1024x3x768, .f32⟩ : BufTy).Contents (Elt Ideal)) (i : S128x126x1024.Idx) :
    val_main_v42 (F := Ideal) x0 x4 i = tap (nat3 x0) (nat3 x4) (i 0).val (i 1).val (i 2).val 2 := by
  rw [val_main_v42_apply]
  unfold tap
  refine Finset.sum_congr rfl fun k _ => ?_
  rw [val_main_v39_apply, val_main_v41_apply, val_main_v40_apply]
  have h2 : (i 2).val < 1024 := (i 2).isLt
  have hk : k.val < 768 := k.isLt
  refine congrArg₂ (· * ·) (nat3_of x0 _ _ _ _ rfl (Nat.add_comm 2 (i 1).val) rfl) (nat3_of x4 _ _ _ _ ?_ rfl ?_)
  · show ((i 2).val * 768 + k.val) / 768 = (i 2).val
    omega
  · show ((i 2).val * 768 + k.val) % 768 = k.val
    omega

/-- Tap 0 of the width-4 branch. -/
theorem tap4_0 (x0 : (⟨S128x128x768, .f32⟩ : BufTy).Contents (Elt Ideal)) (x6 : (⟨S1024x4x768, .f32⟩ : BufTy).Contents (Elt Ideal)) (i : S128x125x1024.Idx) :
    val_main_v51 (F := Ideal) x0 x6 i = tap (nat3 x0) (nat3 x6) (i 0).val (i 1).val (i 2).val 0 := by
  rw [val_main_v51_apply]
  unfold tap
  refine Finset.sum_congr rfl fun k _ => ?_
  rw [val_main_v48_apply, val_main_v50_apply, val_main_v49_apply]
  have h2 : (i 2).val < 1024 := (i 2).isLt
  have hk : k.val < 768 := k.isLt
  refine congrArg₂ (· * ·) (nat3_of x0 _ _ _ _ rfl rfl rfl) (nat3_of x6 _ _ _ _ ?_ rfl ?_)
  · show ((i 2).val * 768 + k.val) / 768 = (i 2).val
    omega
  · show ((i 2).val * 768 + k.val) % 768 = k.val
    omega

/-- Tap 1 of the width-4 branch. -/
theorem tap4_1 (x0 : (⟨S128x128x768, .f32⟩ : BufTy).Contents (Elt Ideal)) (x6 : (⟨S1024x4x768, .f32⟩ : BufTy).Contents (Elt Ideal)) (i : S128x125x1024.Idx) :
    val_main_v57 (F := Ideal) x0 x6 i = tap (nat3 x0) (nat3 x6) (i 0).val (i 1).val (i 2).val 1 := by
  rw [val_main_v57_apply]
  unfold tap
  refine Finset.sum_congr rfl fun k _ => ?_
  rw [val_main_v54_apply, val_main_v56_apply, val_main_v55_apply]
  have h2 : (i 2).val < 1024 := (i 2).isLt
  have hk : k.val < 768 := k.isLt
  refine congrArg₂ (· * ·) (nat3_of x0 _ _ _ _ rfl (Nat.add_comm 1 (i 1).val) rfl) (nat3_of x6 _ _ _ _ ?_ rfl ?_)
  · show ((i 2).val * 768 + k.val) / 768 = (i 2).val
    omega
  · show ((i 2).val * 768 + k.val) % 768 = k.val
    omega

/-- Tap 2 of the width-4 branch. -/
theorem tap4_2 (x0 : (⟨S128x128x768, .f32⟩ : BufTy).Contents (Elt Ideal)) (x6 : (⟨S1024x4x768, .f32⟩ : BufTy).Contents (Elt Ideal)) (i : S128x125x1024.Idx) :
    val_main_v62 (F := Ideal) x0 x6 i = tap (nat3 x0) (nat3 x6) (i 0).val (i 1).val (i 2).val 2 := by
  rw [val_main_v62_apply]
  unfold tap
  refine Finset.sum_congr rfl fun k _ => ?_
  rw [val_main_v59_apply, val_main_v61_apply, val_main_v60_apply]
  have h2 : (i 2).val < 1024 := (i 2).isLt
  have hk : k.val < 768 := k.isLt
  refine congrArg₂ (· * ·) (nat3_of x0 _ _ _ _ rfl (Nat.add_comm 2 (i 1).val) rfl) (nat3_of x6 _ _ _ _ ?_ rfl ?_)
  · show ((i 2).val * 768 + k.val) / 768 = (i 2).val
    omega
  · show ((i 2).val * 768 + k.val) % 768 = k.val
    omega

/-- Tap 3 of the width-4 branch. -/
theorem tap4_3 (x0 : (⟨S128x128x768, .f32⟩ : BufTy).Contents (Elt Ideal)) (x6 : (⟨S1024x4x768, .f32⟩ : BufTy).Contents (Elt Ideal)) (i : S128x125x1024.Idx) :
    val_main_v67 (F := Ideal) x0 x6 i = tap (nat3 x0) (nat3 x6) (i 0).val (i 1).val (i 2).val 3 := by
  rw [val_main_v67_apply]
  unfold tap
  refine Finset.sum_congr rfl fun k _ => ?_
  rw [val_main_v64_apply, val_main_v66_apply, val_main_v65_apply]
  have h2 : (i 2).val < 1024 := (i 2).isLt
  have hk : k.val < 768 := k.isLt
  refine congrArg₂ (· * ·) (nat3_of x0 _ _ _ _ rfl (Nat.add_comm 3 (i 1).val) rfl) (nat3_of x6 _ _ _ _ ?_ rfl ?_)
  · show ((i 2).val * 768 + k.val) / 768 = (i 2).val
    omega
  · show ((i 2).val * 768 + k.val) % 768 = k.val
    omega

/-! ## The biases: a rank-1 array spread along the batch and the position -/

/-- The width-2 bias at an index is the bias of the index's filter. -/
theorem bias2 (x3 : (⟨S1024, .f32⟩ : BufTy).Contents (Elt Ideal)) (i : S128x127x1024.Idx) :
    val_main_v25 (F := Ideal) x3 i = nat1 x3 (i 2).val := by
  rw [val_main_v25_apply, val_main_v24_apply]
  exact nat1_of x3 _ _ rfl

/-- The width-3 bias at an index is the bias of the index's filter. -/
theorem bias3 (x5 : (⟨S1024, .f32⟩ : BufTy).Contents (Elt Ideal)) (i : S128x126x1024.Idx) :
    val_main_v45 (F := Ideal) x5 i = nat1 x5 (i 2).val := by
  rw [val_main_v45_apply, val_main_v44_apply]
  exact nat1_of x5 _ _ rfl

/-- The width-4 bias at an index is the bias of the index's filter. -/
theorem bias4 (x7 : (⟨S1024, .f32⟩ : BufTy).Contents (Elt Ideal)) (i : S128x125x1024.Idx) :
    val_main_v70 (F := Ideal) x7 i = nat1 x7 (i 2).val := by
  rw [val_main_v70_apply, val_main_v69_apply]
  exact nat1_of x7 _ _ rfl

/-! ## The branches: the taps added left to right onto a zero word, the bias, the maximum with a zero word -/

theorem ref_conv2 (x0 : (⟨S128x128x768, .f32⟩ : BufTy).Contents (Elt Ideal)) (x2 : (⟨S1024x2x768, .f32⟩ : BufTy).Contents (Elt Ideal)) (x3 : (⟨S1024, .f32⟩ : BufTy).Contents (Elt Ideal)) (i : S128x127x1024.Idx) :
    val_main_v27 (F := Ideal) x0 x2 x3 i = conv2 (nat3 x0) (nat3 x2) (nat1 x3) (i 0).val (i 1).val (i 2).val := by
  rw [val_main_v27_apply, val_main_v26_apply, val_main_v23_apply, val_main_v18_apply, val_main_v17_apply,
    val_main_cst_1_apply, val_main_call0_v0_apply, val_main_call0_cst_apply, tap2_0, tap2_1, bias2]
  simp only [Ideal.addf_def, Ideal.maximumf_def, Ideal.ofBits_def, Ideal.ofBits_zero_f32, zero_add]
  rfl

theorem ref_conv3 (x0 : (⟨S128x128x768, .f32⟩ : BufTy).Contents (Elt Ideal)) (x4 : (⟨S1024x3x768, .f32⟩ : BufTy).Contents (Elt Ideal)) (x5 : (⟨S1024, .f32⟩ : BufTy).Contents (Elt Ideal)) (i : S128x126x1024.Idx) :
    val_main_v47 (F := Ideal) x0 x4 x5 i = conv3 (nat3 x0) (nat3 x4) (nat1 x5) (i 0).val (i 1).val (i 2).val := by
  rw [val_main_v47_apply, val_main_v46_apply, val_main_v43_apply, val_main_v38_apply, val_main_v33_apply,
    val_main_v32_apply, val_main_cst_2_apply, val_main_call1_v0_apply, val_main_call1_cst_apply, tap3_0, tap3_1,
    tap3_2, bias3]
  simp only [Ideal.addf_def, Ideal.maximumf_def, Ideal.ofBits_def, Ideal.ofBits_zero_f32, zero_add]
  rfl

theorem ref_conv4 (x0 : (⟨S128x128x768, .f32⟩ : BufTy).Contents (Elt Ideal)) (x6 : (⟨S1024x4x768, .f32⟩ : BufTy).Contents (Elt Ideal)) (x7 : (⟨S1024, .f32⟩ : BufTy).Contents (Elt Ideal)) (i : S128x125x1024.Idx) :
    val_main_v72 (F := Ideal) x0 x6 x7 i = conv4 (nat3 x0) (nat3 x6) (nat1 x7) (i 0).val (i 1).val (i 2).val := by
  rw [val_main_v72_apply, val_main_v71_apply, val_main_v68_apply, val_main_v63_apply, val_main_v58_apply,
    val_main_v53_apply, val_main_v52_apply, val_main_cst_3_apply, val_main_call2_v0_apply, val_main_call2_cst_apply,
    tap4_0, tap4_1, tap4_2, tap4_3, bias4]
  simp only [Ideal.addf_def, Ideal.maximumf_def, Ideal.ofBits_def, Ideal.ofBits_zero_f32, zero_add]
  rfl

/-! ## The sentence head: the affine image of the sentence vector, scaled to Euclidean length one -/

/-- The affine image read at an index: the contraction with the transposed weights, plus the bias spread along the
    batch. -/
theorem lin_at (x1 : (⟨S128x768, .f32⟩ : BufTy).Contents (Elt Ideal)) (x8 : (⟨S1024x768, .f32⟩ : BufTy).Contents (Elt Ideal)) (x9 : (⟨S1024, .f32⟩ : BufTy).Contents (Elt Ideal)) (i : S128x1024.Idx) :
    val_main_v4 (F := Ideal) x1 x8 x9 i = lin (nat2 x1) (nat2 x8) (nat1 x9) (i 0).val (i 1).val := by
  rw [val_main_v4_apply, val_main_v1_apply, val_main_v3_apply, val_main_v2_apply]
  simp only [Ideal.addf_def]
  unfold lin
  refine congrArg₂ (· + ·) (Finset.sum_congr rfl fun k _ => ?_) (nat1_of x9 _ _ rfl)
  rw [val_main_v0_apply]
  exact congrArg₂ (· * ·) (nat2_of x1 _ _ _ rfl rfl) (nat2_of x8 _ _ _ rfl rfl)

theorem ref_sent (x1 : (⟨S128x768, .f32⟩ : BufTy).Contents (Elt Ideal)) (x8 : (⟨S1024x768, .f32⟩ : BufTy).Contents (Elt Ideal)) (x9 : (⟨S1024, .f32⟩ : BufTy).Contents (Elt Ideal)) :
    val_main_v12 (F := Ideal) x1 x8 x9 = Spec.sent (nat2 x1) (nat2 x8) (nat1 x9) := by
  funext j
  rw [val_main_v12_apply, val_main_v11_apply, val_main_v10_apply, val_main_v9_apply, val_main_cst_0_apply,
    val_main_v8_apply, val_main_v7_apply, val_main_v6_apply, val_main_cst_apply, lin_at]
  simp only [Ideal.hostDivf_def, Ideal.maximumf_def, Ideal.hostUnary_sqrt_def, Ideal.ofBits_def, Ideal.ofBits_zero_f32,
    zero_add]
  unfold Spec.sent unitRow eps
  refine congrArg (Ideal.div _) (congrArg (max · _) (congrArg Ideal.sqrt (Finset.sum_congr rfl fun k _ => ?_)))
  rw [val_main_v5_apply, lin_at]
  rfl

end Cert.RefConv

end
-- ==== Proof.RefWords.lean ====
/-
  The reference's word-level result, from its three rectified convolution branches.

  The reference cuts rows 0..123 out of each branch and takes their maximum, takes row 124 of the two branches
  that reach it and row 125 of the width-2 branch alone, and lays the three pieces end to end along the word
  axis: entry [b, l, f] of the joined array is the specification's code b l f. Each row [b, l, ·] is then divided by
  the larger of its Euclidean length and the 1e-12 word, and the result is stored feature-major.
-/
import proofs.«158635_j84035330113648_1_alg».proof.Proof.Gen.ReferenceIdeal.Read
import proofs.«158635_j84035330113648_1_alg».proof.Proof.Spec
import Idealize.ShloMosaic.Lib.Pipeline.Value
import Idealize.ShloMosaic.Lib.ValueIdx
import Idealize.ShloMosaic.PureOps.Ideal.Laws

noncomputable section

namespace Cert.RefWords

open Cert.ReferenceIdeal Cert.ReferenceIdeal.Read Cert.Spec Idealize.ShloMosaic Idealize.ShloMosaic.TcCoe Idealize.SL.Sem

section Pieces

variable (x0 : (⟨S128x128x768, .f32⟩ : BufTy).Contents (Elt Ideal))
  (x2 : (⟨S1024x2x768, .f32⟩ : BufTy).Contents (Elt Ideal)) (x3 : (⟨S1024, .f32⟩ : BufTy).Contents (Elt Ideal))
  (x4 : (⟨S1024x3x768, .f32⟩ : BufTy).Contents (Elt Ideal)) (x5 : (⟨S1024, .f32⟩ : BufTy).Contents (Elt Ideal))
  (x6 : (⟨S1024x4x768, .f32⟩ : BufTy).Contents (Elt Ideal)) (x7 : (⟨S1024, .f32⟩ : BufTy).Contents (Elt Ideal))

/-- Rows 0..123: the maximum of the three branches at the same position. -/
theorem head_at
    (h2 : ∀ i : S128x127x1024.Idx, val_main_v27 (F := Ideal) x0 x2 x3 i = conv2 (nat3 x0) (nat3 x2) (nat1 x3) (i 0).val (i 1).val (i 2).val)
    (h3 : ∀ i : S128x126x1024.Idx, val_main_v47 (F := Ideal) x0 x4 x5 i = conv3 (nat3 x0) (nat3 x4) (nat1 x5) (i 0).val (i 1).val (i 2).val)
    (h4 : ∀ i : S128x125x1024.Idx, val_main_v72 (F := Ideal) x0 x6 x7 i = conv4 (nat3 x0) (nat3 x6) (nat1 x7) (i 0).val (i 1).val (i 2).val)
    (i : S128x124x1024.Idx) :
    val_main_v77 (F := Ideal) x0 x2 x3 x4 x5 x6 x7 i
      = max (max (conv2 (nat3 x0) (nat3 x2) (nat1 x3) (i 0).val (i 1).val (i 2).val)
          (conv3 (nat3 x0) (nat3 x4) (nat1 x5) (i 0).val (i 1).val (i 2).val))
          (conv4 (nat3 x0) (nat3 x6) (nat1 x7) (i 0).val (i 1).val (i 2).val) := by
  rw [val_main_v77_apply, val_main_v75_apply, val_main_v73_apply, val_main_v74_apply, val_main_v76_apply, h2, h3, h4]
  rfl

/-- A position b * 1024 + f with f < 1024 has quotient b by 1024. -/
theorem row_div (b f : Nat) (hf : f < 1024) : (b * 1024 + f) / 1024 = b := by omega

/-- A position b * 1024 + f with f < 1024 has remainder f by 1024. -/
theorem row_mod (b f : Nat) (hf : f < 1024) : (b * 1024 + f) % 1024 = f := by omega

/-- Row 124: the maximum of the width-2 and width-3 branches there. -/
theorem mid_at
    (h2 : ∀ i : S128x127x1024.Idx, val_main_v27 (F := Ideal) x0 x2 x3 i = conv2 (nat3 x0) (nat3 x2) (nat1 x3) (i 0).val (i 1).val (i 2).val)
    (h3 : ∀ i : S128x126x1024.Idx, val_main_v47 (F := Ideal) x0 x4 x5 i = conv3 (nat3 x0) (nat3 x4) (nat1 x5) (i 0).val (i 1).val (i 2).val)
    (i : S128x1x1024.Idx) :
    val_main_v83 (F := Ideal) x0 x2 x3 x4 x5 i
      = max (conv2 (nat3 x0) (nat3 x2) (nat1 x3) (i 0).val 124 (i 2).val)
          (conv3 (nat3 x0) (nat3 x4) (nat1 x5) (i 0).val 124 (i 2).val) := by
  rw [val_main_v83_apply, val_main_v82_apply, val_main_v79_apply, val_main_v81_apply, val_main_v78_apply,
    val_main_v80_apply, h2, h3]
  have hf : (i 2).val < 1024 := (i 2).isLt
  show max (conv2 (nat3 x0) (nat3 x2) (nat1 x3) (((i 0).val * 1024 + (i 2).val) / 1024) (124 + 0)
        (((i 0).val * 1024 + (i 2).val) % 1024))
      (conv3 (nat3 x0) (nat3 x4) (nat1 x5) (((i 0).val * 1024 + (i 2).val) / 1024) (124 + 0)
        (((i 0).val * 1024 + (i 2).val) % 1024)) = _
  rw [row_div _ _ hf, row_mod _ _ hf]

/-- Row 125: the width-2 branch there. -/
theorem last_at
    (h2 : ∀ i : S128x127x1024.Idx, val_main_v27 (F := Ideal) x0 x2 x3 i = conv2 (nat3 x0) (nat3 x2) (nat1 x3) (i 0).val (i 1).val (i 2).val)
    (i : S128x1x1024.Idx) :
    val_main_v86 (F := Ideal) x0 x2 x3 i = conv2 (nat3 x0) (nat3 x2) (nat1 x3) (i 0).val 125 (i 2).val := by
  rw [val_main_v86_apply, val_main_v85_apply, val_main_v84_apply, h2]
  have hf : (i 2).val < 1024 := (i 2).isLt
  show conv2 (nat3 x0) (nat3 x2) (nat1 x3) (((i 0).val * 1024 + (i 2).val) / 1024) (125 + 0)
        (((i 0).val * 1024 + (i 2).val) % 1024) = _
  rw [row_div _ _ hf, row_mod _ _ hf]

/-- The joined array at an index is the specification's code: the piece is chosen by the word coordinate. -/
theorem code_at
    (h2 : ∀ i : S128x127x1024.Idx, val_main_v27 (F := Ideal) x0 x2 x3 i = conv2 (nat3 x0) (nat3 x2) (nat1 x3) (i 0).val (i 1).val (i 2).val)
    (h3 : ∀ i : S128x126x1024.Idx, val_main_v47 (F := Ideal) x0 x4 x5 i = conv3 (nat3 x0) (nat3 x4) (nat1 x5) (i 0).val (i 1).val (i 2).val)
    (h4 : ∀ i : S128x125x1024.Idx, val_main_v72 (F := Ideal) x0 x6 x7 i = conv4 (nat3 x0) (nat3 x6) (nat1 x7) (i 0).val (i 1).val (i 2).val)
    (j : S128x126x1024.Idx) :
    val_main_v87 (F := Ideal) x0 x2 x3 x4 x5 x6 x7 j
      = code (nat3 x0) (nat3 x2) (nat1 x3) (nat3 x4) (nat1 x5) (nat3 x6) (nat1 x7) (j 0).val (j 1).val (j 2).val := by
  have hj : (j 1).val < 126 := (j 1).isLt
  unfold val_main_v87 code
  by_cases hA : (j 1).val < 124
  · rw [if_pos hA]
    rw [concatenate_apply_piece (1 : Fin S128x126x1024.rank)
      [⟨S128x124x1024, val_main_v77 (F := Ideal) x0 x2 x3 x4 x5 x6 x7⟩, ⟨S128x1x1024, val_main_v83 (F := Ideal) x0 x2 x3 x4 x5⟩,
        ⟨S128x1x1024, val_main_v86 (F := Ideal) x0 x2 x3⟩]
      Gen.concatenates_S128x124x1024_S128x1x1024_S128x1x1024_S128x126x1024_d1 j 0 (show (0 : Nat) < 3 by omega) S128x124x1024
      (val_main_v77 (F := Ideal) x0 x2 x3 x4 x5 x6 x7) rfl rfl 0 rfl
      (fun a => match a with
        | ⟨0, _⟩ => ⟨(j 0).val, (j 0).isLt⟩
        | ⟨1, _⟩ => ⟨(j 1).val, hA⟩
        | ⟨2, _⟩ => ⟨(j 2).val, (j 2).isLt⟩)
      (fun b => match b with
        | ⟨0, _⟩ => fun _ => rfl
        | ⟨1, _⟩ => fun hb => absurd rfl hb
        | ⟨2, _⟩ => fun _ => rfl)
      (Nat.zero_add _)]
    exact head_at x0 x2 x3 x4 x5 x6 x7 h2 h3 h4 _
  · rw [if_neg hA]
    by_cases hB : (j 1).val = 124
    · rw [if_pos hB]
      rw [concatenate_apply_piece (1 : Fin S128x126x1024.rank)
      [⟨S128x124x1024, val_main_v77 (F := Ideal) x0 x2 x3 x4 x5 x6 x7⟩, ⟨S128x1x1024, val_main_v83 (F := Ideal) x0 x2 x3 x4 x5⟩,
        ⟨S128x1x1024, val_main_v86 (F := Ideal) x0 x2 x3⟩]
      Gen.concatenates_S128x124x1024_S128x1x1024_S128x1x1024_S128x126x1024_d1 j 1 (show (1 : Nat) < 3 by omega) S128x1x1024
        (val_main_v83 (F := Ideal) x0 x2 x3 x4 x5) rfl rfl 124 rfl
        (fun a => match a with
          | ⟨0, _⟩ => ⟨(j 0).val, (j 0).isLt⟩
          | ⟨1, _⟩ => ⟨0, Nat.one_pos⟩
          | ⟨2, _⟩ => ⟨(j 2).val, (j 2).isLt⟩)
        (fun b => match b with
          | ⟨0, _⟩ => fun _ => rfl
          | ⟨1, _⟩ => fun hb => absurd rfl hb
          | ⟨2, _⟩ => fun _ => rfl)
        hB.symm]
      exact mid_at x0 x2 x3 x4 x5 h2 h3 _
    · rw [if_neg hB]
      have hC : (j 1).val = 125 := by omega
      rw [concatenate_apply_piece (1 : Fin S128x126x1024.rank)
      [⟨S128x124x1024, val_main_v77 (F := Ideal) x0 x2 x3 x4 x5 x6 x7⟩, ⟨S128x1x1024, val_main_v83 (F := Ideal) x0 x2 x3 x4 x5⟩,
        ⟨S128x1x1024, val_main_v86 (F := Ideal) x0 x2 x3⟩]
      Gen.concatenates_S128x124x1024_S128x1x1024_S128x1x1024_S128x126x1024_d1 j 2 (show (2 : Nat) < 3 by omega) S128x1x1024
        (val_main_v86 (F := Ideal) x0 x2 x3) rfl rfl 125 rfl
        (fun a => match a with
          | ⟨0, _⟩ => ⟨(j 0).val, (j 0).isLt⟩
          | ⟨1, _⟩ => ⟨0, Nat.one_pos⟩
          | ⟨2, _⟩ => ⟨(j 2).val, (j 2).isLt⟩)
        (fun b => match b with
          | ⟨0, _⟩ => fun _ => rfl
          | ⟨1, _⟩ => fun hb => absurd rfl hb
          | ⟨2, _⟩ => fun _ => rfl)
        hC.symm]
      exact last_at x0 x2 x3 h2 _

/-- The squared Euclidean length of a row of the code. -/
theorem sq_at
    (h2 : ∀ i : S128x127x1024.Idx, val_main_v27 (F := Ideal) x0 x2 x3 i = conv2 (nat3 x0) (nat3 x2) (nat1 x3) (i 0).val (i 1).val (i 2).val)
    (h3 : ∀ i : S128x126x1024.Idx, val_main_v47 (F := Ideal) x0 x4 x5 i = conv3 (nat3 x0) (nat3 x4) (nat1 x5) (i 0).val (i 1).val (i 2).val)
    (h4 : ∀ i : S128x125x1024.Idx, val_main_v72 (F := Ideal) x0 x6 x7 i = conv4 (nat3 x0) (nat3 x6) (nat1 x7) (i 0).val (i 1).val (i 2).val)
    (i : S128x126.Idx) :
    val_main_v89 (F := Ideal) x0 x2 x3 x4 x5 x6 x7 i
      = ∑ k : Fin 1024,
          code (nat3 x0) (nat3 x2) (nat1 x3) (nat3 x4) (nat1 x5) (nat3 x6) (nat1 x7) (i 0).val (i 1).val k.val
            * code (nat3 x0) (nat3 x2) (nat1 x3) (nat3 x4) (nat1 x5) (nat3 x6) (nat1 x7) (i 0).val (i 1).val k.val := by
  rw [val_main_v89_apply, val_main_cst_4_apply, Ideal.ofBits_def, Ideal.ofBits_zero_f32, zero_add]
  refine Finset.sum_congr rfl fun k _ => ?_
  rw [val_main_v88_apply, code_at x0 x2 x3 x4 x5 x6 x7 h2 h3 h4, Ideal.mulf_def]

/-- An entry of the scaled code, before the axes are exchanged. -/
theorem unit_at
    (h2 : ∀ i : S128x127x1024.Idx, val_main_v27 (F := Ideal) x0 x2 x3 i = conv2 (nat3 x0) (nat3 x2) (nat1 x3) (i 0).val (i 1).val (i 2).val)
    (h3 : ∀ i : S128x126x1024.Idx, val_main_v47 (F := Ideal) x0 x4 x5 i = conv3 (nat3 x0) (nat3 x4) (nat1 x5) (i 0).val (i 1).val (i 2).val)
    (h4 : ∀ i : S128x125x1024.Idx, val_main_v72 (F := Ideal) x0 x6 x7 i = conv4 (nat3 x0) (nat3 x6) (nat1 x7) (i 0).val (i 1).val (i 2).val)
    (j : S128x126x1024.Idx) :
    val_main_v95 (F := Ideal) x0 x2 x3 x4 x5 x6 x7 j
      = unitRow (fun f => code (nat3 x0) (nat3 x2) (nat1 x3) (nat3 x4) (nat1 x5) (nat3 x6) (nat1 x7) (j 0).val (j 1).val f)
          (j 2).val := by
  rw [val_main_v95_apply, val_main_v94_apply, val_main_v93_apply, val_main_v91_apply, val_main_v90_apply,
    val_main_v92_apply, val_main_cst_5_apply, sq_at x0 x2 x3 x4 x5 x6 x7 h2 h3 h4,
    code_at x0 x2 x3 x4 x5 x6 x7 h2 h3 h4, Ideal.hostDivf_def, Ideal.maximumf_def, Ideal.hostUnary_sqrt_def,
    Ideal.ofBits_def]
  rfl

end Pieces

/-- The reference's word-level result is the specification's. -/
theorem ref_words (x0 : (⟨S128x128x768, .f32⟩ : BufTy).Contents (Elt Ideal)) (x2 : (⟨S1024x2x768, .f32⟩ : BufTy).Contents (Elt Ideal)) (x3 : (⟨S1024, .f32⟩ : BufTy).Contents (Elt Ideal)) (x4 : (⟨S1024x3x768, .f32⟩ : BufTy).Contents (Elt Ideal)) (x5 : (⟨S1024, .f32⟩ : BufTy).Contents (Elt Ideal)) (x6 : (⟨S1024x4x768, .f32⟩ : BufTy).Contents (Elt Ideal)) (x7 : (⟨S1024, .f32⟩ : BufTy).Contents (Elt Ideal))
    (h2 : ∀ i : S128x127x1024.Idx, val_main_v27 (F := Ideal) x0 x2 x3 i = conv2 (nat3 x0) (nat3 x2) (nat1 x3) (i 0).val (i 1).val (i 2).val)
    (h3 : ∀ i : S128x126x1024.Idx, val_main_v47 (F := Ideal) x0 x4 x5 i = conv3 (nat3 x0) (nat3 x4) (nat1 x5) (i 0).val (i 1).val (i 2).val)
    (h4 : ∀ i : S128x125x1024.Idx, val_main_v72 (F := Ideal) x0 x6 x7 i = conv4 (nat3 x0) (nat3 x6) (nat1 x7) (i 0).val (i 1).val (i 2).val) :
    val_main_v96 (F := Ideal) x0 x2 x3 x4 x5 x6 x7 = Spec.words (nat3 x0) (nat3 x2) (nat1 x3) (nat3 x4) (nat1 x5) (nat3 x6) (nat1 x7) := by
  funext i
  rw [val_main_v96_apply, unit_at x0 x2 x3 x4 x5 x6 x7 h2 h3 h4]
  rfl

end Cert.RefWords

end
-- ==== Proof.lean ====
/-
  The certificate's claims assembled.

  Both programs compute, for batch row b, position l and feature f, the code
      code[b, l, f] = max over the convolution branches that reach position l of
                      max(Σ_k Σ_d words[b, l + k, d] · W_K[f, k, d] + b_K[f], 0)      (K = 2, 3, 4; l < 124: all three;
                                                                                       l = 124: K = 2, 3; l = 125: K = 2)
  scaled along f to Euclidean length one (divided by max(√Σ_f code², ε)) and stored feature-major, and the affine image
  Σ_d sent[b, d] · Wp[f, d] + bp[f] of the sentence vector scaled the same way (Proof/Spec.lean).

  The kernel works on four batch rows per grid point with transposed, narrowed weights (narrowing is the identity on the
  extended reals), reshapes each shifted window of the word block to a matrix for one product per tap, and scales rows
  0 … 123, 124 and 125 separately; the reference slices the whole arrays, concatenates the three parts and scales once.
  Scaling is row by row, a product with one contracted axis is the same finite sum on both sides, and the taps are added in
  the same order, so both are the specification's functions of the arguments (Proof/KernelRun.lean for the kernel, over
  Proof/InBlocks.lean, ConvBlocks.lean, NormPieces.lean, OutBlock.lean, Arrays.lean; Proof/RefConv.lean and
  RefWords.lean for the reference). No law used needs the inputs finite, so the precondition is never opened.
  The frames are the generated ones; the ideal pass rewrote nothing, so `preserves` is `True`.
-/
import proofs.«158635_j84035330113648_1_alg».proof.Defs
import proofs.«158635_j84035330113648_1_alg».proof.Proof.Gen.Kernel
import proofs.«158635_j84035330113648_1_alg».proof.Proof.Gen.Kernel.Skeleton
import proofs.«158635_j84035330113648_1_alg».proof.Proof.Gen.Kernel.Launch
import proofs.«158635_j84035330113648_1_alg».proof.Proof.Gen.Kernel.Points
import proofs.«158635_j84035330113648_1_alg».proof.Proof.Gen.Kernel.Frame
import proofs.«158635_j84035330113648_1_alg».proof.Proof.Gen.KernelIdeal
import proofs.«158635_j84035330113648_1_alg».proof.Proof.Gen.KernelIdeal.Skeleton
import proofs.«158635_j84035330113648_1_alg».proof.Proof.Gen.KernelIdeal.Launch
import proofs.«158635_j84035330113648_1_alg».proof.Proof.Gen.KernelIdeal.Points
import proofs.«158635_j84035330113648_1_alg».proof.Proof.Gen.KernelIdeal.Frame
import proofs.«158635_j84035330113648_1_alg».proof.Proof.Gen.ReferenceIdeal
import proofs.«158635_j84035330113648_1_alg».proof.Proof.Gen.Pre_finite_inputs
import proofs.«158635_j84035330113648_1_alg».proof.Proof.Gen.ReferenceIdeal.Run
import proofs.«158635_j84035330113648_1_alg».proof.Proof.Gen.ReferenceIdeal.Read
import proofs.«158635_j84035330113648_1_alg».proof.Proof.KernelRun
import proofs.«158635_j84035330113648_1_alg».proof.Proof.RefConv
import proofs.«158635_j84035330113648_1_alg».proof.Proof.RefWords
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both runs end at the specification's `words` and `sent` of arguments that agree. -/
theorem algebraic : Cert.algebraic_KernelIdeal_ReferenceIdeal := by
  intro m ρ m' ρ' _ hagree
  refine ⟨fun c => Spec.words (nat3 (m ((c.tc : Thread Cert.KernelIdeal.nD Cert.KernelIdeal.τ).loc Cert.KernelIdeal.main_arg0))) (nat3 (m ((c.tc : Thread Cert.KernelIdeal.nD Cert.KernelIdeal.τ).loc Cert.KernelIdeal.main_arg2))) (nat1 (m ((c.tc : Thread Cert.KernelIdeal.nD Cert.KernelIdeal.τ).loc Cert.KernelIdeal.main_arg3))) (nat3 (m ((c.tc : Thread Cert.KernelIdeal.nD Cert.KernelIdeal.τ).loc Cert.KernelIdeal.main_arg4))) (nat1 (m ((c.tc : Thread Cert.KernelIdeal.nD Cert.KernelIdeal.τ).loc Cert.KernelIdeal.main_arg5))) (nat3 (m ((c.tc : Thread Cert.KernelIdeal.nD Cert.KernelIdeal.τ).loc Cert.KernelIdeal.main_arg6))) (nat1 (m ((c.tc : Thread Cert.KernelIdeal.nD Cert.KernelIdeal.τ).loc Cert.KernelIdeal.main_arg7))),
    fun c => Spec.sent (nat2 (m ((c.tc : Thread Cert.KernelIdeal.nD Cert.KernelIdeal.τ).loc Cert.KernelIdeal.main_arg1))) (nat2 (m ((c.tc : Thread Cert.KernelIdeal.nD Cert.KernelIdeal.τ).loc Cert.KernelIdeal.main_arg8))) (nat1 (m ((c.tc : Thread Cert.KernelIdeal.nD Cert.KernelIdeal.τ).loc Cert.KernelIdeal.main_arg9))),
    Cert.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v96_eq,
      Cert.RefWords.ref_words _ _ _ _ _ _ _ (Cert.RefConv.ref_conv2 _ _ _) (Cert.RefConv.ref_conv3 _ _ _) (Cert.RefConv.ref_conv4 _ _ _),
      (hagree c).1, (hagree c).2.2.1, (hagree c).2.2.2.1, (hagree c).2.2.2.2.1, (hagree c).2.2.2.2.2.1,
      (hagree c).2.2.2.2.2.2.1, (hagree c).2.2.2.2.2.2.2.1]
  · rw [Cert.ReferenceIdeal.Read.val_main_v12_eq, Cert.RefConv.ref_sent,
      (hagree c).2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
